-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x128 : Shape := ⟨3, ![2, 2048, 128]⟩
abbrev S2x2048x2048 : Shape := ⟨3, ![2, 2048, 2048]⟩
abbrev S2048x2048 : Shape := ⟨2, ![2048, 2048]⟩
abbrev S128x128 : Shape := ⟨2, ![128, 128]⟩
abbrev S128 : Shape := ⟨1, ![128]⟩
abbrev S_ : Shape := ⟨0, ![]⟩

class Facts : Prop where
  bcast_S_S2x2048x128 : S_.BroadcastsInDim S2x2048x128 (![] : Fin 0 → Fin S2x2048x128.rank)
  reducesTo_S2x2048x128_S_d0_1_2 : S2x2048x128.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_v33

def fn {F : FTy → Type} [FloatOps F] (main_arg0 : FVec F S2x2048x128 .f32) (main_arg1 : IVec S2x2048x2048 32) (main_arg2 : FVec F S2048x2048 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S2x2048x128 .f32 := Host.absf main_arg0
  let main_cst : FVec F S_ .f32 := constant S_ .f32 0x7F800000#32
  let main_v1 : FVec F S2x2048x128 .f32 := broadcastInDim S2x2048x128 ![] bcast_S_S2x2048x128 main_cst
  let main_v2 : IVec S2x2048x128 1 := cmpf .olt main_v0 main_v1
  let main_c : IVec S_ 1 := constantI S_ 1 1#1
  let main_v3 : IVec S_ 1 := (fun x v => Host.reduce IntOp.andi x v reducesTo_S2x2048x128_S_d0_1_2 h_S_) main_v2 main_c
  let main_v4 : FVec F S2048x2048 .f32 := Host.absf main_arg2
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S2x2048x128 : Shape := ⟨3, ![2, 2048, 128]⟩
abbrev S2x2048x2048 : Shape := ⟨3, ![2, 2048, 2048]⟩
abbrev S2048x2048 : Shape := ⟨2, ![2048, 2048]⟩
abbrev S128x128 : Shape := ⟨2, ![128, 128]⟩
abbrev S128 : Shape := ⟨1, ![128]⟩
abbrev S4096x128 : Shape := ⟨2, ![4096, 128]⟩
abbrev S384x128 : Shape := ⟨2, ![384, 128]⟩
abbrev S128x384 : Shape := ⟨2, ![128, 384]⟩
abbrev S384 : Shape := ⟨1, ![384]⟩
abbrev S1x384 : Shape := ⟨2, ![1, 384]⟩
abbrev S4096x384 : Shape := ⟨2, ![4096, 384]⟩
abbrev S512x128 : Shape := ⟨2, ![512, 128]⟩
abbrev S512x384 : Shape := ⟨2, ![512, 384]⟩
abbrev S2x2048x8x16 : Shape := ⟨4, ![2, 2048, 8, 16]⟩
abbrev S2x8x16x2048 : Shape := ⟨4, ![2, 8, 16, 2048]⟩
abbrev S2x8x2048x2048 : Shape := ⟨4, ![2, 8, 2048, 2048]⟩
abbrev S1x8x16x128 : Shape := ⟨4, ![1, 8, 16, 128]⟩
abbrev S1x8x16x2048 : Shape := ⟨4, ![1, 8, 16, 2048]⟩
abbrev S1x128x2048 : Shape := ⟨3, ![1, 128, 2048]⟩
abbrev S128x2048 : Shape := ⟨2, ![128, 2048]⟩
abbrev S1x128x128 : Shape := ⟨3, ![1, 128, 128]⟩
abbrev S1x8x128x2048 : Shape := ⟨4, ![1, 8, 128, 2048]⟩
abbrev S1x1x16x128 : Shape := ⟨4, ![1, 1, 16, 128]⟩
abbrev S16x128 : Shape := ⟨2, ![16, 128]⟩
abbrev S128x16 : Shape := ⟨2, ![128, 16]⟩
abbrev S1x1x16x2048 : Shape := ⟨4, ![1, 1, 16, 2048]⟩
abbrev S16x2048 : Shape := ⟨2, ![16, 2048]⟩
abbrev S128x1 : Shape := ⟨2, ![128, 1]⟩
abbrev S1x1x128x2048 : Shape := ⟨4, ![1, 1, 128, 2048]⟩
abbrev S1x128x16 : Shape := ⟨3, ![1, 128, 16]⟩
abbrev S8x128x16 : Shape := ⟨3, ![8, 128, 16]⟩
abbrev S128x16x8 : Shape := ⟨3, ![128, 16, 8]⟩

abbrev nBuf : Space → Nat
  | .hbm => 26
  | .vmem => 20
  | .smem => 0
  | _ => 0

abbrev bufTy : (tb : Table) → Fin (tcTables nBuf tb) → BufTy
  | .hbm, ⟨0, _⟩ => ⟨S2x2048x128, .f32⟩
  | .hbm, ⟨1, _⟩ => ⟨S2x2048x2048, .i32⟩
  | .hbm, ⟨2, _⟩ => ⟨S2048x2048, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S4096x128, .f32⟩
  | .hbm, ⟨10, _⟩ => ⟨S384x128, .f32⟩
  | .hbm, ⟨11, _⟩ => ⟨S128x384, .f32⟩
  | .hbm, ⟨12, _⟩ => ⟨S384, .f32⟩
  | .hbm, ⟨13, _⟩ => ⟨S1x384, .f32⟩
  | .hbm, ⟨14, _⟩ => ⟨S4096x384, .f32⟩
  | .hbm, ⟨15, _⟩ => ⟨S4096x128, .f32⟩
  | .hbm, ⟨16, _⟩ => ⟨S4096x128, .f32⟩
  | .hbm, ⟨17, _⟩ => ⟨S4096x128, .f32⟩
  | .hbm, ⟨18, _⟩ => ⟨S2x2048x8x16, .f32⟩
  | .hbm, ⟨19, _⟩ => ⟨S2x8x16x2048, .f32⟩
  | .hbm, ⟨20, _⟩ => ⟨S2x2048x8x16, .f32⟩
  | .hbm, ⟨21, _⟩ => ⟨S2x8x16x2048, .f32⟩
  | .hbm, ⟨22, _⟩ => ⟨S2x2048x8x16, .f32⟩
  | .hbm, ⟨23, _⟩ => ⟨S2x8x16x2048, .f32⟩
  | .hbm, ⟨24, _⟩ => ⟨S2x2048x128, .f32⟩
  | .hbm, ⟨25, _⟩ => ⟨S2x8x2048x2048, .f32⟩
  | .local _ .vmem, ⟨0, _⟩ => ⟨S512x128, .f32⟩
  | .local _ .vmem, ⟨1, _⟩ => ⟨S512x128, .f32⟩
  | .local _ .vmem, ⟨2, _⟩ => ⟨S128x384, .f32⟩
  | .local _ .vmem, ⟨3, _⟩ => ⟨S1x384, .f32⟩
  | .local _ .vmem, ⟨4, _⟩ => ⟨S512x384, .f32⟩
  | .local _ .vmem, ⟨5, _⟩ => ⟨S512x384, .f32⟩
  | .local _ .vmem, ⟨6, _⟩ => ⟨S1x8x16x128, .f32⟩
  | .local _ .vmem, ⟨7, _⟩ => ⟨S1x8x16x128, .f32⟩
  | .local _ .vmem, ⟨8, _⟩ => ⟨S1x8x16x2048, .f32⟩
  | .local _ .vmem, ⟨9, _⟩ => ⟨S1x8x16x2048, .f32⟩
  | .local _ .vmem, ⟨10, _⟩ => ⟨S1x8x16x2048, .f32⟩
  | .local _ .vmem, ⟨11, _⟩ => ⟨S1x8x16x2048, .f32⟩
  | .local _ .vmem, ⟨12, _⟩ => ⟨S1x128x2048, .i32⟩
  | .local _ .vmem, ⟨13, _⟩ => ⟨S1x128x2048, .i32⟩
  | .local _ .vmem, ⟨14, _⟩ => ⟨S128x2048, .f32⟩
  | .local _ .vmem, ⟨15, _⟩ => ⟨S128x2048, .f32⟩
  | .local _ .vmem, ⟨16, _⟩ => ⟨S1x128x128, .f32⟩
  | .local _ .vmem, ⟨17, _⟩ => ⟨S1x128x128, .f32⟩
  | .local _ .vmem, ⟨18, _⟩ => ⟨S1x8x128x2048, .f32⟩
  | .local _ .vmem, ⟨19, _⟩ => ⟨S1x8x128x2048, .f32⟩
  | _, _ => ⟨S2x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x8x16x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8x16x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x8x16x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x128x2048 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S128x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x128x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x8x128x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  shapeCasts_S2x2048x128_S4096x128 : S2x2048x128.ShapeCasts S4096x128
  concatenates_S128x128_S128x128_S128x128_S384x128_d0 : Shape.Concatenates [S128x128, S128x128, S128x128] S384x128 0
  transposes_S384x128_S128x384_1_0 : S384x128.Transposes [1, 0] S128x384
  concatenates_S128_S128_S128_S384_d0 : Shape.Concatenates [S128, S128, S128] S384 0
  shapeCasts_S384_S1x384 : S384.ShapeCasts S1x384
  inb_S512x128_S512x128_0_0 : ∀ a, (![0, 0] : Fin 2 → Nat) a + S512x128.size a ≤ S512x128.size a
  h_S512x128 : 0 < S512x128.numel
  shapeCasts_S512x128_S512x128 : S512x128.ShapeCasts S512x128
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S512x384 : S1x384.Broadcasts S512x384
  inb_S512x384_S512x384_0_0 : ∀ a, (![0, 0] : Fin 2 → Nat) a + S512x384.size a ≤ S512x384.size a
  h_S512x384 : 0 < S512x384.numel
  slices_S4096x384_S4096x128_0_0 : S4096x384.Slices ![0, 0] S4096x128
  slices_S4096x384_S4096x128_0_128 : S4096x384.Slices ![0, 128] S4096x128
  slices_S4096x384_S4096x128_0_256 : S4096x384.Slices ![0, 256] S4096x128
  shapeCasts_S4096x128_S2x2048x8x16 : S4096x128.ShapeCasts S2x2048x8x16
  transposes_S2x2048x8x16_S2x8x16x2048_0_2_3_1 : S2x2048x8x16.Transposes [0, 2, 3, 1] S2x8x16x2048
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  iota_S128x2048_d0_w32 : S128x2048.Iotas .tc 32 [0]
  iota_S128x2048_d1_w32 : S128x2048.Iotas .tc 32 [1]
  inb_S128x2048_S128x2048_0_0 : ∀ a, (![0, 0] : Fin 2 → Nat) a + S128x2048.size a ≤ S128x2048.size a
  h_S128x2048 : 0 < S128x2048.numel
  inb_S1x8x16x128_S1x1x16x128_0_0_0_0 : ∀ a, (![0, 0, 0, 0] : Fin 4 → Nat) a + S1x1x16x128.size a ≤ S1x8x16x128.size a
  h_S1x1x16x128 : 0 < S1x1x16x128.numel
  shapeCasts_S1x1x16x128_S16x128 : S1x1x16x128.ShapeCasts S16x128
  transposes_S16x128_p1_0_S128x16 : S16x128.Transposes [1, 0] S128x16
  inb_S1x8x16x2048_S1x1x16x2048_0_0_0_0 : ∀ a, (![0, 0, 0, 0] : Fin 4 → Nat) a + S1x1x16x2048.size a ≤ S1x8x16x2048.size a
  h_S1x1x16x2048 : 0 < S1x1x16x2048.numel
  shapeCasts_S1x1x16x2048_S16x2048 : S1x1x16x2048.ShapeCasts S16x2048
  reduces_S128x2048_S128 : S128x2048.Reduces [1] S128
  shapeCasts_S128_S128x1 : S128.ShapeCasts S128x1
  broadcasts_S128x1_S128x2048 : S128x1.Broadcasts S128x2048
  inb_S1x8x128x2048_S1x1x128x2048_0_0_0_0 : ∀ a, (![0, 0, 0, 0] : Fin 4 → Nat) a + S1x1x128x2048.size a ≤ S1x8x128x2048.size a
  h_S1x1x128x2048 : 0 < S1x1x128x2048.numel
  shapeCasts_S1x1x128x2048_S128x2048 : S1x1x128x2048.ShapeCasts S128x2048
  shapeCasts_S128x2048_S1x1x128x2048 : S128x2048.ShapeCasts S1x1x128x2048
  inb_S1x8x16x128_S1x1x16x128_0_1_0_0 : ∀ a, (![0, 1, 0, 0] : Fin 4 → Nat) a + S1x1x16x128.size a ≤ S1x8x16x128.size a
  inb_S1x8x16x2048_S1x1x16x2048_0_1_0_0 : ∀ a, (![0, 1, 0, 0] : Fin 4 → Nat) a + S1x1x16x2048.size a ≤ S1x8x16x2048.size a
  inb_S1x8x128x2048_S1x1x128x2048_0_1_0_0 : ∀ a, (![0, 1, 0, 0] : Fin 4 → Nat) a + S1x1x128x2048.size a ≤ S1x8x128x2048.size a
  inb_S1x8x16x128_S1x1x16x128_0_2_0_0 : ∀ a, (![0, 2, 0, 0] : Fin 4 → Nat) a + S1x1x16x128.size a ≤ S1x8x16x128.size a
  inb_S1x8x16x2048_S1x1x16x2048_0_2_0_0 : ∀ a, (![0, 2, 0, 0] : Fin 4 → Nat) a + S1x1x16x2048.size a ≤ S1x8x16x2048.size a
  inb_S1x8x128x2048_S1x1x128x2048_0_2_0_0 : ∀ a, (![0, 2, 0, 0] : Fin 4 → Nat) a + S1x1x128x2048.size a ≤ S1x8x128x2048.size a
  inb_S1x8x16x128_S1x1x16x128_0_3_0_0 : ∀ a, (![0, 3, 0, 0] : Fin 4 → Nat) a + S1x1x16x128.size a ≤ S1x8x16x128.size a
  inb_S1x8x16x2048_S1x1x16x2048_0_3_0_0 : ∀ a, (![0, 3, 0, 0] : Fin 4 → Nat) a + S1x1x16x2048.size a ≤ S1x8x16x2048.size a
  inb_S1x8x128x2048_S1x1x128x2048_0_3_0_0 : ∀ a, (![0, 3, 0, 0] : Fin 4 → Nat) a + S1x1x128x2048.size a ≤ S1x8x128x2048.size a
  inb_S1x8x16x128_S1x1x16x128_0_4_0_0 : ∀ a, (![0, 4, 0, 0] : Fin 4 → Nat) a + S1x1x16x128.size a ≤ S1x8x16x128.size a
  inb_S1x8x16x2048_S1x1x16x2048_0_4_0_0 : ∀ a, (![0, 4, 0, 0] : Fin 4 → Nat) a + S1x1x16x2048.size a ≤ S1x8x16x2048.size a
  inb_S1x8x128x2048_S1x1x128x2048_0_4_0_0 : ∀ a, (![0, 4, 0, 0] : Fin 4 → Nat) a + S1x1x128x2048.size a ≤ S1x8x128x2048.size a
  inb_S1x8x16x128_S1x1x16x128_0_5_0_0 : ∀ a, (![0, 5, 0, 0] : Fin 4 → Nat) a + S1x1x16x128.size a ≤ S1x8x16x128.size a
  inb_S1x8x16x2048_S1x1x16x2048_0_5_0_0 : ∀ a, (![0, 5, 0, 0] : Fin 4 → Nat) a + S1x1x16x2048.size a ≤ S1x8x16x2048.size a
  inb_S1x8x128x2048_S1x1x128x2048_0_5_0_0 : ∀ a, (![0, 5, 0, 0] : Fin 4 → Nat) a + S1x1x128x2048.size a ≤ S1x8x128x2048.size a
  inb_S1x8x16x128_S1x1x16x128_0_6_0_0 : ∀ a, (![0, 6, 0, 0] : Fin 4 → Nat) a + S1x1x16x128.size a ≤ S1x8x16x128.size a
  inb_S1x8x16x2048_S1x1x16x2048_0_6_0_0 : ∀ a, (![0, 6, 0, 0] : Fin 4 → Nat) a + S1x1x16x2048.size a ≤ S1x8x16x2048.size a
  inb_S1x8x128x2048_S1x1x128x2048_0_6_0_0 : ∀ a, (![0, 6, 0, 0] : Fin 4 → Nat) a + S1x1x128x2048.size a ≤ S1x8x128x2048.size a
  inb_S1x8x16x128_S1x1x16x128_0_7_0_0 : ∀ a, (![0, 7, 0, 0] : Fin 4 → Nat) a + S1x1x16x128.size a ≤ S1x8x16x128.size a
  inb_S1x8x16x2048_S1x1x16x2048_0_7_0_0 : ∀ a, (![0, 7, 0, 0] : Fin 4 → Nat) a + S1x1x16x2048.size a ≤ S1x8x16x2048.size a
  inb_S1x8x128x2048_S1x1x128x2048_0_7_0_0 : ∀ a, (![0, 7, 0, 0] : Fin 4 → Nat) a + S1x1x128x2048.size a ≤ S1x8x128x2048.size a
  shapeCasts_S128x16_S1x128x16 : S128x16.ShapeCasts S1x128x16
  concatenates_S1x128x16_S1x128x16_S1x128x16_S1x128x16_S1x128x16_S1x128x16_S1x128x16_S1x128x16_S8x128x16_d0 : Shape.Concatenates [S1x128x16, S1x128x16, S1x128x16, S1x128x16, S1x128x16, S1x128x16, S1x128x16, S1x128x16] S8x128x16 0
  transposes_S8x128x16_p1_2_0_S128x16x8 : S8x128x16.Transposes [1, 2, 0] S128x16x8
  shapeCasts_S128x16x8_S128x128 : S128x16x8.ShapeCasts S128x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  dot_S512x128_S128x384_S512x384_1_0_0_1_n_n_wf : DotDims.WF S512x128 S128x384 S512x384 [1] [0] [0] [1] [] []
  dot_S128x16_S16x2048_S128x2048_1_0_0_1_n_n_wf : DotDims.WF S128x16 S16x2048 S128x2048 [1] [0] [0] [1] [] []
  dot_S128x2048_S16x2048_S128x16_1_1_0_0_n_n_wf : DotDims.WF S128x2048 S16x2048 S128x16 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S4096x128.size a
  hwx0_0 : ∀ i : grid0.Coords, EltTy.bits .f32 = 32 ∨ (Rect.block (s := S4096x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x384.size a
  hwx0_2 : ∀ i : grid0.Coords, EltTy.bits .f32 = 32 ∨ (Rect.block (s := S1x384) S1x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x384.size a ≤ S4096x384.size a
  hwx0_3 : ∀ i : grid0.Coords, EltTy.bits .f32 = 32 ∨ (Rect.block (s := S4096x384) S512x384.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8x16x128.size a ≤ S2x8x16x2048.size a
  hwx1_0 : ∀ i : grid1.Coords, EltTy.bits .f32 = 32 ∨ (Rect.block (s := S2x8x16x2048) S1x8x16x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x8x16x2048.size a ≤ S2x8x16x2048.size a
  hwx1_1 : ∀ i : grid1.Coords, EltTy.bits .f32 = 32 ∨ (Rect.block (s := S2x8x16x2048) S1x8x16x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x8x16x2048.size a ≤ S2x8x16x2048.size a
  hwx1_2 : ∀ i : grid1.Coords, EltTy.bits .f32 = 32 ∨ (Rect.block (s := S2x8x16x2048) S1x8x16x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x2048.size a ≤ S2x2048x2048.size a
  hwx1_3 : ∀ i : grid1.Coords, EltTy.bits .i32 = 32 ∨ (Rect.block (s := S2x2048x2048) S1x128x2048.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x2048.size a ≤ S2048x2048.size a
  hwx1_4 : ∀ i : grid1.Coords, EltTy.bits .f32 = 32 ∨ (Rect.block (s := S2048x2048) S128x2048.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x128x128.size a ≤ S2x2048x128.size a
  hwx1_5 : ∀ i : grid1.Coords, EltTy.bits .f32 = 32 ∨ (Rect.block (s := S2x2048x128) S1x128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x8x128x2048.size a ≤ S2x8x2048x2048.size a
  hwx1_6 : ∀ i : grid1.Coords, EltTy.bits .f32 = 32 ∨ (Rect.block (s := S2x8x2048x2048) S1x8x128x2048.size (cc1_transform_6 i) (hinb1_6 i)).WholeWords (EltTy.packing .f32)

variable [Facts₀]

def dot_S512x128_S128x384_S512x384_1_0_0_1_n_n : DotDims S512x128 S128x384 S512x384 where
  lhsContracting := [1]
  rhsContracting := [0]
  lhsNonContracting := [0]
  rhsNonContracting := [1]
  lhsBatch := []
  rhsBatch := []
  wf := dot_S512x128_S128x384_S512x384_1_0_0_1_n_n_wf
def dot_S128x16_S16x2048_S128x2048_1_0_0_1_n_n : DotDims S128x16 S16x2048 S128x2048 where
  lhsContracting := [1]
  rhsContracting := [0]
  lhsNonContracting := [0]
  rhsNonContracting := [1]
  lhsBatch := []
  rhsBatch := []
  wf := dot_S128x16_S16x2048_S128x2048_1_0_0_1_n_n_wf
def dot_S128x2048_S16x2048_S128x16_1_1_0_0_n_n : DotDims S128x2048 S16x2048 S128x16 where
  lhsContracting := [1]
  rhsContracting := [1]
  lhsNonContracting := [0]
  rhsNonContracting := [0]
  lhsBatch := []
  rhsBatch := []
  wf := dot_S128x2048_S16x2048_S128x16_1_1_0_0_n_n_wf

abbrev win0_0 : Pipeline.Window sig grid0 :=
  Pipeline.Window.ofSpec (Memref.whole main_v0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S1x8x16x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x8x16x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x8x16x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S1x128x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S128x2048.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v15_0) S1x128x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v15_1) S1x8x128x2048.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S2x2048x128 : Shape := ⟨3, ![2, 2048, 128]⟩
abbrev S2x2048x2048 : Shape := ⟨3, ![2, 2048, 2048]⟩
abbrev S2048x2048 : Shape := ⟨2, ![2048, 2048]⟩
abbrev S128x128 : Shape := ⟨2, ![128, 128]⟩
abbrev S128 : Shape := ⟨1, ![128]⟩
abbrev S_ : Shape := ⟨0, ![]⟩
abbrev S1x1x128 : Shape := ⟨3, ![1, 1, 128]⟩
abbrev S2x2048x8x16 : Shape := ⟨4, ![2, 2048, 8, 16]⟩
abbrev S2x8x2048x16 : Shape := ⟨4, ![2, 8, 2048, 16]⟩
abbrev S2x8x2048x2048 : Shape := ⟨4, ![2, 8, 2048, 2048]⟩
abbrev S2048 : Shape := ⟨1, ![2048]⟩
abbrev S2048x1 : Shape := ⟨2, ![2048, 1]⟩
abbrev S2048x2 : Shape := ⟨2, ![2048, 2]⟩
abbrev S1x1x2048x2048 : Shape := ⟨4, ![1, 1, 2048, 2048]⟩
abbrev S2x1x2048x2048 : Shape := ⟨4, ![2, 1, 2048, 2048]⟩
abbrev S2x8x2048 : Shape := ⟨3, ![2, 8, 2048]⟩
abbrev S2x8x2048x1 : Shape := ⟨4, ![2, 8, 2048, 1]⟩
abbrev S2x2048x16x8 : Shape := ⟨4, ![2, 2048, 16, 8]⟩

abbrev nBuf : Space → Nat
  | .hbm => 81
  | .vmem => 0
  | .smem => 0
  | _ => 0

abbrev bufTy : (tb : Table) → Fin (tcTables nBuf tb) → BufTy
  | .hbm, ⟨0, _⟩ => ⟨S2x2048x128, .f32⟩
  | .hbm, ⟨1, _⟩ => ⟨S2x2048x2048, .i32⟩
  | .hbm, ⟨2, _⟩ => ⟨S2048x2048, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S_, .f32⟩
  | .hbm, ⟨11, _⟩ => ⟨S2x2048x128, .f32⟩
  | .hbm, ⟨12, _⟩ => ⟨S1x1x128, .f32⟩
  | .hbm, ⟨13, _⟩ => ⟨S2x2048x128, .f32⟩
  | .hbm, ⟨14, _⟩ => ⟨S2x2048x128, .f32⟩
  | .hbm, ⟨15, _⟩ => ⟨S2x2048x8x16, .f32⟩
  | .hbm, ⟨16, _⟩ => ⟨S2x8x2048x16, .f32⟩
  | .hbm, ⟨17, _⟩ => ⟨S2x2048x128, .f32⟩
  | .hbm, ⟨18, _⟩ => ⟨S1x1x128, .f32⟩
  | .hbm, ⟨19, _⟩ => ⟨S2x2048x128, .f32⟩
  | .hbm, ⟨20, _⟩ => ⟨S2x2048x128, .f32⟩
  | .hbm, ⟨21, _⟩ => ⟨S2x2048x8x16, .f32⟩
  | .hbm, ⟨22, _⟩ => ⟨S2x8x2048x16, .f32⟩
  | .hbm, ⟨23, _⟩ => ⟨S2x2048x128, .f32⟩
  | .hbm, ⟨24, _⟩ => ⟨S1x1x128, .f32⟩
  | .hbm, ⟨25, _⟩ => ⟨S2x2048x128, .f32⟩
  | .hbm, ⟨26, _⟩ => ⟨S2x2048x128, .f32⟩
  | .hbm, ⟨27, _⟩ => ⟨S2x2048x8x16, .f32⟩
  | .hbm, ⟨28, _⟩ => ⟨S2x8x2048x16, .f32⟩
  | .hbm, ⟨29, _⟩ => ⟨S2x8x2048x2048, .f32⟩
  | .hbm, ⟨30, _⟩ => ⟨S2x8x2048x2048, .f32⟩
  | .hbm, ⟨31, _⟩ => ⟨S2x8x2048x2048, .f32⟩
  | .hbm, ⟨32, _⟩ => ⟨S2048, .i32⟩
  | .hbm, ⟨33, _⟩ => ⟨S_, .i32⟩
  | .hbm, ⟨34, _⟩ => ⟨S2048, .i32⟩
  | .hbm, ⟨35, _⟩ => ⟨S2048, .i1⟩
  | .hbm, ⟨36, _⟩ => ⟨S_, .i32⟩
  | .hbm, ⟨37, _⟩ => ⟨S2048, .i32⟩
  | .hbm, ⟨38, _⟩ => ⟨S2048, .i32⟩
  | .hbm, ⟨39, _⟩ => ⟨S2048, .i32⟩
  | .hbm, ⟨40, _⟩ => ⟨S_, .i32⟩
  | .hbm, ⟨41, _⟩ => ⟨S2048, .i32⟩
  | .hbm, ⟨42, _⟩ => ⟨S2048, .i1⟩
  | .hbm, ⟨43, _⟩ => ⟨S_, .i32⟩
  | .hbm, ⟨44, _⟩ => ⟨S2048, .i32⟩
  | .hbm, ⟨45, _⟩ => ⟨S2048, .i32⟩
  | .hbm, ⟨46, _⟩ => ⟨S2048, .i32⟩
  | .hbm, ⟨47, _⟩ => ⟨S2048x1, .i32⟩
  | .hbm, ⟨48, _⟩ => ⟨S2048x1, .i32⟩
  | .hbm, ⟨49, _⟩ => ⟨S2048x2, .i32⟩
  | .hbm, ⟨50, _⟩ => ⟨S_, .f32⟩
  | .hbm, ⟨51, _⟩ => ⟨S2048, .f32⟩
  | .hbm, ⟨52, _⟩ => ⟨S2048x2048, .f32⟩
  | .hbm, ⟨53, _⟩ => ⟨S1x1x2048x2048, .f32⟩
  | .hbm, ⟨54, _⟩ => ⟨S2x8x2048x2048, .f32⟩
  | .hbm, ⟨55, _⟩ => ⟨S2x8x2048x2048, .f32⟩
  | .hbm, ⟨56, _⟩ => ⟨S2x1x2048x2048, .i32⟩
  | .hbm, ⟨57, _⟩ => ⟨S_, .i32⟩
  | .hbm, ⟨58, _⟩ => ⟨S2x1x2048x2048, .i32⟩
  | .hbm, ⟨59, _⟩ => ⟨S2x1x2048x2048, .i1⟩
  | .hbm, ⟨60, _⟩ => ⟨S_, .f32⟩
  | .hbm, ⟨61, _⟩ => ⟨S2x8x2048x2048, .i1⟩
  | .hbm, ⟨62, _⟩ => ⟨S2x8x2048x2048, .f32⟩
  | .hbm, ⟨63, _⟩ => ⟨S2x8x2048x2048, .f32⟩
  | .hbm, ⟨64, _⟩ => ⟨S_, .f32⟩
  | .hbm, ⟨65, _⟩ => ⟨S2x8x2048, .f32⟩
  | .hbm, ⟨66, _⟩ => ⟨S_, .f32⟩
  | .hbm, ⟨67, _⟩ => ⟨S2x8x2048, .f32⟩
  | .hbm, ⟨68, _⟩ => ⟨S2x8x2048, .f32⟩
  | .hbm, ⟨69, _⟩ => ⟨S2x8x2048x1, .f32⟩
  | .hbm, ⟨70, _⟩ => ⟨S2x8x2048x2048, .f32⟩
  | .hbm, ⟨71, _⟩ => ⟨S2x8x2048x2048, .f32⟩
  | .hbm, ⟨72, _⟩ => ⟨S2x8x2048x2048, .f32⟩
  | .hbm, ⟨73, _⟩ => ⟨S_, .f32⟩
  | .hbm, ⟨74, _⟩ => ⟨S2x8x2048, .f32⟩
  | .hbm, ⟨75, _⟩ => ⟨S2x8x2048x1, .f32⟩
  | .hbm, ⟨76, _⟩ => ⟨S2x8x2048x2048, .f32⟩
  | .hbm, ⟨77, _⟩ => ⟨S2x8x2048x2048, .f32⟩
  | .hbm, ⟨78, _⟩ => ⟨S2x8x2048x16, .f32⟩
  | .hbm, ⟨79, _⟩ => ⟨S2x2048x16x8, .f32⟩
  | .hbm, ⟨80, _⟩ => ⟨S2x2048x128, .f32⟩
  | _, _ => ⟨S2x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_v23 : Ref sig .tc := ⟨.hbm, 34, rfl⟩
abbrev main_v24 : Ref sig .tc := ⟨.hbm, 35, rfl⟩
abbrev main_c_0 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_1 : Ref sig .tc := ⟨.hbm, 40, rfl⟩
abbrev main_v28 : Ref sig .tc := ⟨.hbm, 41, rfl⟩
abbrev main_v29 : Ref sig .tc := ⟨.hbm, 42, rfl⟩
abbrev main_c_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_4 : Ref sig .tc := ⟨.hbm, 57, rfl⟩
abbrev main_v42 : Ref sig .tc := ⟨.hbm, 58, rfl⟩
abbrev main_v43 : Ref sig .tc := ⟨.hbm, 59, rfl⟩
abbrev main_cst_5 : Ref sig .tc := ⟨.hbm, 60, rfl⟩
abbrev main_call0_v0 : Ref sig .tc := ⟨.hbm, 61, rfl⟩
abbrev main_call0_v1 : Ref sig .tc := ⟨.hbm, 62, rfl⟩
abbrev main_v44 : Ref sig .tc := ⟨.hbm, 63, rfl⟩
abbrev main_cst_6 : Ref sig .tc := ⟨.hbm, 64, rfl⟩
abbrev main_v45 : Ref sig .tc := ⟨.hbm, 65, rfl⟩
abbrev main_cst_7 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_8 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S2x2048x128_0_1_2 : S1x1x128.BroadcastsInDim S2x2048x128 (![0, 1, 2] : Fin 3 → Fin S2x2048x128.rank)
  shapeCasts_S2x2048x128_S2x2048x8x16 : S2x2048x128.ShapeCasts S2x2048x8x16
  transposes_S2x2048x8x16_S2x8x2048x16_0_2_1_3 : S2x2048x8x16.Transposes [0, 2, 1, 3] S2x8x2048x16
  bcast_S_S2x8x2048x2048 : S_.BroadcastsInDim S2x8x2048x2048 (![] : Fin 0 → Fin S2x8x2048x2048.rank)
  bcast_S_S2048 : S_.BroadcastsInDim S2048 (![] : Fin 0 → Fin S2048.rank)
  bcast_S2048_S2048x1_0 : S2048.BroadcastsInDim S2048x1 (![0] : Fin 1 → Fin S2048x1.rank)
  concatenates_S2048x1_S2048x1_S2048x2_d1 : Shape.Concatenates [S2048x1, S2048x1] S2048x2 1
  bcast_S2048x2048_S1x1x2048x2048_2_3 : S2048x2048.BroadcastsInDim S1x1x2048x2048 (![2, 3] : Fin 2 → Fin S1x1x2048x2048.rank)
  bcast_S1x1x2048x2048_S2x8x2048x2048_0_1_2_3 : S1x1x2048x2048.BroadcastsInDim S2x8x2048x2048 (![0, 1, 2, 3] : Fin 4 → Fin S2x8x2048x2048.rank)
  bcast_S2x2048x2048_S2x1x2048x2048_0_2_3 : S2x2048x2048.BroadcastsInDim S2x1x2048x2048 (![0, 2, 3] : Fin 3 → Fin S2x1x2048x2048.rank)
  bcast_S_S2x1x2048x2048 : S_.BroadcastsInDim S2x1x2048x2048 (![] : Fin 0 → Fin S2x1x2048x2048.rank)
  bcast_S2x1x2048x2048_S2x8x2048x2048_0_1_2_3 : S2x1x2048x2048.BroadcastsInDim S2x8x2048x2048 (![0, 1, 2, 3] : Fin 4 → Fin S2x8x2048x2048.rank)
  reducesTo_S2x8x2048x2048_S2x8x2048_d3 : S2x8x2048x2048.ReducesTo [3] S2x8x2048
  h_S_ : 0 < S_.numel
  bcast_S_S2x8x2048 : S_.BroadcastsInDim S2x8x2048 (![] : Fin 0 → Fin S2x8x2048.rank)
  bcast_S2x8x2048_S2x8x2048x1_0_1_2 : S2x8x2048.BroadcastsInDim S2x8x2048x1 (![0, 1, 2] : Fin 3 → Fin S2x8x2048x1.rank)
  bcast_S2x8x2048x1_S2x8x2048x2048_0_1_2_3 : S2x8x2048x1.BroadcastsInDim S2x8x2048x2048 (![0, 1, 2, 3] : Fin 4 → Fin S2x8x2048x2048.rank)
  transposes_S2x8x2048x16_S2x2048x16x8_0_2_3_1 : S2x8x2048x16.Transposes [0, 2, 3, 1] S2x2048x16x8
  shapeCasts_S2x2048x16x8_S2x2048x128 : S2x2048x16x8.ShapeCasts S2x2048x128
  dot_S2x2048x128_S128x128_S2x2048x128_2_1_01_0_n_n_wf : DotDims.WF S2x2048x128 S128x128 S2x2048x128 [2] [1] [0, 1] [0] [] []
  dot_S2x8x2048x16_S2x8x2048x16_S2x8x2048x2048_3_3_2_2_01_01_wf : DotDims.WF S2x8x2048x16 S2x8x2048x16 S2x8x2048x2048 [3] [3] [2] [2] [0, 1] [0, 1]
  scatter_S2048x2048_S2048x2_S2048_n_01_01_1_wf : ScatterDims.WF S2048x2048 S2048x2 S2048 [] [0, 1] [0, 1] 1
  dot_S2x8x2048x2048_S2x8x2048x16_S2x8x2048x16_3_2_2_3_01_01_wf : DotDims.WF S2x8x2048x2048 S2x8x2048x16 S2x8x2048x16 [3] [2] [2] [3] [0, 1] [0, 1]

variable [Facts₀]

def dot_S2x2048x128_S128x128_S2x2048x128_2_1_01_0_n_n : DotDims S2x2048x128 S128x128 S2x2048x128 where
  lhsContracting := [2]
  rhsContracting := [1]
  lhsNonContracting := [0, 1]
  rhsNonContracting := [0]
  lhsBatch := []
  rhsBatch := []
  wf := dot_S2x2048x128_S128x128_S2x2048x128_2_1_01_0_n_n_wf
def dot_S2x8x2048x16_S2x8x2048x16_S2x8x2048x2048_3_3_2_2_01_01 : DotDims S2x8x2048x16 S2x8x2048x16 S2x8x2048x2048 where
  lhsContracting := [3]
  rhsContracting := [3]
  lhsNonContracting := [2]
  rhsNonContracting := [2]
  lhsBatch := [0, 1]
  rhsBatch := [0, 1]
  wf := dot_S2x8x2048x16_S2x8x2048x16_S2x8x2048x2048_3_3_2_2_01_01_wf
def scatter_S2048x2048_S2048x2_S2048_n_01_01_1 : ScatterDims S2048x2048 S2048x2 S2048 where
  updateWindowDims := []
  insertedWindowDims := [0, 1]
  scatterDimsToOperandDims := [0, 1]
  indexVectorDim := 1
  wf := scatter_S2048x2048_S2048x2_S2048_n_01_01_1_wf
def dot_S2x8x2048x2048_S2x8x2048x16_S2x8x2048x16_3_2_2_3_01_01 : DotDims S2x8x2048x2048 S2x8x2048x16 S2x8x2048x16 where
  lhsContracting := [3]
  rhsContracting := [2]
  lhsNonContracting := [2]
  rhsNonContracting := [3]
  lhsBatch := [0, 1]
  rhsBatch := [0, 1]
  wf := dot_S2x8x2048x2048_S2x8x2048x16_S2x8x2048x16_3_2_2_3_01_01_wf

class Facts : Prop extends Facts₀ where

variable [Facts]
-- ==== Proof.WordProj.lean ====
/-
  The projection call of the attention program, on its own: one grid axis of 8 points, each taking 512 rows of the
  flattened input, the whole [128, 384] weight matrix and the [1, 384] bias row, and writing 512 rows of the
  [4096, 384] result. At a point the body loads its three input blocks whole, forms
  (rows · weights) + bias, and stores that over the whole output block; so the output block after the body is
  one piece, a function of the three input blocks, and nothing is carried from point to point.
  Stated at any contents `V` of the buffers when the call is entered and at any float family.
-/
import proofs.«411331_j31172872634849_3_alg».proof.Proof.Gen.Kernel.Launch
import proofs.«411331_j31172872634849_3_alg».proof.Proof.Gen.Kernel.Skeleton
import proofs.«411331_j31172872634849_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Proj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read out of the window's array as the call finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether the block was fetched at that
    point or stayed from an earlier one (its index has not moved), for any proof data over `V`'s arrays whose body
    leaves the block in place. One statement per input window: the rows, the weights, the bias. -/
theorem rows_before_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem weights_before_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem bias_before_of {c : Dev nD} (dat : Dat τ (Elt F) Unit ℕ (UR sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- The whole-block rectangles the body loads and stores through. -/
abbrev rowsRect : Rect S512x128 := Rect.unit (s := S512x128) ![0, 0] S512x128.size inb_S512x128_S512x128_0_0
abbrev weightsRect : Rect S128x384 := Rect.unit (s := S128x384) ![0, 0] S128x384.size inb_S128x384_S128x384_0_0
abbrev biasRect : Rect S1x384 := Rect.unit (s := S1x384) ![0, 0] S1x384.size inb_S1x384_S1x384_0_0
abbrev resultRect : Rect S512x384 := Rect.unit (s := S512x384) ![0, 0] S512x384.size inb_S512x384_S512x384_0_0

/-- The output block after the body, from the three input blocks: its one store, the rows times the weights plus the
    bias, laid over the whole block. -/
def projBlock (x : Vec F S512x128 .f32) (w : Vec F S128x384 .f32) (b : Vec F S1x384 .f32) : Vec F S512x384 .f32 :=
  View.canon [⟨resultRect, k0_pay1 (View.ld x rowsRect) (View.ld w weightsRect) (View.ld b biasRect)⟩]

/-- The one store covers the block. -/
theorem projBlock_cover (p : Vec F S512x384 .f32) (y : S512x384.Idx) :
    ∃ pc ∈ ([⟨resultRect, p⟩] : List (View.Piece (Elt F) S512x384 .f32)), y ∈ pc.1.set :=
  View.cover_of_tiled [⟨resultRect, p⟩] S512x384.size (by rfl) y

set_option maxHeartbeats 1000000 in
/-- The body on whole staging buffers: with the three inputs at `x`, `w`, `b` and the output at anything, it runs to
    its end with the inputs as they were and the output at `projBlock x w b`. -/
theorem body_triple (c : Dev nD) (E : Set ℕ) (i : grid0.Coords)
    (arg1 : Memref sig .tc .vmem S512x128 .f32) (harg1 : arg1.IsWhole) (arg2 : Memref sig .tc .vmem S128x384 .f32) (harg2 : arg2.IsWhole)
    (arg3 : Memref sig .tc .vmem S1x384 .f32) (harg3 : arg3.IsWhole) (arg4 : Memref sig .tc .vmem S512x384 .f32) (harg4 : arg4.IsWhole)
    (x : Vec F S512x128 .f32) (w : Vec F S128x384 .f32) (b : Vec F S1x384 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (projBlock x w b)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (projBlock_cover _)

/-- The proof data of the projection call on core `c`: the arrays as the call finds them; after the body at point `t`
    each input buffer at its block and the output buffer at `projBlock` of the three blocks; nothing else kept. -/
def data (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => projBlock (blockAt V c 0 t) (blockAt V c 1 t) (blockAt V c 2 t)
  Φ _ := Pipeline.ΦA spec0 c
  q _ := fullShare
  owed _ := 0

theorem data_A (c : Dev nD) (w : Fin cfg0.W) : (data V c).A w = V c (Pipeline.arrRef spec0 w) := by
  dsimp only [data]
theorem after_rows (c : Dev nD) (t : Fin cfg0.N) : (data V c).after 0 t = blockAt V c 0 t := by dsimp only [data]
theorem after_weights (c : Dev nD) (t : Fin cfg0.N) : (data V c).after 1 t = blockAt V c 1 t := by dsimp only [data]
theorem after_bias (c : Dev nD) (t : Fin cfg0.N) : (data V c).after 2 t = blockAt V c 2 t := by dsimp only [data]
theorem after_result (c : Dev nD) (t : Fin cfg0.N) :
    (data V c).after 3 t = projBlock (blockAt V c 0 t) (blockAt V c 1 t) (blockAt V c 2 t) := by dsimp only [data]

theorem before_rows (c : Dev nD) (t : Fin cfg0.N) (d) : (data V c).before 0 t d = blockAt V c 0 t :=
  rows_before_of V (data V c) (data_A V c 0) (after_rows V c) t d
theorem before_weights (c : Dev nD) (t : Fin cfg0.N) (d) : (data V c).before 1 t d = blockAt V c 1 t :=
  weights_before_of V (data V c) (data_A V c 1) (after_weights V c) t d
theorem before_bias (c : Dev nD) (t : Fin cfg0.N) (d) : (data V c).before 2 t d = blockAt V c 2 t :=
  bias_before_of V (data V c) (data_A V c 2) (after_bias V c) t d

/-- What the body is called with at point `t`, the windows one by one, and what it returns. -/
def pointPre (c : Dev nD) (t : Fin cfg0.N) : sProp 𝕄 :=
  iprop((data V c).Φ t.castSucc ∗ (data V c).owesAt () t.castSucc
    ∗ (∃ d, owns (c : Thread nD τ) (st0_0 t) fullShare ((data V c).before 0 t d))
    ∗ (∃ d, owns (c : Thread nD τ) (st0_1 t) fullShare ((data V c).before 1 t d))
    ∗ (∃ d, owns (c : Thread nD τ) (st0_2 t) fullShare ((data V c).before 2 t d))
    ∗ (∃ d, owns (c : Thread nD τ) (st0_3 t) fullShare ((data V c).before 3 t d)))
def pointPost (c : Dev nD) (t : Fin cfg0.N) : sProp 𝕄 :=
  iprop((data V c).Φ t.succ ∗ (data V c).owesAt () t.succ
    ∗ owns (c : Thread nD τ) (st0_0 t) fullShare ((data V c).after 0 t)
    ∗ owns (c : Thread nD τ) (st0_1 t) fullShare ((data V c).after 1 t)
    ∗ owns (c : Thread nD τ) (st0_2 t) fullShare ((data V c).after 2 t)
    ∗ owns (c : Thread nD τ) (st0_3 t) fullShare ((data V c).after 3 t))

/-- The body at any point: the input buffers hold their blocks, so the body's triple applies; what is kept beside
    the windows passes through unread. -/
theorem body_at_point (c : Dev nD) (t : Fin cfg0.N) :
    pointPre V c t ⊢ wp frame (wpE (defs₀ (F := F)) Variants.none c none) Set.univ (bodyAt0 t) (fun _ => pointPost V c t) := by
  unfold pointPre pointPost bodyAt0
  simp only [before_rows, before_weights, before_bias]
  rw [show (data V c).Φ t.succ = (data V c).Φ t.castSucc from rfl,
    show (data V c).owesAt () t.succ = (data V c).owesAt () t.castSucc from rfl,
    after_rows, after_weights, after_bias, after_result]
  iintro ⟨HΦ, Ho, ⟨%d0, H0⟩, ⟨%d1, H1⟩, ⟨%d2, H2⟩, ⟨%d3, H3⟩⟩
  iapply (body_triple c Set.univ _ _ _ _ _ _ _ _ _ (blockAt V c 0 t) (blockAt V c 1 t) (blockAt V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the projection call, at every point. -/
theorem body_obligation (c : Dev nD) : BodyObligation (data (F := F) V c) (defs₀ (F := F)) Variants.none () Set.univ := fun t => by
  rw [bigSep_W0, bigSep_W0]
  exact body_at_point V c t

end Cert.Kernel.Proj

end
-- ==== Proof.WordAttn.lean ====
/-
  The attention call of the program, on its own: a grid of 2 × 16 points (batch, tile of 128 query rows). At a point
  the body has the eight heads' query tile [8, 16, 128], all keys and all values [8, 16, 2048] of the batch, the
  adjacency rows [128, 2048] of the tile and the same rows of the spatial encoding. From the adjacency it makes the mask
  (entry = 0), from the encoding the additive bias with the diagonal entries (global row = column) set to zero; then for
  each head h it forms scores = (queryᵀ · key) · ¼ + bias, puts −10¹⁰ where the mask holds, subtracts each row's
  maximum, exponentiates, divides by the row's sum, stores that [128, 2048] block as slice h of the attention output
  block, and multiplies it with the head's valuesᵀ to a [128, 16] block; the eight of these are interleaved into the
  [128, 128] output block with feature index 16-coordinate × 8 + head. So after the body the attention block is eight
  pieces, one per head, and the output block one piece; nothing is carried from point to point.
  The body is printed in seven parts, so the pieces are compositions of the parts' named values; `maskOf`, `biasOf`
  and the per-head names below spell those compositions once.
  Stated at any contents `V` of the buffers when the call is entered and at any float family.
-/
import proofs.«411331_j31172872634849_3_alg».proof.Proof.Gen.Kernel.Launch
import proofs.«411331_j31172872634849_3_alg».proof.Proof.Gen.Kernel.Skeleton
import proofs.«411331_j31172872634849_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read out of the window's array as the call finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether the block was fetched at that
    point or stayed from an earlier one (the keys and the values move only with the batch), for any proof data over
    `V`'s arrays whose body leaves the block in place. One statement per input window. -/
theorem queries_before_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem keys_before_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem values_before_of {c : Dev nD} (dat : Dat τ (Elt F) Unit ℕ (UR sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem adjacency_before_of {c : Dev nD} (dat : Dat τ (Elt F) Unit ℕ (UR sig nD τ) ℕ cfg1 c) (hA : dat.A 3 = V c (Pipeline.arrRef spec1 3))
    (hafter : ∀ t, dat.after 3 t = blockAt V c 3 t) (t : Fin cfg1.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem encoding_before_of {c : Dev nD} (dat : Dat τ (Elt F) Unit ℕ (UR sig nD τ) ℕ cfg1 c) (hA : dat.A 4 = V c (Pipeline.arrRef spec1 4))
    (hafter : ∀ t, dat.after 4 t = blockAt V c 4 t) (t : Fin cfg1.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-- The rectangles the body loads and stores through: head `h`'s slice of the queries, of the keys and the values, and
    of the attention block; the adjacency, encoding and output blocks whole. -/
abbrev qRect0 : Rect S1x8x16x128 := Rect.unit (s := S1x8x16x128) ![0, 0, 0, 0] S1x1x16x128.size inb_S1x8x16x128_S1x1x16x128_0_0_0_0
abbrev kvRect0 : Rect S1x8x16x2048 := Rect.unit (s := S1x8x16x2048) ![0, 0, 0, 0] S1x1x16x2048.size inb_S1x8x16x2048_S1x1x16x2048_0_0_0_0
abbrev probRect0 : Rect S1x8x128x2048 := Rect.unit (s := S1x8x128x2048) ![0, 0, 0, 0] S1x1x128x2048.size inb_S1x8x128x2048_S1x1x128x2048_0_0_0_0
abbrev qRect1 : Rect S1x8x16x128 := Rect.unit (s := S1x8x16x128) ![0, 1, 0, 0] S1x1x16x128.size inb_S1x8x16x128_S1x1x16x128_0_1_0_0
abbrev kvRect1 : Rect S1x8x16x2048 := Rect.unit (s := S1x8x16x2048) ![0, 1, 0, 0] S1x1x16x2048.size inb_S1x8x16x2048_S1x1x16x2048_0_1_0_0
abbrev probRect1 : Rect S1x8x128x2048 := Rect.unit (s := S1x8x128x2048) ![0, 1, 0, 0] S1x1x128x2048.size inb_S1x8x128x2048_S1x1x128x2048_0_1_0_0
abbrev qRect2 : Rect S1x8x16x128 := Rect.unit (s := S1x8x16x128) ![0, 2, 0, 0] S1x1x16x128.size inb_S1x8x16x128_S1x1x16x128_0_2_0_0
abbrev kvRect2 : Rect S1x8x16x2048 := Rect.unit (s := S1x8x16x2048) ![0, 2, 0, 0] S1x1x16x2048.size inb_S1x8x16x2048_S1x1x16x2048_0_2_0_0
abbrev probRect2 : Rect S1x8x128x2048 := Rect.unit (s := S1x8x128x2048) ![0, 2, 0, 0] S1x1x128x2048.size inb_S1x8x128x2048_S1x1x128x2048_0_2_0_0
abbrev qRect3 : Rect S1x8x16x128 := Rect.unit (s := S1x8x16x128) ![0, 3, 0, 0] S1x1x16x128.size inb_S1x8x16x128_S1x1x16x128_0_3_0_0
abbrev kvRect3 : Rect S1x8x16x2048 := Rect.unit (s := S1x8x16x2048) ![0, 3, 0, 0] S1x1x16x2048.size inb_S1x8x16x2048_S1x1x16x2048_0_3_0_0
abbrev probRect3 : Rect S1x8x128x2048 := Rect.unit (s := S1x8x128x2048) ![0, 3, 0, 0] S1x1x128x2048.size inb_S1x8x128x2048_S1x1x128x2048_0_3_0_0
abbrev qRect4 : Rect S1x8x16x128 := Rect.unit (s := S1x8x16x128) ![0, 4, 0, 0] S1x1x16x128.size inb_S1x8x16x128_S1x1x16x128_0_4_0_0
abbrev kvRect4 : Rect S1x8x16x2048 := Rect.unit (s := S1x8x16x2048) ![0, 4, 0, 0] S1x1x16x2048.size inb_S1x8x16x2048_S1x1x16x2048_0_4_0_0
abbrev probRect4 : Rect S1x8x128x2048 := Rect.unit (s := S1x8x128x2048) ![0, 4, 0, 0] S1x1x128x2048.size inb_S1x8x128x2048_S1x1x128x2048_0_4_0_0
abbrev qRect5 : Rect S1x8x16x128 := Rect.unit (s := S1x8x16x128) ![0, 5, 0, 0] S1x1x16x128.size inb_S1x8x16x128_S1x1x16x128_0_5_0_0
abbrev kvRect5 : Rect S1x8x16x2048 := Rect.unit (s := S1x8x16x2048) ![0, 5, 0, 0] S1x1x16x2048.size inb_S1x8x16x2048_S1x1x16x2048_0_5_0_0
abbrev probRect5 : Rect S1x8x128x2048 := Rect.unit (s := S1x8x128x2048) ![0, 5, 0, 0] S1x1x128x2048.size inb_S1x8x128x2048_S1x1x128x2048_0_5_0_0
abbrev qRect6 : Rect S1x8x16x128 := Rect.unit (s := S1x8x16x128) ![0, 6, 0, 0] S1x1x16x128.size inb_S1x8x16x128_S1x1x16x128_0_6_0_0
abbrev kvRect6 : Rect S1x8x16x2048 := Rect.unit (s := S1x8x16x2048) ![0, 6, 0, 0] S1x1x16x2048.size inb_S1x8x16x2048_S1x1x16x2048_0_6_0_0
abbrev probRect6 : Rect S1x8x128x2048 := Rect.unit (s := S1x8x128x2048) ![0, 6, 0, 0] S1x1x128x2048.size inb_S1x8x128x2048_S1x1x128x2048_0_6_0_0
abbrev qRect7 : Rect S1x8x16x128 := Rect.unit (s := S1x8x16x128) ![0, 7, 0, 0] S1x1x16x128.size inb_S1x8x16x128_S1x1x16x128_0_7_0_0
abbrev kvRect7 : Rect S1x8x16x2048 := Rect.unit (s := S1x8x16x2048) ![0, 7, 0, 0] S1x1x16x2048.size inb_S1x8x16x2048_S1x1x16x2048_0_7_0_0
abbrev probRect7 : Rect S1x8x128x2048 := Rect.unit (s := S1x8x128x2048) ![0, 7, 0, 0] S1x1x128x2048.size inb_S1x8x128x2048_S1x1x128x2048_0_7_0_0
abbrev adjRect : Rect S1x128x2048 := Rect.unit (s := S1x128x2048) ![0, 0, 0] S1x128x2048.size inb_S1x128x2048_S1x128x2048_0_0_0
abbrev encRect : Rect S128x2048 := Rect.unit (s := S128x2048) ![0, 0] S128x2048.size inb_S128x2048_S128x2048_0_0
abbrev outRect : Rect S1x128x128 := Rect.unit (s := S1x128x128) ![0, 0, 0] S1x128x128.size inb_S1x128x128_S1x128x128_0_0_0

section Pieces
variable (i : grid1.Coords) (q : Vec F S1x8x16x128 .f32) (k : Vec F S1x8x16x2048 .f32) (v : Vec F S1x8x16x2048 .f32)
  (a : Vec F S1x128x2048 .i32) (s : Vec F S128x2048 .f32)

/-- The mask (adjacency entry = 0) and the additive bias (the encoding rows with the diagonal zeroed). -/
abbrev maskOf : IVec S128x2048 1 := k1_pay4 (View.ld a adjRect)
abbrev biasOf : FVec F S128x2048 .f32 := k1_pay5 i (View.ld s encRect)

/-- Head by head: the exponentials / the normalised attention block as the body's parts name them. The heads differ
    only in where the printed parts were cut, not in what they compute. -/
abbrev expo0 : FVec F S128x2048 .f32 := k1_pay7 i (View.ld a adjRect) (View.ld s encRect) (View.ld q qRect0) (View.ld k kvRect0)
abbrev expo1 : FVec F S128x2048 .f32 := k1_pay12 (maskOf a) (biasOf i s) (View.ld q qRect1) (View.ld k kvRect1)
abbrev prob0 : FVec F S1x1x128x2048 .f32 := k1_pay9 (expo0 i q k a s)
abbrev prob1 : FVec F S1x1x128x2048 .f32 := k1_pay13 (expo1 i q k a s)
abbrev prob2 : FVec F S1x1x128x2048 .f32 := k1_pay17 (maskOf a) (biasOf i s) (View.ld q qRect2) (View.ld k kvRect2)
abbrev prob3 : FVec F S1x1x128x2048 .f32 := k1_pay21 (maskOf a) (biasOf i s) (View.ld q qRect3) (View.ld k kvRect3)
abbrev prob4 : FVec F S1x1x128x2048 .f32 := k1_pay24 (maskOf a) (biasOf i s) (View.ld q qRect4) (View.ld k kvRect4)
abbrev prob5 : FVec F S1x1x128x2048 .f32 := k1_pay28 (maskOf a) (biasOf i s) (k1_pay26 (View.ld q qRect5)) (View.ld k kvRect5)
abbrev prob6 : FVec F S1x1x128x2048 .f32 := k1_pay33 (maskOf a) (biasOf i s) (k1_pay30 (View.ld q qRect6)) (k1_pay31 (View.ld k kvRect6))
abbrev prob7 : FVec F S1x1x128x2048 .f32 := k1_pay2 (maskOf a) (biasOf i s) (k1_pay36 (View.ld q qRect7) (View.ld k kvRect7)) (k1_pay37 (F := F))

/-- Head by head: attention block · valuesᵀ, a [128, 16] block. -/
abbrev ctx0 : FVec F S128x16 .f32 := k1_pay10 (k1_pay6 (View.ld v kvRect0)) (expo0 i q k a s)
abbrev ctx1 : FVec F S128x16 .f32 := k1_pay14 (k1_pay11 (View.ld v kvRect1)) (expo1 i q k a s)
abbrev ctx2 : FVec F S128x16 .f32 := k1_pay19 (k1_pay15 (View.ld v kvRect2)) (k1_pay18 (maskOf a) (biasOf i s) (View.ld q qRect2) (View.ld k kvRect2))
abbrev ctx3 : FVec F S128x16 .f32 := k1_pay22 (maskOf a) (biasOf i s) (View.ld q qRect3) (View.ld k kvRect3) (View.ld v kvRect3)
abbrev ctx4 : FVec F S128x16 .f32 := k1_pay25 (maskOf a) (biasOf i s) (View.ld q qRect4) (View.ld k kvRect4) (View.ld v kvRect4)
abbrev ctx5 : FVec F S128x16 .f32 := k1_pay29 (maskOf a) (biasOf i s) (k1_pay26 (View.ld q qRect5)) (View.ld k kvRect5) (View.ld v kvRect5)
abbrev ctx6 : FVec F S128x16 .f32 := k1_pay34 (maskOf a) (biasOf i s) (k1_pay30 (View.ld q qRect6)) (k1_pay31 (View.ld k kvRect6)) (View.ld v kvRect6)

/-- The attention block after the body: its eight stores, the last first. -/
def probBlock : Vec F S1x8x128x2048 .f32 :=
  View.canon [⟨probRect7, prob7 i q k a s⟩, ⟨probRect6, prob6 i q k a s⟩, ⟨probRect5, prob5 i q k a s⟩, ⟨probRect4, prob4 i q k a s⟩,
    ⟨probRect3, prob3 i q k a s⟩, ⟨probRect2, prob2 i q k a s⟩, ⟨probRect1, prob1 i q k a s⟩, ⟨probRect0, prob0 i q k a s⟩]

/-- The output block after the body: its one store, the eight heads' [128, 16] blocks interleaved (the last head's
    product is formed inside that store's value). -/
def outBlock : Vec F S1x128x128 .f32 :=
  View.canon [⟨outRect, k1_pay3 (maskOf a) (biasOf i s) (ctx0 i q k v a s) (ctx1 i q k v a s) (ctx2 i q k v a s) (ctx3 i q k v a s)
    (ctx4 i q k v a s) (ctx5 i q k v a s) (ctx6 i q k v a s) (k1_pay35 (View.ld v kvRect7))
    (k1_pay36 (View.ld q qRect7) (View.ld k kvRect7)) (k1_pay37 (F := F))⟩]

end Pieces

/-- The eight head slices tile the attention block; the one store covers the output block. -/
theorem probBlock_cover (p0 p1 p2 p3 p4 p5 p6 p7 : Vec F S1x1x128x2048 .f32) (y : S1x8x128x2048.Idx) :
    ∃ pc ∈ ([⟨probRect7, p7⟩, ⟨probRect6, p6⟩, ⟨probRect5, p5⟩, ⟨probRect4, p4⟩, ⟨probRect3, p3⟩, ⟨probRect2, p2⟩, ⟨probRect1, p1⟩, ⟨probRect0, p0⟩]
      : List (View.Piece (Elt F) S1x8x128x2048 .f32)), y ∈ pc.1.set :=
  View.cover_of_tiled [⟨probRect7, p7⟩, ⟨probRect6, p6⟩, ⟨probRect5, p5⟩, ⟨probRect4, p4⟩, ⟨probRect3, p3⟩, ⟨probRect2, p2⟩, ⟨probRect1, p1⟩, ⟨probRect0, p0⟩]
    S1x1x128x2048.size (by rfl) y
theorem outBlock_cover (p : Vec F S1x128x128 .f32) (y : S1x128x128.Idx) :
    ∃ pc ∈ ([⟨outRect, p⟩] : List (View.Piece (Elt F) S1x128x128 .f32)), y ∈ pc.1.set :=
  View.cover_of_tiled [⟨outRect, p⟩] S1x128x128.size (by rfl) y

set_option maxHeartbeats 6000000 in
/-- The body on whole staging buffers: with the five inputs at `q k v a s` and the two outputs at anything, it runs to
    its end with the inputs as they were, the output block at `outBlock` and the attention block at `probBlock`. -/
theorem body_triple (c : Dev nD) (E : Set ℕ) (i : grid1.Coords)
    (arg2 : Memref sig .tc .vmem S1x8x16x128 .f32) (harg2 : arg2.IsWhole) (arg3 : Memref sig .tc .vmem S1x8x16x2048 .f32) (harg3 : arg3.IsWhole)
    (arg4 : Memref sig .tc .vmem S1x8x16x2048 .f32) (harg4 : arg4.IsWhole) (arg5 : Memref sig .tc .vmem S1x128x2048 .i32) (harg5 : arg5.IsWhole)
    (arg6 : Memref sig .tc .vmem S128x2048 .f32) (harg6 : arg6.IsWhole) (arg7 : Memref sig .tc .vmem S1x128x128 .f32) (harg7 : arg7.IsWhole)
    (arg8 : Memref sig .tc .vmem S1x8x128x2048 .f32) (harg8 : arg8.IsWhole)
    (q : Vec F S1x8x16x128 .f32) (k : Vec F S1x8x16x2048 .f32) (v : Vec F S1x8x16x2048 .f32) (a : Vec F S1x128x2048 .i32) (s : Vec F S128x2048 .f32)
    (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare a ∗ owns (c : Thread nD τ) arg6 fullShare s
        ∗ (∃ d, owns (c : Thread nD τ) arg7 fullShare d) ∗ (∃ d, owns (c : Thread nD τ) arg8 fullShare d)
        ∗ (iprop(owns (c : Thread nD τ) arg2 fullShare q ∗ owns (c : Thread nD τ) arg3 fullShare k ∗ owns (c : Thread nD τ) arg4 fullShare v
            ∗ owns (c : Thread nD τ) arg5 fullShare a ∗ owns (c : Thread nD τ) arg6 fullShare s
            ∗ owns (c : Thread nD τ) arg7 fullShare (outBlock i q k v a s) ∗ owns (c : Thread nD τ) arg8 fullShare (probBlock i q k a s)) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  simp only [k1_part1_eq_skeleton]; unfold k1_part1_skel
  simp only [k1_part2_eq_skeleton]; unfold k1_part2_skel
  simp only [k1_part3_eq_skeleton]; unfold k1_part3_skel
  simp only [k1_part4_eq_skeleton]; unfold k1_part4_skel
  simp only [k1_part5_eq_skeleton]; unfold k1_part5_skel
  simp only [k1_part6_eq_skeleton]; unfold k1_part6_skel
  simp only [k1_part7_eq_skeleton]; unfold k1_part7_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf2; subst hf3; subst hf4; subst hf5; subst hf6
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (outBlock_cover _)
  iexists _; isplitr
  swap; · iexact H8
  ipureintro
  try dsimp only
  exact View.read_writes_eq_canon _ _ _ (probBlock_cover _ _ _ _ _ _ _ _)

/-- The proof data of the attention call on core `c`: the arrays as the call finds them; after the body at point `t`
    each input buffer at its block, the output buffers at `outBlock` / `probBlock` of the five blocks. -/
def data (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => outBlock (grid1.coords t) (blockAt V c 0 t) (blockAt V c 1 t) (blockAt V c 2 t) (blockAt V c 3 t) (blockAt V c 4 t)
    | ⟨6, _⟩ => probBlock (grid1.coords t) (blockAt V c 0 t) (blockAt V c 1 t) (blockAt V c 3 t) (blockAt V c 4 t)
  Φ _ := Pipeline.ΦA spec1 c
  q _ := fullShare
  owed _ := 0

theorem data_A (c : Dev nD) (w : Fin cfg1.W) : (data V c).A w = V c (Pipeline.arrRef spec1 w) := by
  dsimp only [data]
theorem after_queries (c : Dev nD) (t : Fin cfg1.N) : (data V c).after 0 t = blockAt V c 0 t := by dsimp only [data]
theorem after_keys (c : Dev nD) (t : Fin cfg1.N) : (data V c).after 1 t = blockAt V c 1 t := by dsimp only [data]
theorem after_values (c : Dev nD) (t : Fin cfg1.N) : (data V c).after 2 t = blockAt V c 2 t := by dsimp only [data]
theorem after_adjacency (c : Dev nD) (t : Fin cfg1.N) : (data V c).after 3 t = blockAt V c 3 t := by dsimp only [data]
theorem after_encoding (c : Dev nD) (t : Fin cfg1.N) : (data V c).after 4 t = blockAt V c 4 t := by dsimp only [data]
theorem after_out (c : Dev nD) (t : Fin cfg1.N) : (data V c).after 5 t
    = outBlock (grid1.coords t) (blockAt V c 0 t) (blockAt V c 1 t) (blockAt V c 2 t) (blockAt V c 3 t) (blockAt V c 4 t) := by dsimp only [data]
theorem after_prob (c : Dev nD) (t : Fin cfg1.N) : (data V c).after 6 t
    = probBlock (grid1.coords t) (blockAt V c 0 t) (blockAt V c 1 t) (blockAt V c 3 t) (blockAt V c 4 t) := by dsimp only [data]

theorem before_queries (c : Dev nD) (t : Fin cfg1.N) (d) : (data V c).before 0 t d = blockAt V c 0 t :=
  queries_before_of V (data V c) (data_A V c 0) (after_queries V c) t d
theorem before_keys (c : Dev nD) (t : Fin cfg1.N) (d) : (data V c).before 1 t d = blockAt V c 1 t :=
  keys_before_of V (data V c) (data_A V c 1) (after_keys V c) t d
theorem before_values (c : Dev nD) (t : Fin cfg1.N) (d) : (data V c).before 2 t d = blockAt V c 2 t :=
  values_before_of V (data V c) (data_A V c 2) (after_values V c) t d
theorem before_adjacency (c : Dev nD) (t : Fin cfg1.N) (d) : (data V c).before 3 t d = blockAt V c 3 t :=
  adjacency_before_of V (data V c) (data_A V c 3) (after_adjacency V c) t d
theorem before_encoding (c : Dev nD) (t : Fin cfg1.N) (d) : (data V c).before 4 t d = blockAt V c 4 t :=
  encoding_before_of V (data V c) (data_A V c 4) (after_encoding V c) t d

/-- What the body is called with at point `t`, the windows one by one, and what it returns. -/
def pointPre (c : Dev nD) (t : Fin cfg1.N) : sProp 𝕄 :=
  iprop((data V c).Φ t.castSucc ∗ (data V c).owesAt () t.castSucc
    ∗ (∃ d, owns (c : Thread nD τ) (st1_0 t) fullShare ((data V c).before 0 t d))
    ∗ (∃ d, owns (c : Thread nD τ) (st1_1 t) fullShare ((data V c).before 1 t d))
    ∗ (∃ d, owns (c : Thread nD τ) (st1_2 t) fullShare ((data V c).before 2 t d))
    ∗ (∃ d, owns (c : Thread nD τ) (st1_3 t) fullShare ((data V c).before 3 t d))
    ∗ (∃ d, owns (c : Thread nD τ) (st1_4 t) fullShare ((data V c).before 4 t d))
    ∗ (∃ d, owns (c : Thread nD τ) (st1_5 t) fullShare ((data V c).before 5 t d))
    ∗ (∃ d, owns (c : Thread nD τ) (st1_6 t) fullShare ((data V c).before 6 t d)))
def pointPost (c : Dev nD) (t : Fin cfg1.N) : sProp 𝕄 :=
  iprop((data V c).Φ t.succ ∗ (data V c).owesAt () t.succ
    ∗ owns (c : Thread nD τ) (st1_0 t) fullShare ((data V c).after 0 t)
    ∗ owns (c : Thread nD τ) (st1_1 t) fullShare ((data V c).after 1 t)
    ∗ owns (c : Thread nD τ) (st1_2 t) fullShare ((data V c).after 2 t)
    ∗ owns (c : Thread nD τ) (st1_3 t) fullShare ((data V c).after 3 t)
    ∗ owns (c : Thread nD τ) (st1_4 t) fullShare ((data V c).after 4 t)
    ∗ owns (c : Thread nD τ) (st1_5 t) fullShare ((data V c).after 5 t)
    ∗ owns (c : Thread nD τ) (st1_6 t) fullShare ((data V c).after 6 t))

/-- The body at any point: the input buffers hold their blocks, so the body's triple applies. -/
theorem body_at_point (c : Dev nD) (t : Fin cfg1.N) :
    pointPre V c t ⊢ wp frame (wpE (defs₀ (F := F)) Variants.none c none) Set.univ (bodyAt1 t) (fun _ => pointPost V c t) := by
  unfold pointPre pointPost bodyAt1
  simp only [before_queries, before_keys, before_values, before_adjacency, before_encoding]
  rw [show (data V c).Φ t.succ = (data V c).Φ t.castSucc from rfl,
    show (data V c).owesAt () t.succ = (data V c).owesAt () t.castSucc from rfl,
    after_queries, after_keys, after_values, after_adjacency, after_encoding, after_out, after_prob]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ _ _ _ _ _ _ _ _ _ _ _ _ _ _ _ (blockAt V c 0 t) (blockAt V c 1 t) (blockAt V c 2 t) (blockAt V c 3 t) (blockAt V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the attention call, at every point. -/
theorem body_obligation (c : Dev nD) : BodyObligation (data (F := F) V c) (defs₀ (F := F)) Variants.none () Set.univ := fun t => by
  rw [bigSep_W1, bigSep_W1]
  exact body_at_point V c t

end Cert.Kernel.Attn

end
-- ==== Proof.WordRun.lean ====
/-
  The whole program run: @main is a stretch of host operations (the input flattened, the three weight matrices
  stacked and transposed, the three bias vectors stacked), the projection call, a second stretch (the projected rows
  cut into queries, keys and values and laid out head by head with the sequence axis last), and the attention call.
  The buffers' contents are followed from the launch through these four items: a host stretch applies its operations;
  a call leaves each of its windows' arrays at what its write-backs leave and every other buffer alone. Every weakly
  fair execution then ends with every unscoped buffer at the last of these contents; in particular each argument holds
  what it was launched with (no host operation and no call writes one), and the two results hold what the attention
  call's write-backs leave. Stated at any float family.
-/
import proofs.«411331_j31172872634849_3_alg».proof.Proof.WordProj
import proofs.«411331_j31172872634849_3_alg».proof.Proof.WordAttn
import proofs.«411331_j31172872634849_3_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch: what the projection call is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection call: its windows' arrays at what the write-backs leave, every other buffer as entered. -/
def W2 (c : Dev nD) : Valuation τ sig (Elt F) :=
  Pipeline.withArrays spec0 c (W1 m ρ c) fun w => (Proj.data (V1 m ρ) c).arrAt w cfg0.N
theorem W2_arr (c : Dev nD) (w : Fin cfg0.W) :
    W2 m ρ c (Proc.devRef .tc (Pipeline.arrRef spec0 w)) = (Proj.data (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem exit0_arr (c : Dev nD) (w : Fin cfg0.W) : (Proj.data (V1 m ρ) c).arrAt w cfg0.N = V2 m ρ c (Pipeline.arrRef spec0 w) :=
  (W2_arr m ρ c w).symm
theorem exit0_rest (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: what the attention call is entered with. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention call. -/
def W4 (c : Dev nD) : Valuation τ sig (Elt F) :=
  Pipeline.withArrays spec1 c (W3 m ρ c) fun w => (Attn.data (V3 m ρ) c).arrAt w cfg1.N
theorem W4_arr (c : Dev nD) (w : Fin cfg1.W) :
    W4 m ρ c (Proc.devRef .tc (Pipeline.arrRef spec1 w)) = (Attn.data (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem exit1_arr (c : Dev nD) (w : Fin cfg1.W) : (Attn.data (V3 m ρ) c).arrAt w cfg1.N = V4 m ρ c (Pipeline.arrRef spec1 w) :=
  (W4_arr m ρ c w).symm
theorem exit1_rest (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## An argument's buffer is never written

No host operation writes an argument (each writes its own result buffer), the projection call writes none (an argument
it reads is an input window's array, which ends as entered), and the attention call reads the adjacency and the
encoding through input windows and leaves the other arguments alone. -/

/-- A buffer that is none of the projection call's window arrays and that neither host stretch writes holds at the
    end what it held at launch, provided it is not an output of the attention call. -/
theorem W4_untouched (c : Dev nD) (r : Ref sig .tc) (h4 : ∀ w, Pipeline.arrRef spec1 w ≠ r) (h3 : r ∉ hostOps1_W)
    (h2 : ∀ w, Pipeline.arrRef spec0 w ≠ r) (h1 : r ∉ hostOps0_W) :
    W4 m ρ c (Proc.devRef .tc r) = m ((c : Thread nD τ).loc r) :=
  (W4_of_ne m ρ c r h4).trans <| (StableHlo.after_of_writes_sub hostOps1 _ hostOps1_writes h3).trans <|
    (W2_of_ne m ρ c r h2).trans <| (StableHlo.after_of_writes_sub hostOps0 _ hostOps0_writes h1).trans rfl

/-- The same for a buffer the attention call reads through input window `w`. -/
theorem W4_read_only (c : Dev nD) (r : Ref sig .tc) (w : Fin cfg1.W) (hw : Pipeline.arrRef spec1 w = r) (hin : (cfg1.win w).isOut = false)
    (h3 : r ∉ hostOps1_W) (h2 : ∀ w, Pipeline.arrRef spec0 w ≠ r) (h1 : r ∉ hostOps0_W) :
    W4 m ρ c (Proc.devRef .tc r) = m ((c : Thread nD τ).loc r) := by
  subst hw
  exact (W4_arr m ρ c w).trans <| ((Attn.data (V3 m ρ) c).arrAt_in w hin _).trans <| (Attn.data_A (V3 m ρ) c w).trans <|
    (StableHlo.after_of_writes_sub hostOps1 _ hostOps1_writes h3).trans <|
    (W2_of_ne m ρ c _ h2).trans <| (StableHlo.after_of_writes_sub hostOps0 _ hostOps0_writes h1).trans rfl

theorem W4_main_arg0 (c : Dev nD) : W4 m ρ c (Proc.devRef .tc main_arg0) = m ((c : Thread nD τ).loc main_arg0) :=
  W4_untouched m ρ c main_arg0 (by decide) (by decide) (by decide) (by decide)
theorem W4_main_arg3 (c : Dev nD) : W4 m ρ c (Proc.devRef .tc main_arg3) = m ((c : Thread nD τ).loc main_arg3) :=
  W4_untouched m ρ c main_arg3 (by decide) (by decide) (by decide) (by decide)
theorem W4_main_arg4 (c : Dev nD) : W4 m ρ c (Proc.devRef .tc main_arg4) = m ((c : Thread nD τ).loc main_arg4) :=
  W4_untouched m ρ c main_arg4 (by decide) (by decide) (by decide) (by decide)
theorem W4_main_arg5 (c : Dev nD) : W4 m ρ c (Proc.devRef .tc main_arg5) = m ((c : Thread nD τ).loc main_arg5) :=
  W4_untouched m ρ c main_arg5 (by decide) (by decide) (by decide) (by decide)
theorem W4_main_arg6 (c : Dev nD) : W4 m ρ c (Proc.devRef .tc main_arg6) = m ((c : Thread nD τ).loc main_arg6) :=
  W4_untouched m ρ c main_arg6 (by decide) (by decide) (by decide) (by decide)
theorem W4_main_arg7 (c : Dev nD) : W4 m ρ c (Proc.devRef .tc main_arg7) = m ((c : Thread nD τ).loc main_arg7) :=
  W4_untouched m ρ c main_arg7 (by decide) (by decide) (by decide) (by decide)
theorem W4_main_arg8 (c : Dev nD) : W4 m ρ c (Proc.devRef .tc main_arg8) = m ((c : Thread nD τ).loc main_arg8) :=
  W4_untouched m ρ c main_arg8 (by decide) (by decide) (by decide) (by decide)
theorem W4_main_arg1 (c : Dev nD) : W4 m ρ c (Proc.devRef .tc main_arg1) = m ((c : Thread nD τ).loc main_arg1) :=
  W4_read_only m ρ c main_arg1 3 rfl rfl (by decide) (by decide) (by decide)
theorem W4_main_arg2 (c : Dev nD) : W4 m ρ c (Proc.devRef .tc main_arg2) = m ((c : Thread nD τ).loc main_arg2) :=
  W4_read_only m ρ c main_arg2 4 rfl rfl (by decide) (by decide) (by decide)

/-! ## The proof data family and what rides beside the buffers -/

abbrev adm : (p : Fin 2) → (pcfgs (F := F) p).Adm := fun p => (cfgs p).toPCfg_adm
/-- Each call's proof data at the contents it is entered with. -/
def pdats : (p : Fin 2) → (c : Dev nD) → Dat τ (Elt F) Unit ℕ (UR sig nD τ) ℕ (Pipeline.pin (pcfgs (F := F)) adm p) c
  | ⟨0, _⟩ => fun c => Proj.data (V1 m ρ) c
  | ⟨1, _⟩ => fun c => Attn.data (V3 m ρ) c
abbrev 𝒱₀ : Variants := Variants.none
abbrev L : GSem nD τ sig → Finset Unit := fun _ => ∅
abbrev lv : GSem nD τ sig → Unit → ℕ := fun _ _ => 0
/-- Beside the buffers: the core's generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (W4 m ρ c) ∗ ∃ r, prngReg c r)

/-! ## The two calls as segments -/

set_option backward.isDefEq.respectTransparency.types false in
/-- The projection call: entered with every unscoped buffer at `W1`, left with them at `W2`. -/
def projSeg : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call: entered with every unscoped buffer at `W3`, left with them at `W4`. -/
def attnSeg : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Attn.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as the four segments, and the launch -/

abbrev segs : List (Pipeline.Seg (pcfgs (F := F)) adm (pdats m ρ) () defs₀ 𝒱₀ L lv) :=
  [ .host (hseg hostOps0 hostOps0_sub hostOps0_fresh (W0 m ρ)),
    .region (projSeg m ρ),
    .host (hseg hostOps1 hostOps1_sub hostOps1_fresh (W2 m ρ)),
    .region (attnSeg m ρ) ]
theorem main_run (c : Dev nD) : main (F := F) c = Pipeline.Seg.run (segs m ρ) := (main_chain c).trans (by chain_rfl)

set_option backward.isDefEq.respectTransparency.types false in
/-- Every weakly fair execution of @main from memory `m` with zero counters terminates, nothing faulting, with every
    unscoped buffer of every core at the last boundary's contents `W4`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tend m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)) :=
  (θ_run defs _ _).mono (fun r h c => ⟨
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c)⟩) (run_all m ρ)

end Cert.Kernel.Run

end
-- ==== Proof.IdealProj.lean ====
/-
  The projection call of the attention program, on its own: one grid axis of 8 points, each taking 512 rows of the
  flattened input, the whole [128, 384] weight matrix and the [1, 384] bias row, and writing 512 rows of the
  [4096, 384] result. At a point the body loads its three input blocks whole, forms
  (rows · weights) + bias, and stores that over the whole output block; so the output block after the body is
  one piece, a function of the three input blocks, and nothing is carried from point to point.
  Stated at any contents `V` of the buffers when the call is entered and at any float family.
-/
import proofs.«411331_j31172872634849_3_alg».proof.Proof.Gen.KernelIdeal.Launch
import proofs.«411331_j31172872634849_3_alg».proof.Proof.Gen.KernelIdeal.Skeleton
import proofs.«411331_j31172872634849_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read out of the window's array as the call finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, whether the block was fetched at that
    point or stayed from an earlier one (its index has not moved), for any proof data over `V`'s arrays whose body
    leaves the block in place. One statement per input window: the rows, the weights, the bias. -/
theorem rows_before_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem weights_before_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem bias_before_of {c : Dev nD} (dat : Dat τ (Elt F) Unit ℕ (UR sig nD τ) ℕ cfg0 c) (hA : dat.A 2 = V c (Pipeline.arrRef spec0 2))
    (hafter : ∀ t, dat.after 2 t = blockAt V c 2 t) (t : Fin cfg0.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- The whole-block rectangles the body loads and stores through. -/
abbrev rowsRect : Rect S512x128 := Rect.unit (s := S512x128) ![0, 0] S512x128.size inb_S512x128_S512x128_0_0
abbrev weightsRect : Rect S128x384 := Rect.unit (s := S128x384) ![0, 0] S128x384.size inb_S128x384_S128x384_0_0
abbrev biasRect : Rect S1x384 := Rect.unit (s := S1x384) ![0, 0] S1x384.size inb_S1x384_S1x384_0_0
abbrev resultRect : Rect S512x384 := Rect.unit (s := S512x384) ![0, 0] S512x384.size inb_S512x384_S512x384_0_0

/-- The output block after the body, from the three input blocks: its one store, the rows times the weights plus the
    bias, laid over the whole block. -/
def projBlock (x : Vec F S512x128 .f32) (w : Vec F S128x384 .f32) (b : Vec F S1x384 .f32) : Vec F S512x384 .f32 :=
  View.canon [⟨resultRect, k0_pay1 (View.ld x rowsRect) (View.ld w weightsRect) (View.ld b biasRect)⟩]

/-- The one store covers the block. -/
theorem projBlock_cover (p : Vec F S512x384 .f32) (y : S512x384.Idx) :
    ∃ pc ∈ ([⟨resultRect, p⟩] : List (View.Piece (Elt F) S512x384 .f32)), y ∈ pc.1.set :=
  View.cover_of_tiled [⟨resultRect, p⟩] S512x384.size (by rfl) y

set_option maxHeartbeats 1000000 in
/-- The body on whole staging buffers: with the three inputs at `x`, `w`, `b` and the output at anything, it runs to
    its end with the inputs as they were and the output at `projBlock x w b`. -/
theorem body_triple (c : Dev nD) (E : Set ℕ) (i : grid0.Coords)
    (arg1 : Memref sig .tc .vmem S512x128 .f32) (harg1 : arg1.IsWhole) (arg2 : Memref sig .tc .vmem S128x384 .f32) (harg2 : arg2.IsWhole)
    (arg3 : Memref sig .tc .vmem S1x384 .f32) (harg3 : arg3.IsWhole) (arg4 : Memref sig .tc .vmem S512x384 .f32) (harg4 : arg4.IsWhole)
    (x : Vec F S512x128 .f32) (w : Vec F S128x384 .f32) (b : Vec F S1x384 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (projBlock x w b)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (projBlock_cover _)

/-- The proof data of the projection call on core `c`: the arrays as the call finds them; after the body at point `t`
    each input buffer at its block and the output buffer at `projBlock` of the three blocks; nothing else kept. -/
def data (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => blockAt V c 2 t
    | ⟨3, _⟩ => projBlock (blockAt V c 0 t) (blockAt V c 1 t) (blockAt V c 2 t)
  Φ _ := Pipeline.ΦA spec0 c
  q _ := fullShare
  owed _ := 0

theorem data_A (c : Dev nD) (w : Fin cfg0.W) : (data V c).A w = V c (Pipeline.arrRef spec0 w) := by
  dsimp only [data]
theorem after_rows (c : Dev nD) (t : Fin cfg0.N) : (data V c).after 0 t = blockAt V c 0 t := by dsimp only [data]
theorem after_weights (c : Dev nD) (t : Fin cfg0.N) : (data V c).after 1 t = blockAt V c 1 t := by dsimp only [data]
theorem after_bias (c : Dev nD) (t : Fin cfg0.N) : (data V c).after 2 t = blockAt V c 2 t := by dsimp only [data]
theorem after_result (c : Dev nD) (t : Fin cfg0.N) :
    (data V c).after 3 t = projBlock (blockAt V c 0 t) (blockAt V c 1 t) (blockAt V c 2 t) := by dsimp only [data]

theorem before_rows (c : Dev nD) (t : Fin cfg0.N) (d) : (data V c).before 0 t d = blockAt V c 0 t :=
  rows_before_of V (data V c) (data_A V c 0) (after_rows V c) t d
theorem before_weights (c : Dev nD) (t : Fin cfg0.N) (d) : (data V c).before 1 t d = blockAt V c 1 t :=
  weights_before_of V (data V c) (data_A V c 1) (after_weights V c) t d
theorem before_bias (c : Dev nD) (t : Fin cfg0.N) (d) : (data V c).before 2 t d = blockAt V c 2 t :=
  bias_before_of V (data V c) (data_A V c 2) (after_bias V c) t d

/-- What the body is called with at point `t`, the windows one by one, and what it returns. -/
def pointPre (c : Dev nD) (t : Fin cfg0.N) : sProp 𝕄 :=
  iprop((data V c).Φ t.castSucc ∗ (data V c).owesAt () t.castSucc
    ∗ (∃ d, owns (c : Thread nD τ) (st0_0 t) fullShare ((data V c).before 0 t d))
    ∗ (∃ d, owns (c : Thread nD τ) (st0_1 t) fullShare ((data V c).before 1 t d))
    ∗ (∃ d, owns (c : Thread nD τ) (st0_2 t) fullShare ((data V c).before 2 t d))
    ∗ (∃ d, owns (c : Thread nD τ) (st0_3 t) fullShare ((data V c).before 3 t d)))
def pointPost (c : Dev nD) (t : Fin cfg0.N) : sProp 𝕄 :=
  iprop((data V c).Φ t.succ ∗ (data V c).owesAt () t.succ
    ∗ owns (c : Thread nD τ) (st0_0 t) fullShare ((data V c).after 0 t)
    ∗ owns (c : Thread nD τ) (st0_1 t) fullShare ((data V c).after 1 t)
    ∗ owns (c : Thread nD τ) (st0_2 t) fullShare ((data V c).after 2 t)
    ∗ owns (c : Thread nD τ) (st0_3 t) fullShare ((data V c).after 3 t))

/-- The body at any point: the input buffers hold their blocks, so the body's triple applies; what is kept beside
    the windows passes through unread. -/
theorem body_at_point (c : Dev nD) (t : Fin cfg0.N) :
    pointPre V c t ⊢ wp frame (wpE (defs₀ (F := F)) Variants.none c none) Set.univ (bodyAt0 t) (fun _ => pointPost V c t) := by
  unfold pointPre pointPost bodyAt0
  simp only [before_rows, before_weights, before_bias]
  rw [show (data V c).Φ t.succ = (data V c).Φ t.castSucc from rfl,
    show (data V c).owesAt () t.succ = (data V c).owesAt () t.castSucc from rfl,
    after_rows, after_weights, after_bias, after_result]
  iintro ⟨HΦ, Ho, ⟨%d0, H0⟩, ⟨%d1, H1⟩, ⟨%d2, H2⟩, ⟨%d3, H3⟩⟩
  iapply (body_triple c Set.univ _ _ _ _ _ _ _ _ _ (blockAt V c 0 t) (blockAt V c 1 t) (blockAt V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the projection call, at every point. -/
theorem body_obligation (c : Dev nD) : BodyObligation (data (F := F) V c) (defs₀ (F := F)) Variants.none () Set.univ := fun t => by
  rw [bigSep_W0, bigSep_W0]
  exact body_at_point V c t

end Cert.KernelIdeal.Proj

end
-- ==== Proof.IdealAttn.lean ====
/-
  The attention call of the program, on its own: a grid of 2 × 16 points (batch, tile of 128 query rows). At a point
  the body has the eight heads' query tile [8, 16, 128], all keys and all values [8, 16, 2048] of the batch, the
  adjacency rows [128, 2048] of the tile and the same rows of the spatial encoding. From the adjacency it makes the mask
  (entry = 0), from the encoding the additive bias with the diagonal entries (global row = column) set to zero; then for
  each head h it forms scores = (queryᵀ · key) · ¼ + bias, puts −10¹⁰ where the mask holds, subtracts each row's
  maximum, exponentiates, divides by the row's sum, stores that [128, 2048] block as slice h of the attention output
  block, and multiplies it with the head's valuesᵀ to a [128, 16] block; the eight of these are interleaved into the
  [128, 128] output block with feature index 16-coordinate × 8 + head. So after the body the attention block is eight
  pieces, one per head, and the output block one piece; nothing is carried from point to point.
  The body is printed in seven parts, so the pieces are compositions of the parts' named values; `maskOf`, `biasOf`
  and the per-head names below spell those compositions once.
  Stated at any contents `V` of the buffers when the call is entered and at any float family.
-/
import proofs.«411331_j31172872634849_3_alg».proof.Proof.Gen.KernelIdeal.Launch
import proofs.«411331_j31172872634849_3_alg».proof.Proof.Gen.KernelIdeal.Skeleton
import proofs.«411331_j31172872634849_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read out of the window's array as the call finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, whether the block was fetched at that
    point or stayed from an earlier one (the keys and the values move only with the batch), for any proof data over
    `V`'s arrays whose body leaves the block in place. One statement per input window. -/
theorem queries_before_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem keys_before_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem values_before_of {c : Dev nD} (dat : Dat τ (Elt F) Unit ℕ (UR sig nD τ) ℕ cfg1 c) (hA : dat.A 2 = V c (Pipeline.arrRef spec1 2))
    (hafter : ∀ t, dat.after 2 t = blockAt V c 2 t) (t : Fin cfg1.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem adjacency_before_of {c : Dev nD} (dat : Dat τ (Elt F) Unit ℕ (UR sig nD τ) ℕ cfg1 c) (hA : dat.A 3 = V c (Pipeline.arrRef spec1 3))
    (hafter : ∀ t, dat.after 3 t = blockAt V c 3 t) (t : Fin cfg1.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem encoding_before_of {c : Dev nD} (dat : Dat τ (Elt F) Unit ℕ (UR sig nD τ) ℕ cfg1 c) (hA : dat.A 4 = V c (Pipeline.arrRef spec1 4))
    (hafter : ∀ t, dat.after 4 t = blockAt V c 4 t) (t : Fin cfg1.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-- The rectangles the body loads and stores through: head `h`'s slice of the queries, of the keys and the values, and
    of the attention block; the adjacency, encoding and output blocks whole. -/
abbrev qRect0 : Rect S1x8x16x128 := Rect.unit (s := S1x8x16x128) ![0, 0, 0, 0] S1x1x16x128.size inb_S1x8x16x128_S1x1x16x128_0_0_0_0
abbrev kvRect0 : Rect S1x8x16x2048 := Rect.unit (s := S1x8x16x2048) ![0, 0, 0, 0] S1x1x16x2048.size inb_S1x8x16x2048_S1x1x16x2048_0_0_0_0
abbrev probRect0 : Rect S1x8x128x2048 := Rect.unit (s := S1x8x128x2048) ![0, 0, 0, 0] S1x1x128x2048.size inb_S1x8x128x2048_S1x1x128x2048_0_0_0_0
abbrev qRect1 : Rect S1x8x16x128 := Rect.unit (s := S1x8x16x128) ![0, 1, 0, 0] S1x1x16x128.size inb_S1x8x16x128_S1x1x16x128_0_1_0_0
abbrev kvRect1 : Rect S1x8x16x2048 := Rect.unit (s := S1x8x16x2048) ![0, 1, 0, 0] S1x1x16x2048.size inb_S1x8x16x2048_S1x1x16x2048_0_1_0_0
abbrev probRect1 : Rect S1x8x128x2048 := Rect.unit (s := S1x8x128x2048) ![0, 1, 0, 0] S1x1x128x2048.size inb_S1x8x128x2048_S1x1x128x2048_0_1_0_0
abbrev qRect2 : Rect S1x8x16x128 := Rect.unit (s := S1x8x16x128) ![0, 2, 0, 0] S1x1x16x128.size inb_S1x8x16x128_S1x1x16x128_0_2_0_0
abbrev kvRect2 : Rect S1x8x16x2048 := Rect.unit (s := S1x8x16x2048) ![0, 2, 0, 0] S1x1x16x2048.size inb_S1x8x16x2048_S1x1x16x2048_0_2_0_0
abbrev probRect2 : Rect S1x8x128x2048 := Rect.unit (s := S1x8x128x2048) ![0, 2, 0, 0] S1x1x128x2048.size inb_S1x8x128x2048_S1x1x128x2048_0_2_0_0
abbrev qRect3 : Rect S1x8x16x128 := Rect.unit (s := S1x8x16x128) ![0, 3, 0, 0] S1x1x16x128.size inb_S1x8x16x128_S1x1x16x128_0_3_0_0
abbrev kvRect3 : Rect S1x8x16x2048 := Rect.unit (s := S1x8x16x2048) ![0, 3, 0, 0] S1x1x16x2048.size inb_S1x8x16x2048_S1x1x16x2048_0_3_0_0
abbrev probRect3 : Rect S1x8x128x2048 := Rect.unit (s := S1x8x128x2048) ![0, 3, 0, 0] S1x1x128x2048.size inb_S1x8x128x2048_S1x1x128x2048_0_3_0_0
abbrev qRect4 : Rect S1x8x16x128 := Rect.unit (s := S1x8x16x128) ![0, 4, 0, 0] S1x1x16x128.size inb_S1x8x16x128_S1x1x16x128_0_4_0_0
abbrev kvRect4 : Rect S1x8x16x2048 := Rect.unit (s := S1x8x16x2048) ![0, 4, 0, 0] S1x1x16x2048.size inb_S1x8x16x2048_S1x1x16x2048_0_4_0_0
abbrev probRect4 : Rect S1x8x128x2048 := Rect.unit (s := S1x8x128x2048) ![0, 4, 0, 0] S1x1x128x2048.size inb_S1x8x128x2048_S1x1x128x2048_0_4_0_0
abbrev qRect5 : Rect S1x8x16x128 := Rect.unit (s := S1x8x16x128) ![0, 5, 0, 0] S1x1x16x128.size inb_S1x8x16x128_S1x1x16x128_0_5_0_0
abbrev kvRect5 : Rect S1x8x16x2048 := Rect.unit (s := S1x8x16x2048) ![0, 5, 0, 0] S1x1x16x2048.size inb_S1x8x16x2048_S1x1x16x2048_0_5_0_0
abbrev probRect5 : Rect S1x8x128x2048 := Rect.unit (s := S1x8x128x2048) ![0, 5, 0, 0] S1x1x128x2048.size inb_S1x8x128x2048_S1x1x128x2048_0_5_0_0
abbrev qRect6 : Rect S1x8x16x128 := Rect.unit (s := S1x8x16x128) ![0, 6, 0, 0] S1x1x16x128.size inb_S1x8x16x128_S1x1x16x128_0_6_0_0
abbrev kvRect6 : Rect S1x8x16x2048 := Rect.unit (s := S1x8x16x2048) ![0, 6, 0, 0] S1x1x16x2048.size inb_S1x8x16x2048_S1x1x16x2048_0_6_0_0
abbrev probRect6 : Rect S1x8x128x2048 := Rect.unit (s := S1x8x128x2048) ![0, 6, 0, 0] S1x1x128x2048.size inb_S1x8x128x2048_S1x1x128x2048_0_6_0_0
abbrev qRect7 : Rect S1x8x16x128 := Rect.unit (s := S1x8x16x128) ![0, 7, 0, 0] S1x1x16x128.size inb_S1x8x16x128_S1x1x16x128_0_7_0_0
abbrev kvRect7 : Rect S1x8x16x2048 := Rect.unit (s := S1x8x16x2048) ![0, 7, 0, 0] S1x1x16x2048.size inb_S1x8x16x2048_S1x1x16x2048_0_7_0_0
abbrev probRect7 : Rect S1x8x128x2048 := Rect.unit (s := S1x8x128x2048) ![0, 7, 0, 0] S1x1x128x2048.size inb_S1x8x128x2048_S1x1x128x2048_0_7_0_0
abbrev adjRect : Rect S1x128x2048 := Rect.unit (s := S1x128x2048) ![0, 0, 0] S1x128x2048.size inb_S1x128x2048_S1x128x2048_0_0_0
abbrev encRect : Rect S128x2048 := Rect.unit (s := S128x2048) ![0, 0] S128x2048.size inb_S128x2048_S128x2048_0_0
abbrev outRect : Rect S1x128x128 := Rect.unit (s := S1x128x128) ![0, 0, 0] S1x128x128.size inb_S1x128x128_S1x128x128_0_0_0

section Pieces
variable (i : grid1.Coords) (q : Vec F S1x8x16x128 .f32) (k : Vec F S1x8x16x2048 .f32) (v : Vec F S1x8x16x2048 .f32)
  (a : Vec F S1x128x2048 .i32) (s : Vec F S128x2048 .f32)

/-- The mask (adjacency entry = 0) and the additive bias (the encoding rows with the diagonal zeroed). -/
abbrev maskOf : IVec S128x2048 1 := k1_pay4 (View.ld a adjRect)
abbrev biasOf : FVec F S128x2048 .f32 := k1_pay5 i (View.ld s encRect)

/-- Head by head: the exponentials / the normalised attention block as the body's parts name them. The heads differ
    only in where the printed parts were cut, not in what they compute. -/
abbrev expo0 : FVec F S128x2048 .f32 := k1_pay7 i (View.ld a adjRect) (View.ld s encRect) (View.ld q qRect0) (View.ld k kvRect0)
abbrev expo1 : FVec F S128x2048 .f32 := k1_pay12 (maskOf a) (biasOf i s) (View.ld q qRect1) (View.ld k kvRect1)
abbrev prob0 : FVec F S1x1x128x2048 .f32 := k1_pay9 (expo0 i q k a s)
abbrev prob1 : FVec F S1x1x128x2048 .f32 := k1_pay13 (expo1 i q k a s)
abbrev prob2 : FVec F S1x1x128x2048 .f32 := k1_pay17 (maskOf a) (biasOf i s) (View.ld q qRect2) (View.ld k kvRect2)
abbrev prob3 : FVec F S1x1x128x2048 .f32 := k1_pay21 (maskOf a) (biasOf i s) (View.ld q qRect3) (View.ld k kvRect3)
abbrev prob4 : FVec F S1x1x128x2048 .f32 := k1_pay24 (maskOf a) (biasOf i s) (View.ld q qRect4) (View.ld k kvRect4)
abbrev prob5 : FVec F S1x1x128x2048 .f32 := k1_pay28 (maskOf a) (biasOf i s) (k1_pay26 (View.ld q qRect5)) (View.ld k kvRect5)
abbrev prob6 : FVec F S1x1x128x2048 .f32 := k1_pay33 (maskOf a) (biasOf i s) (k1_pay30 (View.ld q qRect6)) (k1_pay31 (View.ld k kvRect6))
abbrev prob7 : FVec F S1x1x128x2048 .f32 := k1_pay2 (maskOf a) (biasOf i s) (k1_pay36 (View.ld q qRect7) (View.ld k kvRect7)) (k1_pay37 (F := F))

/-- Head by head: attention block · valuesᵀ, a [128, 16] block. -/
abbrev ctx0 : FVec F S128x16 .f32 := k1_pay10 (k1_pay6 (View.ld v kvRect0)) (expo0 i q k a s)
abbrev ctx1 : FVec F S128x16 .f32 := k1_pay14 (k1_pay11 (View.ld v kvRect1)) (expo1 i q k a s)
abbrev ctx2 : FVec F S128x16 .f32 := k1_pay19 (k1_pay15 (View.ld v kvRect2)) (k1_pay18 (maskOf a) (biasOf i s) (View.ld q qRect2) (View.ld k kvRect2))
abbrev ctx3 : FVec F S128x16 .f32 := k1_pay22 (maskOf a) (biasOf i s) (View.ld q qRect3) (View.ld k kvRect3) (View.ld v kvRect3)
abbrev ctx4 : FVec F S128x16 .f32 := k1_pay25 (maskOf a) (biasOf i s) (View.ld q qRect4) (View.ld k kvRect4) (View.ld v kvRect4)
abbrev ctx5 : FVec F S128x16 .f32 := k1_pay29 (maskOf a) (biasOf i s) (k1_pay26 (View.ld q qRect5)) (View.ld k kvRect5) (View.ld v kvRect5)
abbrev ctx6 : FVec F S128x16 .f32 := k1_pay34 (maskOf a) (biasOf i s) (k1_pay30 (View.ld q qRect6)) (k1_pay31 (View.ld k kvRect6)) (View.ld v kvRect6)

/-- The attention block after the body: its eight stores, the last first. -/
def probBlock : Vec F S1x8x128x2048 .f32 :=
  View.canon [⟨probRect7, prob7 i q k a s⟩, ⟨probRect6, prob6 i q k a s⟩, ⟨probRect5, prob5 i q k a s⟩, ⟨probRect4, prob4 i q k a s⟩,
    ⟨probRect3, prob3 i q k a s⟩, ⟨probRect2, prob2 i q k a s⟩, ⟨probRect1, prob1 i q k a s⟩, ⟨probRect0, prob0 i q k a s⟩]

/-- The output block after the body: its one store, the eight heads' [128, 16] blocks interleaved (the last head's
    product is formed inside that store's value). -/
def outBlock : Vec F S1x128x128 .f32 :=
  View.canon [⟨outRect, k1_pay3 (maskOf a) (biasOf i s) (ctx0 i q k v a s) (ctx1 i q k v a s) (ctx2 i q k v a s) (ctx3 i q k v a s)
    (ctx4 i q k v a s) (ctx5 i q k v a s) (ctx6 i q k v a s) (k1_pay35 (View.ld v kvRect7))
    (k1_pay36 (View.ld q qRect7) (View.ld k kvRect7)) (k1_pay37 (F := F))⟩]

end Pieces

/-- The eight head slices tile the attention block; the one store covers the output block. -/
theorem probBlock_cover (p0 p1 p2 p3 p4 p5 p6 p7 : Vec F S1x1x128x2048 .f32) (y : S1x8x128x2048.Idx) :
    ∃ pc ∈ ([⟨probRect7, p7⟩, ⟨probRect6, p6⟩, ⟨probRect5, p5⟩, ⟨probRect4, p4⟩, ⟨probRect3, p3⟩, ⟨probRect2, p2⟩, ⟨probRect1, p1⟩, ⟨probRect0, p0⟩]
      : List (View.Piece (Elt F) S1x8x128x2048 .f32)), y ∈ pc.1.set :=
  View.cover_of_tiled [⟨probRect7, p7⟩, ⟨probRect6, p6⟩, ⟨probRect5, p5⟩, ⟨probRect4, p4⟩, ⟨probRect3, p3⟩, ⟨probRect2, p2⟩, ⟨probRect1, p1⟩, ⟨probRect0, p0⟩]
    S1x1x128x2048.size (by rfl) y
theorem outBlock_cover (p : Vec F S1x128x128 .f32) (y : S1x128x128.Idx) :
    ∃ pc ∈ ([⟨outRect, p⟩] : List (View.Piece (Elt F) S1x128x128 .f32)), y ∈ pc.1.set :=
  View.cover_of_tiled [⟨outRect, p⟩] S1x128x128.size (by rfl) y

set_option maxHeartbeats 6000000 in
/-- The body on whole staging buffers: with the five inputs at `q k v a s` and the two outputs at anything, it runs to
    its end with the inputs as they were, the output block at `outBlock` and the attention block at `probBlock`. -/
theorem body_triple (c : Dev nD) (E : Set ℕ) (i : grid1.Coords)
    (arg2 : Memref sig .tc .vmem S1x8x16x128 .f32) (harg2 : arg2.IsWhole) (arg3 : Memref sig .tc .vmem S1x8x16x2048 .f32) (harg3 : arg3.IsWhole)
    (arg4 : Memref sig .tc .vmem S1x8x16x2048 .f32) (harg4 : arg4.IsWhole) (arg5 : Memref sig .tc .vmem S1x128x2048 .i32) (harg5 : arg5.IsWhole)
    (arg6 : Memref sig .tc .vmem S128x2048 .f32) (harg6 : arg6.IsWhole) (arg7 : Memref sig .tc .vmem S1x128x128 .f32) (harg7 : arg7.IsWhole)
    (arg8 : Memref sig .tc .vmem S1x8x128x2048 .f32) (harg8 : arg8.IsWhole)
    (q : Vec F S1x8x16x128 .f32) (k : Vec F S1x8x16x2048 .f32) (v : Vec F S1x8x16x2048 .f32) (a : Vec F S1x128x2048 .i32) (s : Vec F S128x2048 .f32)
    (K : PUnit → sProp 𝕄) :
    iprop(owns (c : Thread nD τ) arg2 fullShare q ∗ owns (c : Thread nD τ) arg3 fullShare k ∗ owns (c : Thread nD τ) arg4 fullShare v
        ∗ owns (c : Thread nD τ) arg5 fullShare a ∗ owns (c : Thread nD τ) arg6 fullShare s
        ∗ (∃ d, owns (c : Thread nD τ) arg7 fullShare d) ∗ (∃ d, owns (c : Thread nD τ) arg8 fullShare d)
        ∗ (iprop(owns (c : Thread nD τ) arg2 fullShare q ∗ owns (c : Thread nD τ) arg3 fullShare k ∗ owns (c : Thread nD τ) arg4 fullShare v
            ∗ owns (c : Thread nD τ) arg5 fullShare a ∗ owns (c : Thread nD τ) arg6 fullShare s
            ∗ owns (c : Thread nD τ) arg7 fullShare (outBlock i q k v a s) ∗ owns (c : Thread nD τ) arg8 fullShare (probBlock i q k a s)) -∗ K ⟨⟩))
      ⊢ wp frame (wpE (defs₀ (F := F)) Variants.none c none) E (cc1__attn_kernel i arg2 harg2 arg3 harg3 arg4 harg4 arg5 harg5 arg6 harg6 arg7 harg7 arg8 harg8) K := by
  simp only [cc1__attn_kernel_eq_skeleton]; unfold cc1__attn_kernel_skel
  simp only [k1_part1_eq_skeleton]; unfold k1_part1_skel
  simp only [k1_part2_eq_skeleton]; unfold k1_part2_skel
  simp only [k1_part3_eq_skeleton]; unfold k1_part3_skel
  simp only [k1_part4_eq_skeleton]; unfold k1_part4_skel
  simp only [k1_part5_eq_skeleton]; unfold k1_part5_skel
  simp only [k1_part6_eq_skeleton]; unfold k1_part6_skel
  simp only [k1_part7_eq_skeleton]; unfold k1_part7_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf2; subst hf3; subst hf4; subst hf5; subst hf6
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (outBlock_cover _)
  iexists _; isplitr
  swap; · iexact H8
  ipureintro
  try dsimp only
  exact View.read_writes_eq_canon _ _ _ (probBlock_cover _ _ _ _ _ _ _ _)

/-- The proof data of the attention call on core `c`: the arrays as the call finds them; after the body at point `t`
    each input buffer at its block, the output buffers at `outBlock` / `probBlock` of the five blocks. -/
def data (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => outBlock (grid1.coords t) (blockAt V c 0 t) (blockAt V c 1 t) (blockAt V c 2 t) (blockAt V c 3 t) (blockAt V c 4 t)
    | ⟨6, _⟩ => probBlock (grid1.coords t) (blockAt V c 0 t) (blockAt V c 1 t) (blockAt V c 3 t) (blockAt V c 4 t)
  Φ _ := Pipeline.ΦA spec1 c
  q _ := fullShare
  owed _ := 0

theorem data_A (c : Dev nD) (w : Fin cfg1.W) : (data V c).A w = V c (Pipeline.arrRef spec1 w) := by
  dsimp only [data]
theorem after_queries (c : Dev nD) (t : Fin cfg1.N) : (data V c).after 0 t = blockAt V c 0 t := by dsimp only [data]
theorem after_keys (c : Dev nD) (t : Fin cfg1.N) : (data V c).after 1 t = blockAt V c 1 t := by dsimp only [data]
theorem after_values (c : Dev nD) (t : Fin cfg1.N) : (data V c).after 2 t = blockAt V c 2 t := by dsimp only [data]
theorem after_adjacency (c : Dev nD) (t : Fin cfg1.N) : (data V c).after 3 t = blockAt V c 3 t := by dsimp only [data]
theorem after_encoding (c : Dev nD) (t : Fin cfg1.N) : (data V c).after 4 t = blockAt V c 4 t := by dsimp only [data]
theorem after_out (c : Dev nD) (t : Fin cfg1.N) : (data V c).after 5 t
    = outBlock (grid1.coords t) (blockAt V c 0 t) (blockAt V c 1 t) (blockAt V c 2 t) (blockAt V c 3 t) (blockAt V c 4 t) := by dsimp only [data]
theorem after_prob (c : Dev nD) (t : Fin cfg1.N) : (data V c).after 6 t
    = probBlock (grid1.coords t) (blockAt V c 0 t) (blockAt V c 1 t) (blockAt V c 3 t) (blockAt V c 4 t) := by dsimp only [data]

theorem before_queries (c : Dev nD) (t : Fin cfg1.N) (d) : (data V c).before 0 t d = blockAt V c 0 t :=
  queries_before_of V (data V c) (data_A V c 0) (after_queries V c) t d
theorem before_keys (c : Dev nD) (t : Fin cfg1.N) (d) : (data V c).before 1 t d = blockAt V c 1 t :=
  keys_before_of V (data V c) (data_A V c 1) (after_keys V c) t d
theorem before_values (c : Dev nD) (t : Fin cfg1.N) (d) : (data V c).before 2 t d = blockAt V c 2 t :=
  values_before_of V (data V c) (data_A V c 2) (after_values V c) t d
theorem before_adjacency (c : Dev nD) (t : Fin cfg1.N) (d) : (data V c).before 3 t d = blockAt V c 3 t :=
  adjacency_before_of V (data V c) (data_A V c 3) (after_adjacency V c) t d
theorem before_encoding (c : Dev nD) (t : Fin cfg1.N) (d) : (data V c).before 4 t d = blockAt V c 4 t :=
  encoding_before_of V (data V c) (data_A V c 4) (after_encoding V c) t d

/-- What the body is called with at point `t`, the windows one by one, and what it returns. -/
def pointPre (c : Dev nD) (t : Fin cfg1.N) : sProp 𝕄 :=
  iprop((data V c).Φ t.castSucc ∗ (data V c).owesAt () t.castSucc
    ∗ (∃ d, owns (c : Thread nD τ) (st1_0 t) fullShare ((data V c).before 0 t d))
    ∗ (∃ d, owns (c : Thread nD τ) (st1_1 t) fullShare ((data V c).before 1 t d))
    ∗ (∃ d, owns (c : Thread nD τ) (st1_2 t) fullShare ((data V c).before 2 t d))
    ∗ (∃ d, owns (c : Thread nD τ) (st1_3 t) fullShare ((data V c).before 3 t d))
    ∗ (∃ d, owns (c : Thread nD τ) (st1_4 t) fullShare ((data V c).before 4 t d))
    ∗ (∃ d, owns (c : Thread nD τ) (st1_5 t) fullShare ((data V c).before 5 t d))
    ∗ (∃ d, owns (c : Thread nD τ) (st1_6 t) fullShare ((data V c).before 6 t d)))
def pointPost (c : Dev nD) (t : Fin cfg1.N) : sProp 𝕄 :=
  iprop((data V c).Φ t.succ ∗ (data V c).owesAt () t.succ
    ∗ owns (c : Thread nD τ) (st1_0 t) fullShare ((data V c).after 0 t)
    ∗ owns (c : Thread nD τ) (st1_1 t) fullShare ((data V c).after 1 t)
    ∗ owns (c : Thread nD τ) (st1_2 t) fullShare ((data V c).after 2 t)
    ∗ owns (c : Thread nD τ) (st1_3 t) fullShare ((data V c).after 3 t)
    ∗ owns (c : Thread nD τ) (st1_4 t) fullShare ((data V c).after 4 t)
    ∗ owns (c : Thread nD τ) (st1_5 t) fullShare ((data V c).after 5 t)
    ∗ owns (c : Thread nD τ) (st1_6 t) fullShare ((data V c).after 6 t))

/-- The body at any point: the input buffers hold their blocks, so the body's triple applies. -/
theorem body_at_point (c : Dev nD) (t : Fin cfg1.N) :
    pointPre V c t ⊢ wp frame (wpE (defs₀ (F := F)) Variants.none c none) Set.univ (bodyAt1 t) (fun _ => pointPost V c t) := by
  unfold pointPre pointPost bodyAt1
  simp only [before_queries, before_keys, before_values, before_adjacency, before_encoding]
  rw [show (data V c).Φ t.succ = (data V c).Φ t.castSucc from rfl,
    show (data V c).owesAt () t.succ = (data V c).owesAt () t.castSucc from rfl,
    after_queries, after_keys, after_values, after_adjacency, after_encoding, after_out, after_prob]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_triple c Set.univ _ _ _ _ _ _ _ _ _ _ _ _ _ _ _ (blockAt V c 0 t) (blockAt V c 1 t) (blockAt V c 2 t) (blockAt V c 3 t) (blockAt V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the attention call, at every point. -/
theorem body_obligation (c : Dev nD) : BodyObligation (data (F := F) V c) (defs₀ (F := F)) Variants.none () Set.univ := fun t => by
  rw [bigSep_W1, bigSep_W1]
  exact body_at_point V c t

end Cert.KernelIdeal.Attn

end
-- ==== Proof.IdealRun.lean ====
/-
  The whole program run: @main is a stretch of host operations (the input flattened, the three weight matrices
  stacked and transposed, the three bias vectors stacked), the projection call, a second stretch (the projected rows
  cut into queries, keys and values and laid out head by head with the sequence axis last), and the attention call.
  The buffers' contents are followed from the launch through these four items: a host stretch applies its operations;
  a call leaves each of its windows' arrays at what its write-backs leave and every other buffer alone. Every weakly
  fair execution then ends with every unscoped buffer at the last of these contents; in particular each argument holds
  what it was launched with (no host operation and no call writes one), and the two results hold what the attention
  call's write-backs leave. Stated at any float family.
-/
import proofs.«411331_j31172872634849_3_alg».proof.Proof.IdealProj
import proofs.«411331_j31172872634849_3_alg».proof.Proof.IdealAttn
import proofs.«411331_j31172872634849_3_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch: what the projection call is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection call: its windows' arrays at what the write-backs leave, every other buffer as entered. -/
def W2 (c : Dev nD) : Valuation τ sig (Elt F) :=
  Pipeline.withArrays spec0 c (W1 m ρ c) fun w => (Proj.data (V1 m ρ) c).arrAt w cfg0.N
theorem W2_arr (c : Dev nD) (w : Fin cfg0.W) :
    W2 m ρ c (Proc.devRef .tc (Pipeline.arrRef spec0 w)) = (Proj.data (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem exit0_arr (c : Dev nD) (w : Fin cfg0.W) : (Proj.data (V1 m ρ) c).arrAt w cfg0.N = V2 m ρ c (Pipeline.arrRef spec0 w) :=
  (W2_arr m ρ c w).symm
theorem exit0_rest (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: what the attention call is entered with. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention call. -/
def W4 (c : Dev nD) : Valuation τ sig (Elt F) :=
  Pipeline.withArrays spec1 c (W3 m ρ c) fun w => (Attn.data (V3 m ρ) c).arrAt w cfg1.N
theorem W4_arr (c : Dev nD) (w : Fin cfg1.W) :
    W4 m ρ c (Proc.devRef .tc (Pipeline.arrRef spec1 w)) = (Attn.data (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem exit1_arr (c : Dev nD) (w : Fin cfg1.W) : (Attn.data (V3 m ρ) c).arrAt w cfg1.N = V4 m ρ c (Pipeline.arrRef spec1 w) :=
  (W4_arr m ρ c w).symm
theorem exit1_rest (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## An argument's buffer is never written

No host operation writes an argument (each writes its own result buffer), the projection call writes none (an argument
it reads is an input window's array, which ends as entered), and the attention call reads the adjacency and the
encoding through input windows and leaves the other arguments alone. -/

/-- A buffer that is none of the projection call's window arrays and that neither host stretch writes holds at the
    end what it held at launch, provided it is not an output of the attention call. -/
theorem W4_untouched (c : Dev nD) (r : Ref sig .tc) (h4 : ∀ w, Pipeline.arrRef spec1 w ≠ r) (h3 : r ∉ hostOps1_W)
    (h2 : ∀ w, Pipeline.arrRef spec0 w ≠ r) (h1 : r ∉ hostOps0_W) :
    W4 m ρ c (Proc.devRef .tc r) = m ((c : Thread nD τ).loc r) :=
  (W4_of_ne m ρ c r h4).trans <| (StableHlo.after_of_writes_sub hostOps1 _ hostOps1_writes h3).trans <|
    (W2_of_ne m ρ c r h2).trans <| (StableHlo.after_of_writes_sub hostOps0 _ hostOps0_writes h1).trans rfl

/-- The same for a buffer the attention call reads through input window `w`. -/
theorem W4_read_only (c : Dev nD) (r : Ref sig .tc) (w : Fin cfg1.W) (hw : Pipeline.arrRef spec1 w = r) (hin : (cfg1.win w).isOut = false)
    (h3 : r ∉ hostOps1_W) (h2 : ∀ w, Pipeline.arrRef spec0 w ≠ r) (h1 : r ∉ hostOps0_W) :
    W4 m ρ c (Proc.devRef .tc r) = m ((c : Thread nD τ).loc r) := by
  subst hw
  exact (W4_arr m ρ c w).trans <| ((Attn.data (V3 m ρ) c).arrAt_in w hin _).trans <| (Attn.data_A (V3 m ρ) c w).trans <|
    (StableHlo.after_of_writes_sub hostOps1 _ hostOps1_writes h3).trans <|
    (W2_of_ne m ρ c _ h2).trans <| (StableHlo.after_of_writes_sub hostOps0 _ hostOps0_writes h1).trans rfl

theorem W4_main_arg0 (c : Dev nD) : W4 m ρ c (Proc.devRef .tc main_arg0) = m ((c : Thread nD τ).loc main_arg0) :=
  W4_untouched m ρ c main_arg0 (by decide) (by decide) (by decide) (by decide)
theorem W4_main_arg3 (c : Dev nD) : W4 m ρ c (Proc.devRef .tc main_arg3) = m ((c : Thread nD τ).loc main_arg3) :=
  W4_untouched m ρ c main_arg3 (by decide) (by decide) (by decide) (by decide)
theorem W4_main_arg4 (c : Dev nD) : W4 m ρ c (Proc.devRef .tc main_arg4) = m ((c : Thread nD τ).loc main_arg4) :=
  W4_untouched m ρ c main_arg4 (by decide) (by decide) (by decide) (by decide)
theorem W4_main_arg5 (c : Dev nD) : W4 m ρ c (Proc.devRef .tc main_arg5) = m ((c : Thread nD τ).loc main_arg5) :=
  W4_untouched m ρ c main_arg5 (by decide) (by decide) (by decide) (by decide)
theorem W4_main_arg6 (c : Dev nD) : W4 m ρ c (Proc.devRef .tc main_arg6) = m ((c : Thread nD τ).loc main_arg6) :=
  W4_untouched m ρ c main_arg6 (by decide) (by decide) (by decide) (by decide)
theorem W4_main_arg7 (c : Dev nD) : W4 m ρ c (Proc.devRef .tc main_arg7) = m ((c : Thread nD τ).loc main_arg7) :=
  W4_untouched m ρ c main_arg7 (by decide) (by decide) (by decide) (by decide)
theorem W4_main_arg8 (c : Dev nD) : W4 m ρ c (Proc.devRef .tc main_arg8) = m ((c : Thread nD τ).loc main_arg8) :=
  W4_untouched m ρ c main_arg8 (by decide) (by decide) (by decide) (by decide)
theorem W4_main_arg1 (c : Dev nD) : W4 m ρ c (Proc.devRef .tc main_arg1) = m ((c : Thread nD τ).loc main_arg1) :=
  W4_read_only m ρ c main_arg1 3 rfl rfl (by decide) (by decide) (by decide)
theorem W4_main_arg2 (c : Dev nD) : W4 m ρ c (Proc.devRef .tc main_arg2) = m ((c : Thread nD τ).loc main_arg2) :=
  W4_read_only m ρ c main_arg2 4 rfl rfl (by decide) (by decide) (by decide)

/-! ## The proof data family and what rides beside the buffers -/

abbrev adm : (p : Fin 2) → (pcfgs (F := F) p).Adm := fun p => (cfgs p).toPCfg_adm
/-- Each call's proof data at the contents it is entered with. -/
def pdats : (p : Fin 2) → (c : Dev nD) → Dat τ (Elt F) Unit ℕ (UR sig nD τ) ℕ (Pipeline.pin (pcfgs (F := F)) adm p) c
  | ⟨0, _⟩ => fun c => Proj.data (V1 m ρ) c
  | ⟨1, _⟩ => fun c => Attn.data (V3 m ρ) c
abbrev 𝒱₀ : Variants := Variants.none
abbrev L : GSem nD τ sig → Finset Unit := fun _ => ∅
abbrev lv : GSem nD τ sig → Unit → ℕ := fun _ _ => 0
/-- Beside the buffers: the core's generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (W4 m ρ c) ∗ ∃ r, prngReg c r)

/-! ## The two calls as segments -/

set_option backward.isDefEq.respectTransparency.types false in
/-- The projection call: entered with every unscoped buffer at `W1`, left with them at `W2`. -/
def projSeg : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention call: entered with every unscoped buffer at `W3`, left with them at `W4`. -/
def attnSeg : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Attn.body_obligation (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as the four segments, and the launch -/

abbrev segs : List (Pipeline.Seg (pcfgs (F := F)) adm (pdats m ρ) () defs₀ 𝒱₀ L lv) :=
  [ .host (hseg hostOps0 hostOps0_sub hostOps0_fresh (W0 m ρ)),
    .region (projSeg m ρ),
    .host (hseg hostOps1 hostOps1_sub hostOps1_fresh (W2 m ρ)),
    .region (attnSeg m ρ) ]
theorem main_run (c : Dev nD) : main (F := F) c = Pipeline.Seg.run (segs m ρ) := (main_chain c).trans (by chain_rfl)

set_option backward.isDefEq.respectTransparency.types false in
/-- Every weakly fair execution of @main from memory `m` with zero counters terminates, nothing faulting, with every
    unscoped buffer of every core at the last boundary's contents `W4`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tend m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)) :=
  (θ_run defs _ _).mono (fun r h c => ⟨
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c)⟩) (run_all m ρ)

end Cert.KernelIdeal.Run

end
-- ==== Proof.AttnLayer.lean ====
/-
  What the attention layer computes, index by index, over the extended reals.

  Inputs: x [2, 2048, 128], the adjacency adj [2, 2048, 2048] (32-bit words), the spatial encoding sp [2048, 2048],
  three weight matrices [128, 128] and three bias vectors [128]. With 8 heads of 16 features, feature index of
  head h and coordinate d being 16·h + d:

    lin W b (β, n, o)   = Σ_i x(β, n, i) · W(o, i) + b(o)                        (a linear layer)
    score (β, h, n, m)  = −10¹⁰                                                   where adj(β, n, m) = 0,
                          (Σ_d Q(β, n, 16h+d) · K(β, m, 16h+d)) · ¼ + sp°(n, m)   elsewhere,
                          with sp° the encoding with its diagonal set to zero, and Q, K, V the three linear layers,
    prob                = the softmax of score along m: exp(score − row maximum) / (the row's sum of those),
    ctx (β, h, n, d)    = Σ_m prob(β, h, n, m) · V(β, m, 16h+d),
    out (β, n, 8d + h)  = ctx (β, h, n, d).

  Everything after the linear layers is local to one query row (β, n): it needs that row's 128 query features, the
  batch's keys and values, the row of the adjacency and the row of the zero-diagonal encoding. The section `Row`
  states it so; the arrays `outArr` [2, 2048, 128] and `probArr` [2, 8, 2048, 2048] are the two results.
  The float words are kept as words: ¼ is 0x3E800000, −10¹⁰ is 0xD01502F9, the row maximum starts from the word of −∞
  and the zero on the diagonal is the zero word.
-/
import Idealize.ShloMosaic.PureOps.Ideal
import Idealize.ShloMosaic.Lib.ValueIdx

noncomputable section

namespace AttnLayer

open Idealize.ShloMosaic Idealize.ShloMosaic.ValueIdx
open scoped BigOperators

/-- Feature index of head `h`, coordinate `d`: 16·h + d; and back. -/
def feat (h : Fin 8) (d : Fin 16) : Fin 128 := ⟨h.val * 16 + d.val, by omega⟩
def headOf (f : Fin 128) : Fin 8 := ⟨f.val / 16, by omega⟩
def coordOf (f : Fin 128) : Fin 16 := ⟨f.val % 16, by omega⟩
theorem headOf_feat (h : Fin 8) (d : Fin 16) : headOf (feat h d) = h := Fin.ext (by simp only [headOf, feat]; omega)
theorem coordOf_feat (h : Fin 8) (d : Fin 16) : coordOf (feat h d) = d := Fin.ext (by simp only [coordOf, feat]; omega)
theorem feat_headOf_coordOf (f : Fin 128) : feat (headOf f) (coordOf f) = f := Fin.ext (by simp only [headOf, coordOf, feat]; omega)

abbrev quarter : EReal := Ideal.ofBits .f32 0x3E800000#32
abbrev negBig : EReal := Ideal.ofBits .f32 0xD01502F9#32
abbrev negInf : EReal := Ideal.ofBits .f32 0xFF800000#32
abbrev zeroW : EReal := Ideal.ofBits .f32 0x00000000#32

/-! ## One query row -/
section Row
variable (Qr : Fin 128 → EReal) (K V : Fin 2048 → Fin 128 → EReal) (adjr : Fin 2048 → BitVec 32) (encr : Fin 2048 → EReal)

/-- The masked, biased, scaled score of the row against key row `m`, for head `h`. -/
def scoreR (h : Fin 8) (m : Fin 2048) : EReal :=
  if adjr m = 0#32 then negBig else (∑ d : Fin 16, Qr (feat h d) * K m (feat h d)) * quarter + encr m
def maxR (h : Fin 8) : EReal := (Finset.univ : Finset (Fin 2048)).fold max negInf (fun m => scoreR Qr K adjr encr h m)
def expoR (h : Fin 8) (m : Fin 2048) : EReal := Ideal.exp (scoreR Qr K adjr encr h m - maxR Qr K adjr encr h)
def sumR (h : Fin 8) : EReal := ∑ m : Fin 2048, expoR Qr K adjr encr h m
/-- The row's attention weights. -/
def probR (h : Fin 8) (m : Fin 2048) : EReal := Ideal.div (expoR Qr K adjr encr h m) (sumR Qr K adjr encr h)
/-- The row's attention weights times the values. -/
def ctxR (h : Fin 8) (d : Fin 16) : EReal := ∑ m : Fin 2048, probR Qr K adjr encr h m * V m (feat h d)
end Row

/-! ## The arrays -/
section
variable (x : (⟨3, ![2, 2048, 128]⟩ : Shape).Idx → EReal) (adj : (⟨3, ![2, 2048, 2048]⟩ : Shape).Idx → BitVec 32)
  (sp : (⟨2, ![2048, 2048]⟩ : Shape).Idx → EReal)
  (Wq : (⟨2, ![128, 128]⟩ : Shape).Idx → EReal) (bq : (⟨1, ![128]⟩ : Shape).Idx → EReal)
  (Wk : (⟨2, ![128, 128]⟩ : Shape).Idx → EReal) (bk : (⟨1, ![128]⟩ : Shape).Idx → EReal)
  (Wv : (⟨2, ![128, 128]⟩ : Shape).Idx → EReal) (bv : (⟨1, ![128]⟩ : Shape).Idx → EReal)

/-- One linear layer at (batch, row, output feature). -/
def lin (W : (⟨2, ![128, 128]⟩ : Shape).Idx → EReal) (b : (⟨1, ![128]⟩ : Shape).Idx → EReal) (β : Fin 2) (n : Fin 2048) (o : Fin 128) : EReal :=
  (∑ i : Fin 128, x (ix3 β n i) * W (ix2 o i)) + b (ix1 o)

/-- Row `n` of the encoding with its diagonal entry zeroed. -/
def encZ (n m : Fin 2048) : EReal := if n = m then zeroW else sp (ix2 n m)

/-- The attention weights at (batch, head, query row, key row). -/
def prob (β : Fin 2) (h : Fin 8) (n m : Fin 2048) : EReal :=
  probR (lin x Wq bq β n) (lin x Wk bk β) (fun m' => adj (ix3 β n m')) (encZ sp n) h m
/-- Weights times values at (batch, head, query row, coordinate). -/
def ctx (β : Fin 2) (h : Fin 8) (n : Fin 2048) (d : Fin 16) : EReal :=
  ctxR (lin x Wq bq β n) (lin x Wk bk β) (lin x Wv bv β) (fun m' => adj (ix3 β n m')) (encZ sp n) h d

/-- The first result as an array [2, 2048, 128]: feature 8d + h holds head h's coordinate d. -/
def outArr : (⟨3, ![2, 2048, 128]⟩ : Shape).Idx → EReal := fun j =>
  ctx x adj sp Wq bq Wk bk Wv bv (j 0) ⟨(j 2).val % 8, Nat.mod_lt _ (by decide)⟩ (j 1)
    ⟨(j 2).val / 8, by have := (j 2).isLt; simp only [Matrix.cons_val] at this ⊢; omega⟩

/-- The second result as an array [2, 8, 2048, 2048]. -/
def probArr : (⟨4, ![2, 8, 2048, 2048]⟩ : Shape).Idx → EReal := fun j =>
  prob x adj sp Wq bq Wk bk (j 0) (j 1) (j 2) (j 3)

end

end AttnLayer

end
-- ==== Proof.AttnArrays.lean ====
/-
  From the attention call's blocks to its two whole result arrays.

  The grid point t (of 32) is batch β = t / 16 and query tile qi = t % 16. At that point the call's windows are: the
  query tile [8, 16, 128] = columns 128·qi … of batch β's transposed queries; all of batch β's transposed keys and
  values [8, 16, 2048]; rows 128·qi … of batch β's adjacency and of the encoding; and it writes rows 128·qi … of batch
  β's output [128, 128] and of every head's attention weights [8, 128, 2048]. This module reads each input block as
  entries of its array, and then (second half) shows that what a point writes back is the restriction to its block of
  one whole-array function, so the arrays end at that function: the write-backs cover each array once.
-/
import proofs.«411331_j31172872634849_3_alg».proof.Proof.IdealRun
import proofs.«411331_j31172872634849_3_alg».proof.Proof.AttnLayer
import Idealize.ShloMosaic.Lib.Pipeline.Value
import Idealize.ShloMosaic.Lib.ValueIdx

set_option maxRecDepth 16384

noncomputable section

namespace Cert.KernelIdeal.AttnArrays

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

/-! ## Where each window's block sits at a grid point -/

theorem at_queries : ∀ t : Fin cfg1.N, win1_0.index t 0 = t.val / 16 ∧ win1_0.index t 1 = 0 ∧ win1_0.index t 2 = 0 ∧ win1_0.index t 3 = t.val % 16 :=
  (by decide +kernel : ∀ t : Fin grid1.N, win1_0.index t 0 = t.val / 16 ∧ win1_0.index t 1 = 0 ∧ win1_0.index t 2 = 0 ∧ win1_0.index t 3 = t.val % 16)
theorem at_keys : ∀ t : Fin cfg1.N, win1_1.index t 0 = t.val / 16 ∧ win1_1.index t 1 = 0 ∧ win1_1.index t 2 = 0 ∧ win1_1.index t 3 = 0 :=
  (by decide +kernel : ∀ t : Fin grid1.N, win1_1.index t 0 = t.val / 16 ∧ win1_1.index t 1 = 0 ∧ win1_1.index t 2 = 0 ∧ win1_1.index t 3 = 0)
theorem at_values : ∀ t : Fin cfg1.N, win1_2.index t 0 = t.val / 16 ∧ win1_2.index t 1 = 0 ∧ win1_2.index t 2 = 0 ∧ win1_2.index t 3 = 0 :=
  (by decide +kernel : ∀ t : Fin grid1.N, win1_2.index t 0 = t.val / 16 ∧ win1_2.index t 1 = 0 ∧ win1_2.index t 2 = 0 ∧ win1_2.index t 3 = 0)
theorem at_adjacency : ∀ t : Fin cfg1.N, win1_3.index t 0 = t.val / 16 ∧ win1_3.index t 1 = t.val % 16 ∧ win1_3.index t 2 = 0 :=
  (by decide +kernel : ∀ t : Fin grid1.N, win1_3.index t 0 = t.val / 16 ∧ win1_3.index t 1 = t.val % 16 ∧ win1_3.index t 2 = 0)
theorem at_encoding : ∀ t : Fin cfg1.N, win1_4.index t 0 = t.val % 16 ∧ win1_4.index t 1 = 0 :=
  (by decide +kernel : ∀ t : Fin grid1.N, win1_4.index t 0 = t.val % 16 ∧ win1_4.index t 1 = 0)
theorem at_out : ∀ t : Fin cfg1.N, win1_5.index t 0 = t.val / 16 ∧ win1_5.index t 1 = t.val % 16 ∧ win1_5.index t 2 = 0 :=
  (by decide +kernel : ∀ t : Fin grid1.N, win1_5.index t 0 = t.val / 16 ∧ win1_5.index t 1 = t.val % 16 ∧ win1_5.index t 2 = 0)
theorem at_prob : ∀ t : Fin cfg1.N, win1_6.index t 0 = t.val / 16 ∧ win1_6.index t 1 = 0 ∧ win1_6.index t 2 = t.val % 16 ∧ win1_6.index t 3 = 0 :=
  (by decide +kernel : ∀ t : Fin grid1.N, win1_6.index t 0 = t.val / 16 ∧ win1_6.index t 1 = 0 ∧ win1_6.index t 2 = t.val % 16 ∧ win1_6.index t 3 = 0)
/-- The second grid coordinate is the query tile. -/
theorem tile_coord : ∀ t : Fin cfg1.N, (grid1.coords t 1).val = t.val % 16 :=
  (by decide +kernel : ∀ t : Fin grid1.N, (grid1.coords t 1).val = t.val % 16)
theorem points : cfg1.N = 32 := N_1

/-! ## The input blocks as entries of their arrays -/

/-- The query tile: (head, coordinate, row r of the tile) is the transposed queries at (β, head, coordinate, 128·qi + r). -/
theorem queries_block (c : Dev nD) (t : Fin cfg1.N) (x : S1x8x16x128.Idx) (k : S2x8x16x2048.Idx)
    (h0 : (k 0).val = t.val / 16) (h1 : (k 1).val = (x 1).val) (h2 : (k 2).val = (x 2).val) (h3 : (k 3).val = t.val % 16 * 128 + (x 3).val) :
    (Attn.blockAt V c 0 t : Vec F S1x8x16x128 .f32) x = (V c main_v10 : S2x8x16x2048.Idx → Elt F .f32) k := by
  have hi := at_queries t
  have hx0 : (x 0).val = 0 := by have := (x 0).isLt; simp only [Matrix.cons_val_zero] at this; omega
  unfold Attn.blockAt
  rw [View.read_apply]
  show V c main_v10 _ = V c main_v10 _
  congr 1
  funext a
  apply Fin.ext
  match a with
  | ⟨0, _⟩ => show win1_0.index t 0 * 1 + 1 * (x 0).val = (k 0).val; rw [hi.1, h0, hx0]; omega
  | ⟨1, _⟩ => show win1_0.index t 1 * 8 + 1 * (x 1).val = (k 1).val; rw [hi.2.1, h1]; omega
  | ⟨2, _⟩ => show win1_0.index t 2 * 16 + 1 * (x 2).val = (k 2).val; rw [hi.2.2.1, h2]; omega
  | ⟨3, _⟩ => show win1_0.index t 3 * 128 + 1 * (x 3).val = (k 3).val; rw [hi.2.2.2, h3]; omega

/-- The keys and the values of the batch, whole. -/
theorem keys_block (c : Dev nD) (t : Fin cfg1.N) (x : S1x8x16x2048.Idx) (k : S2x8x16x2048.Idx)
    (h0 : (k 0).val = t.val / 16) (h1 : (k 1).val = (x 1).val) (h2 : (k 2).val = (x 2).val) (h3 : (k 3).val = (x 3).val) :
    (Attn.blockAt V c 1 t : Vec F S1x8x16x2048 .f32) x = (V c main_v12 : S2x8x16x2048.Idx → Elt F .f32) k := by
  have hi := at_keys t
  have hx0 : (x 0).val = 0 := by have := (x 0).isLt; simp only [Matrix.cons_val_zero] at this; omega
  unfold Attn.blockAt
  rw [View.read_apply]
  show V c main_v12 _ = V c main_v12 _
  congr 1
  funext a
  apply Fin.ext
  match a with
  | ⟨0, _⟩ => show win1_1.index t 0 * 1 + 1 * (x 0).val = (k 0).val; rw [hi.1, h0, hx0]; omega
  | ⟨1, _⟩ => show win1_1.index t 1 * 8 + 1 * (x 1).val = (k 1).val; rw [hi.2.1, h1]; omega
  | ⟨2, _⟩ => show win1_1.index t 2 * 16 + 1 * (x 2).val = (k 2).val; rw [hi.2.2.1, h2]; omega
  | ⟨3, _⟩ => show win1_1.index t 3 * 2048 + 1 * (x 3).val = (k 3).val; rw [hi.2.2.2, h3]; omega
theorem values_block (c : Dev nD) (t : Fin cfg1.N) (x : S1x8x16x2048.Idx) (k : S2x8x16x2048.Idx)
    (h0 : (k 0).val = t.val / 16) (h1 : (k 1).val = (x 1).val) (h2 : (k 2).val = (x 2).val) (h3 : (k 3).val = (x 3).val) :
    (Attn.blockAt V c 2 t : Vec F S1x8x16x2048 .f32) x = (V c main_v14 : S2x8x16x2048.Idx → Elt F .f32) k := by
  have hi := at_values t
  have hx0 : (x 0).val = 0 := by have := (x 0).isLt; simp only [Matrix.cons_val_zero] at this; omega
  unfold Attn.blockAt
  rw [View.read_apply]
  show V c main_v14 _ = V c main_v14 _
  congr 1
  funext a
  apply Fin.ext
  match a with
  | ⟨0, _⟩ => show win1_2.index t 0 * 1 + 1 * (x 0).val = (k 0).val; rw [hi.1, h0, hx0]; omega
  | ⟨1, _⟩ => show win1_2.index t 1 * 8 + 1 * (x 1).val = (k 1).val; rw [hi.2.1, h1]; omega
  | ⟨2, _⟩ => show win1_2.index t 2 * 16 + 1 * (x 2).val = (k 2).val; rw [hi.2.2.1, h2]; omega
  | ⟨3, _⟩ => show win1_2.index t 3 * 2048 + 1 * (x 3).val = (k 3).val; rw [hi.2.2.2, h3]; omega

/-- The adjacency rows of the tile, and the encoding rows of the tile. -/
theorem adjacency_block (c : Dev nD) (t : Fin cfg1.N) (x : S1x128x2048.Idx) (k : S2x2048x2048.Idx)
    (h0 : (k 0).val = t.val / 16) (h1 : (k 1).val = t.val % 16 * 128 + (x 1).val) (h2 : (k 2).val = (x 2).val) :
    (Attn.blockAt V c 3 t : Vec F S1x128x2048 .i32) x = (V c main_arg1 : S2x2048x2048.Idx → Elt F .i32) k := by
  have hi := at_adjacency t
  have hx0 : (x 0).val = 0 := by have := (x 0).isLt; simp only [Matrix.cons_val_zero] at this; omega
  unfold Attn.blockAt
  rw [View.read_apply]
  show V c main_arg1 _ = V c main_arg1 _
  congr 1
  funext a
  apply Fin.ext
  match a with
  | ⟨0, _⟩ => show win1_3.index t 0 * 1 + 1 * (x 0).val = (k 0).val; rw [hi.1, h0, hx0]; omega
  | ⟨1, _⟩ => show win1_3.index t 1 * 128 + 1 * (x 1).val = (k 1).val; rw [hi.2.1, h1]; omega
  | ⟨2, _⟩ => show win1_3.index t 2 * 2048 + 1 * (x 2).val = (k 2).val; rw [hi.2.2, h2]; omega
theorem encoding_block (c : Dev nD) (t : Fin cfg1.N) (x : S128x2048.Idx) (k : S2048x2048.Idx)
    (h0 : (k 0).val = t.val % 16 * 128 + (x 0).val) (h1 : (k 1).val = (x 1).val) :
    (Attn.blockAt V c 4 t : Vec F S128x2048 .f32) x = (V c main_arg2 : S2048x2048.Idx → Elt F .f32) k := by
  have hi := at_encoding t
  unfold Attn.blockAt
  rw [View.read_apply]
  show V c main_arg2 _ = V c main_arg2 _
  congr 1
  funext a
  apply Fin.ext
  match a with
  | ⟨0, _⟩ => show win1_4.index t 0 * 128 + 1 * (x 0).val = (k 0).val; rw [hi.1, h0]; omega
  | ⟨1, _⟩ => show win1_4.index t 1 * 2048 + 1 * (x 1).val = (k 1).val; rw [hi.2, h1]; omega

/-! ## Every entry of a result array lies in exactly the block of the point (β, row / 128) -/

theorem prob_block_sizes : ∀ t : Fin cfg1.N, win1_6.xsize (grid1.coords t) 0 = 1 ∧ win1_6.xsize (grid1.coords t) 1 = 8
    ∧ win1_6.xsize (grid1.coords t) 2 = 128 ∧ win1_6.xsize (grid1.coords t) 3 = 2048 :=
  (by decide +kernel : ∀ t : Fin grid1.N, win1_6.xsize (grid1.coords t) 0 = 1 ∧ win1_6.xsize (grid1.coords t) 1 = 8
    ∧ win1_6.xsize (grid1.coords t) 2 = 128 ∧ win1_6.xsize (grid1.coords t) 3 = 2048)
theorem out_block_sizes : ∀ t : Fin cfg1.N, win1_5.xsize (grid1.coords t) 0 = 1 ∧ win1_5.xsize (grid1.coords t) 1 = 128
    ∧ win1_5.xsize (grid1.coords t) 2 = 128 :=
  (by decide +kernel : ∀ t : Fin grid1.N, win1_5.xsize (grid1.coords t) 0 = 1 ∧ win1_5.xsize (grid1.coords t) 1 = 128
    ∧ win1_5.xsize (grid1.coords t) 2 = 128)

theorem prob_cover (i : S2x8x2048x2048.Idx) : ∃ t : Fin cfg1.N, (cfg1.win 6).flush t = true ∧ i ∈ ((cfg1.win 6).blk t).view.set := by
  have h0 : (i 0 : Nat) < 2 := (i 0).isLt
  have h1 : (i 1 : Nat) < 8 := (i 1).isLt
  have h2 : (i 2 : Nat) < 2048 := (i 2).isLt
  have h3 : (i 3 : Nat) < 2048 := (i 3).isLt
  have ht : (i 0 : Nat) * 16 + (i 2 : Nat) / 128 < cfg1.N := by rw [points]; omega
  refine ⟨⟨_, ht⟩, flush1_6 _, ?_⟩
  have hi := at_prob ⟨_, ht⟩
  have hx := prob_block_sizes ⟨_, ht⟩
  show i ∈ ((View.whole main_v15_1).slice (win1_6.rect ⟨_, ht⟩)).set
  rw [View.set_slice_whole, Rect.mem_set_unit]
  intro a
  match a with
  | ⟨0, _⟩ =>
    show win1_6.index ⟨_, ht⟩ 0 * 1 ≤ (i 0 : Nat) ∧ (i 0 : Nat) < win1_6.index ⟨_, ht⟩ 0 * 1 + win1_6.xsize (grid1.coords ⟨_, ht⟩) 0
    rw [hi.1, hx.1]; dsimp only; omega
  | ⟨1, _⟩ =>
    show win1_6.index ⟨_, ht⟩ 1 * 8 ≤ (i 1 : Nat) ∧ (i 1 : Nat) < win1_6.index ⟨_, ht⟩ 1 * 8 + win1_6.xsize (grid1.coords ⟨_, ht⟩) 1
    rw [hi.2.1, hx.2.1]; omega
  | ⟨2, _⟩ =>
    show win1_6.index ⟨_, ht⟩ 2 * 128 ≤ (i 2 : Nat) ∧ (i 2 : Nat) < win1_6.index ⟨_, ht⟩ 2 * 128 + win1_6.xsize (grid1.coords ⟨_, ht⟩) 2
    rw [hi.2.2.1, hx.2.2.1]; dsimp only; omega
  | ⟨3, _⟩ =>
    show win1_6.index ⟨_, ht⟩ 3 * 2048 ≤ (i 3 : Nat) ∧ (i 3 : Nat) < win1_6.index ⟨_, ht⟩ 3 * 2048 + win1_6.xsize (grid1.coords ⟨_, ht⟩) 3
    rw [hi.2.2.2, hx.2.2.2]; omega

theorem out_cover (i : S2x2048x128.Idx) : ∃ t : Fin cfg1.N, (cfg1.win 5).flush t = true ∧ i ∈ ((cfg1.win 5).blk t).view.set := by
  have h0 : (i 0 : Nat) < 2 := (i 0).isLt
  have h1 : (i 1 : Nat) < 2048 := (i 1).isLt
  have h2 : (i 2 : Nat) < 128 := (i 2).isLt
  have ht : (i 0 : Nat) * 16 + (i 1 : Nat) / 128 < cfg1.N := by rw [points]; omega
  refine ⟨⟨_, ht⟩, flush1_5 _, ?_⟩
  have hi := at_out ⟨_, ht⟩
  have hx := out_block_sizes ⟨_, ht⟩
  show i ∈ ((View.whole main_v15_0).slice (win1_5.rect ⟨_, ht⟩)).set
  rw [View.set_slice_whole, Rect.mem_set_unit]
  intro a
  match a with
  | ⟨0, _⟩ =>
    show win1_5.index ⟨_, ht⟩ 0 * 1 ≤ (i 0 : Nat) ∧ (i 0 : Nat) < win1_5.index ⟨_, ht⟩ 0 * 1 + win1_5.xsize (grid1.coords ⟨_, ht⟩) 0
    rw [hi.1, hx.1]; dsimp only; omega
  | ⟨1, _⟩ =>
    show win1_5.index ⟨_, ht⟩ 1 * 128 ≤ (i 1 : Nat) ∧ (i 1 : Nat) < win1_5.index ⟨_, ht⟩ 1 * 128 + win1_5.xsize (grid1.coords ⟨_, ht⟩) 1
    rw [hi.2.1, hx.2.1]; dsimp only; omega
  | ⟨2, _⟩ =>
    show win1_5.index ⟨_, ht⟩ 2 * 128 ≤ (i 2 : Nat) ∧ (i 2 : Nat) < win1_5.index ⟨_, ht⟩ 2 * 128 + win1_5.xsize (grid1.coords ⟨_, ht⟩) 2
    rw [hi.2.2, hx.2.2]; omega

end Cert.KernelIdeal.AttnArrays

end
-- ==== Proof.HeadPieces.lean ====
/-
  The eight heads of the attention body are one function.

  For each head h the body forms the same chain: the head's query slice [16, 128], transposed, times its key slice
  [16, 2048], times ¼, plus the bias, −10¹⁰ where the mask holds, minus the row maximum, exponentiated, divided by the
  row sum: the normalised rows [128, 2048]. That block, cast to [1, 1, 128, 2048], is slice h of the attention block;
  multiplied with the head's valuesᵀ it is a [128, 16] block. The intermediate values of the chain carry different
  names from head to head; the first section says that each head's value is the one chain applied to the head's
  slices. The second section reads the two blocks at an index: the attention block at (0, h, r, m) is head h's rows at
  (r, m); the output block at (0, r, f) is the product block of head f mod 8 at (r, f div 8), because the eight
  [128, 16] blocks are stacked to [8, 128, 16], transposed to [128, 16, 8] and flattened to [128, 128], so that
  feature 8·d + h holds head h's coordinate d. Last, a slice of axis 1 read at an index is the array at the shifted
  index.
-/
import proofs.«411331_j31172872634849_3_alg».proof.Proof.IdealAttn
import proofs.«411331_j31172872634849_3_alg».proof.Proof.Gen.KernelIdeal.Skeleton
import Idealize.ShloMosaic.Lib.ValueIdx
import Idealize.ShloMosaic.Lib.ValueLayout
import Idealize.ShloMosaic.Lib.Pipeline.Value

set_option maxRecDepth 16384

noncomputable section

namespace Cert.KernelIdeal.HeadPieces

open Cert.KernelIdeal Cert.KernelIdeal.Gen
open Idealize.ShloMosaic Idealize.ShloMosaic.ValueIdx

variable {F : FTy → Type} [FloatOps F]

/-! ## Each head's value is the one chain applied to the head's slices -/

section Chain
variable (i : grid1.Coords) (q : Vec F S1x8x16x128 .f32) (k : Vec F S1x8x16x2048 .f32) (v : Vec F S1x8x16x2048 .f32)
  (a : Vec F S1x128x2048 .i32) (s : Vec F S128x2048 .f32)

theorem prob0_eq : Attn.prob0 i q k a s = k1_pay13 (k1_pay12 (Attn.maskOf a) (Attn.biasOf i s) (View.ld q Attn.qRect0) (View.ld k Attn.kvRect0)) := by
  unfold Attn.prob0 Attn.expo0 k1_pay9 k1_pay8 k1_pay7 k1_pay13 k1_pay12; rfl
theorem prob1_eq : Attn.prob1 i q k a s = k1_pay13 (k1_pay12 (Attn.maskOf a) (Attn.biasOf i s) (View.ld q Attn.qRect1) (View.ld k Attn.kvRect1)) := by
  rfl
theorem prob2_eq : Attn.prob2 i q k a s = k1_pay13 (k1_pay12 (Attn.maskOf a) (Attn.biasOf i s) (View.ld q Attn.qRect2) (View.ld k Attn.kvRect2)) := by
  unfold Attn.prob2 k1_pay17 k1_pay16 k1_pay13 k1_pay12; rfl
theorem prob3_eq : Attn.prob3 i q k a s = k1_pay13 (k1_pay12 (Attn.maskOf a) (Attn.biasOf i s) (View.ld q Attn.qRect3) (View.ld k Attn.kvRect3)) := by
  unfold Attn.prob3 k1_pay21 k1_pay20 k1_pay13 k1_pay12; rfl
theorem prob4_eq : Attn.prob4 i q k a s = k1_pay13 (k1_pay12 (Attn.maskOf a) (Attn.biasOf i s) (View.ld q Attn.qRect4) (View.ld k Attn.kvRect4)) := by
  unfold Attn.prob4 k1_pay24 k1_pay23 k1_pay13 k1_pay12; rfl
theorem prob5_eq : Attn.prob5 i q k a s = k1_pay13 (k1_pay12 (Attn.maskOf a) (Attn.biasOf i s) (View.ld q Attn.qRect5) (View.ld k Attn.kvRect5)) := by
  unfold Attn.prob5 k1_pay28 k1_pay27 k1_pay26 k1_pay13 k1_pay12; rfl
theorem prob6_eq : Attn.prob6 i q k a s = k1_pay13 (k1_pay12 (Attn.maskOf a) (Attn.biasOf i s) (View.ld q Attn.qRect6) (View.ld k Attn.kvRect6)) := by
  unfold Attn.prob6 k1_pay33 k1_pay32 k1_pay30 k1_pay31 k1_pay13 k1_pay12; rfl
theorem prob7_eq : Attn.prob7 i q k a s = k1_pay13 (k1_pay12 (Attn.maskOf a) (Attn.biasOf i s) (View.ld q Attn.qRect7) (View.ld k Attn.kvRect7)) := by
  unfold Attn.prob7 k1_pay2 k1_pay1 k1_pay36 k1_pay37 k1_pay13 k1_pay12; rfl

theorem ctx0_eq : Attn.ctx0 i q k v a s = k1_pay14 (k1_pay11 (View.ld v Attn.kvRect0)) (k1_pay12 (Attn.maskOf a) (Attn.biasOf i s) (View.ld q Attn.qRect0) (View.ld k Attn.kvRect0)) := by
  unfold Attn.ctx0 Attn.expo0 k1_pay10 k1_pay8 k1_pay7 k1_pay6 k1_pay14 k1_pay12 k1_pay11; rfl
theorem ctx1_eq : Attn.ctx1 i q k v a s = k1_pay14 (k1_pay11 (View.ld v Attn.kvRect1)) (k1_pay12 (Attn.maskOf a) (Attn.biasOf i s) (View.ld q Attn.qRect1) (View.ld k Attn.kvRect1)) := by
  rfl
theorem ctx2_eq : Attn.ctx2 i q k v a s = k1_pay14 (k1_pay11 (View.ld v Attn.kvRect2)) (k1_pay12 (Attn.maskOf a) (Attn.biasOf i s) (View.ld q Attn.qRect2) (View.ld k Attn.kvRect2)) := by
  unfold Attn.ctx2 k1_pay19 k1_pay18 k1_pay16 k1_pay15 k1_pay14 k1_pay12 k1_pay11; rfl
theorem ctx3_eq : Attn.ctx3 i q k v a s = k1_pay14 (k1_pay11 (View.ld v Attn.kvRect3)) (k1_pay12 (Attn.maskOf a) (Attn.biasOf i s) (View.ld q Attn.qRect3) (View.ld k Attn.kvRect3)) := by
  unfold Attn.ctx3 k1_pay22 k1_pay20 k1_pay14 k1_pay12 k1_pay11; rfl
theorem ctx4_eq : Attn.ctx4 i q k v a s = k1_pay14 (k1_pay11 (View.ld v Attn.kvRect4)) (k1_pay12 (Attn.maskOf a) (Attn.biasOf i s) (View.ld q Attn.qRect4) (View.ld k Attn.kvRect4)) := by
  unfold Attn.ctx4 k1_pay25 k1_pay23 k1_pay14 k1_pay12 k1_pay11; rfl
theorem ctx5_eq : Attn.ctx5 i q k v a s = k1_pay14 (k1_pay11 (View.ld v Attn.kvRect5)) (k1_pay12 (Attn.maskOf a) (Attn.biasOf i s) (View.ld q Attn.qRect5) (View.ld k Attn.kvRect5)) := by
  unfold Attn.ctx5 k1_pay29 k1_pay27 k1_pay26 k1_pay14 k1_pay12 k1_pay11; rfl
theorem ctx6_eq : Attn.ctx6 i q k v a s = k1_pay14 (k1_pay11 (View.ld v Attn.kvRect6)) (k1_pay12 (Attn.maskOf a) (Attn.biasOf i s) (View.ld q Attn.qRect6) (View.ld k Attn.kvRect6)) := by
  unfold Attn.ctx6 k1_pay34 k1_pay32 k1_pay30 k1_pay31 k1_pay14 k1_pay12 k1_pay11; rfl

/-- The last head's product, as the output block's value forms it. -/
theorem ctx7_eq : k1_pay14 (k1_pay35 (View.ld v Attn.kvRect7)) (k1_pay1 (Attn.maskOf a) (Attn.biasOf i s) (k1_pay36 (View.ld q Attn.qRect7) (View.ld k Attn.kvRect7)) (k1_pay37 (F := F)))
    = k1_pay14 (k1_pay11 (View.ld v Attn.kvRect7)) (k1_pay12 (Attn.maskOf a) (Attn.biasOf i s) (View.ld q Attn.qRect7) (View.ld k Attn.kvRect7)) := by
  unfold k1_pay35 k1_pay1 k1_pay36 k1_pay37 k1_pay12 k1_pay11; rfl

/-- Head `h`'s normalised rows [128, 2048]. -/
def headRows : Fin 8 → FVec F S128x2048 .f32
  | ⟨0, _⟩ => k1_pay12 (Attn.maskOf a) (Attn.biasOf i s) (View.ld q Attn.qRect0) (View.ld k Attn.kvRect0)
  | ⟨1, _⟩ => k1_pay12 (Attn.maskOf a) (Attn.biasOf i s) (View.ld q Attn.qRect1) (View.ld k Attn.kvRect1)
  | ⟨2, _⟩ => k1_pay12 (Attn.maskOf a) (Attn.biasOf i s) (View.ld q Attn.qRect2) (View.ld k Attn.kvRect2)
  | ⟨3, _⟩ => k1_pay12 (Attn.maskOf a) (Attn.biasOf i s) (View.ld q Attn.qRect3) (View.ld k Attn.kvRect3)
  | ⟨4, _⟩ => k1_pay12 (Attn.maskOf a) (Attn.biasOf i s) (View.ld q Attn.qRect4) (View.ld k Attn.kvRect4)
  | ⟨5, _⟩ => k1_pay12 (Attn.maskOf a) (Attn.biasOf i s) (View.ld q Attn.qRect5) (View.ld k Attn.kvRect5)
  | ⟨6, _⟩ => k1_pay12 (Attn.maskOf a) (Attn.biasOf i s) (View.ld q Attn.qRect6) (View.ld k Attn.kvRect6)
  | ⟨7, _⟩ => k1_pay12 (Attn.maskOf a) (Attn.biasOf i s) (View.ld q Attn.qRect7) (View.ld k Attn.kvRect7)

/-- Head `h`'s rows times its valuesᵀ, [128, 16]. -/
def headCtx : Fin 8 → FVec F S128x16 .f32
  | ⟨0, _⟩ => k1_pay14 (k1_pay11 (View.ld v Attn.kvRect0)) (k1_pay12 (Attn.maskOf a) (Attn.biasOf i s) (View.ld q Attn.qRect0) (View.ld k Attn.kvRect0))
  | ⟨1, _⟩ => k1_pay14 (k1_pay11 (View.ld v Attn.kvRect1)) (k1_pay12 (Attn.maskOf a) (Attn.biasOf i s) (View.ld q Attn.qRect1) (View.ld k Attn.kvRect1))
  | ⟨2, _⟩ => k1_pay14 (k1_pay11 (View.ld v Attn.kvRect2)) (k1_pay12 (Attn.maskOf a) (Attn.biasOf i s) (View.ld q Attn.qRect2) (View.ld k Attn.kvRect2))
  | ⟨3, _⟩ => k1_pay14 (k1_pay11 (View.ld v Attn.kvRect3)) (k1_pay12 (Attn.maskOf a) (Attn.biasOf i s) (View.ld q Attn.qRect3) (View.ld k Attn.kvRect3))
  | ⟨4, _⟩ => k1_pay14 (k1_pay11 (View.ld v Attn.kvRect4)) (k1_pay12 (Attn.maskOf a) (Attn.biasOf i s) (View.ld q Attn.qRect4) (View.ld k Attn.kvRect4))
  | ⟨5, _⟩ => k1_pay14 (k1_pay11 (View.ld v Attn.kvRect5)) (k1_pay12 (Attn.maskOf a) (Attn.biasOf i s) (View.ld q Attn.qRect5) (View.ld k Attn.kvRect5))
  | ⟨6, _⟩ => k1_pay14 (k1_pay11 (View.ld v Attn.kvRect6)) (k1_pay12 (Attn.maskOf a) (Attn.biasOf i s) (View.ld q Attn.qRect6) (View.ld k Attn.kvRect6))
  | ⟨7, _⟩ => k1_pay14 (k1_pay11 (View.ld v Attn.kvRect7)) (k1_pay12 (Attn.maskOf a) (Attn.biasOf i s) (View.ld q Attn.qRect7) (View.ld k Attn.kvRect7))

theorem headRows_0 : headRows i q k a s 0 = k1_pay12 (Attn.maskOf a) (Attn.biasOf i s) (View.ld q Attn.qRect0) (View.ld k Attn.kvRect0) := rfl
theorem headRows_1 : headRows i q k a s 1 = k1_pay12 (Attn.maskOf a) (Attn.biasOf i s) (View.ld q Attn.qRect1) (View.ld k Attn.kvRect1) := rfl
theorem headRows_2 : headRows i q k a s 2 = k1_pay12 (Attn.maskOf a) (Attn.biasOf i s) (View.ld q Attn.qRect2) (View.ld k Attn.kvRect2) := rfl
theorem headRows_3 : headRows i q k a s 3 = k1_pay12 (Attn.maskOf a) (Attn.biasOf i s) (View.ld q Attn.qRect3) (View.ld k Attn.kvRect3) := rfl
theorem headRows_4 : headRows i q k a s 4 = k1_pay12 (Attn.maskOf a) (Attn.biasOf i s) (View.ld q Attn.qRect4) (View.ld k Attn.kvRect4) := rfl
theorem headRows_5 : headRows i q k a s 5 = k1_pay12 (Attn.maskOf a) (Attn.biasOf i s) (View.ld q Attn.qRect5) (View.ld k Attn.kvRect5) := rfl
theorem headRows_6 : headRows i q k a s 6 = k1_pay12 (Attn.maskOf a) (Attn.biasOf i s) (View.ld q Attn.qRect6) (View.ld k Attn.kvRect6) := rfl
theorem headRows_7 : headRows i q k a s 7 = k1_pay12 (Attn.maskOf a) (Attn.biasOf i s) (View.ld q Attn.qRect7) (View.ld k Attn.kvRect7) := rfl
theorem headCtx_0 : headCtx i q k v a s 0 = k1_pay14 (k1_pay11 (View.ld v Attn.kvRect0)) (headRows i q k a s 0) := rfl
theorem headCtx_1 : headCtx i q k v a s 1 = k1_pay14 (k1_pay11 (View.ld v Attn.kvRect1)) (headRows i q k a s 1) := rfl
theorem headCtx_2 : headCtx i q k v a s 2 = k1_pay14 (k1_pay11 (View.ld v Attn.kvRect2)) (headRows i q k a s 2) := rfl
theorem headCtx_3 : headCtx i q k v a s 3 = k1_pay14 (k1_pay11 (View.ld v Attn.kvRect3)) (headRows i q k a s 3) := rfl
theorem headCtx_4 : headCtx i q k v a s 4 = k1_pay14 (k1_pay11 (View.ld v Attn.kvRect4)) (headRows i q k a s 4) := rfl
theorem headCtx_5 : headCtx i q k v a s 5 = k1_pay14 (k1_pay11 (View.ld v Attn.kvRect5)) (headRows i q k a s 5) := rfl
theorem headCtx_6 : headCtx i q k v a s 6 = k1_pay14 (k1_pay11 (View.ld v Attn.kvRect6)) (headRows i q k a s 6) := rfl
theorem headCtx_7 : headCtx i q k v a s 7 = k1_pay14 (k1_pay11 (View.ld v Attn.kvRect7)) (headRows i q k a s 7) := rfl

end Chain

/-! ## A slice of axis 1 read at an index -/

section Slices
variable (q : Vec F S1x8x16x128 .f32) (k : Vec F S1x8x16x2048 .f32)

/-- The slice at `n` of axis 1 of a [1, 8, 16, 128] array, read at (0, 0, d, r): the array at (0, n, d, r). -/
theorem ld_q_apply (n : ℕ) (hn : n < 8)
    (inb : ∀ c, (![0, n, 0, 0] : Fin 4 → ℕ) c + S1x1x16x128.size c ≤ S1x8x16x128.size c) (d : Fin 16) (r : Fin 128) :
    View.ld q (Rect.unit (s := S1x8x16x128) ![0, n, 0, 0] S1x1x16x128.size inb) (ix4 (0 : Fin 1) (0 : Fin 1) d r)
      = q (ix4 (0 : Fin 1) (⟨n, hn⟩ : Fin 8) d r) :=
  congrArg q (funext fun c => match c with
    | ⟨0, _⟩ => Fin.ext (by show 0 + 1 * 0 = 0; omega)
    | ⟨1, _⟩ => Fin.ext (by show n + 1 * 0 = n; omega)
    | ⟨2, _⟩ => Fin.ext (by show 0 + 1 * d.val = d.val; omega)
    | ⟨3, _⟩ => Fin.ext (by show 0 + 1 * r.val = r.val; omega))

/-- The same for a [1, 8, 16, 2048] array (the keys, the values). -/
theorem ld_kv_apply (n : ℕ) (hn : n < 8)
    (inb : ∀ c, (![0, n, 0, 0] : Fin 4 → ℕ) c + S1x1x16x2048.size c ≤ S1x8x16x2048.size c) (d : Fin 16) (m : Fin 2048) :
    View.ld k (Rect.unit (s := S1x8x16x2048) ![0, n, 0, 0] S1x1x16x2048.size inb) (ix4 (0 : Fin 1) (0 : Fin 1) d m)
      = k (ix4 (0 : Fin 1) (⟨n, hn⟩ : Fin 8) d m) :=
  congrArg k (funext fun c => match c with
    | ⟨0, _⟩ => Fin.ext (by show 0 + 1 * 0 = 0; omega)
    | ⟨1, _⟩ => Fin.ext (by show n + 1 * 0 = n; omega)
    | ⟨2, _⟩ => Fin.ext (by show 0 + 1 * d.val = d.val; omega)
    | ⟨3, _⟩ => Fin.ext (by show 0 + 1 * m.val = m.val; omega))

theorem ld_q0 (d : Fin 16) (r : Fin 128) : View.ld q Attn.qRect0 (ix4 (0 : Fin 1) (0 : Fin 1) d r) = q (ix4 (0 : Fin 1) (0 : Fin 8) d r) :=
  ld_q_apply q 0 (by decide) _ d r
theorem ld_q1 (d : Fin 16) (r : Fin 128) : View.ld q Attn.qRect1 (ix4 (0 : Fin 1) (0 : Fin 1) d r) = q (ix4 (0 : Fin 1) (1 : Fin 8) d r) :=
  ld_q_apply q 1 (by decide) _ d r
theorem ld_q2 (d : Fin 16) (r : Fin 128) : View.ld q Attn.qRect2 (ix4 (0 : Fin 1) (0 : Fin 1) d r) = q (ix4 (0 : Fin 1) (2 : Fin 8) d r) :=
  ld_q_apply q 2 (by decide) _ d r
theorem ld_q3 (d : Fin 16) (r : Fin 128) : View.ld q Attn.qRect3 (ix4 (0 : Fin 1) (0 : Fin 1) d r) = q (ix4 (0 : Fin 1) (3 : Fin 8) d r) :=
  ld_q_apply q 3 (by decide) _ d r
theorem ld_q4 (d : Fin 16) (r : Fin 128) : View.ld q Attn.qRect4 (ix4 (0 : Fin 1) (0 : Fin 1) d r) = q (ix4 (0 : Fin 1) (4 : Fin 8) d r) :=
  ld_q_apply q 4 (by decide) _ d r
theorem ld_q5 (d : Fin 16) (r : Fin 128) : View.ld q Attn.qRect5 (ix4 (0 : Fin 1) (0 : Fin 1) d r) = q (ix4 (0 : Fin 1) (5 : Fin 8) d r) :=
  ld_q_apply q 5 (by decide) _ d r
theorem ld_q6 (d : Fin 16) (r : Fin 128) : View.ld q Attn.qRect6 (ix4 (0 : Fin 1) (0 : Fin 1) d r) = q (ix4 (0 : Fin 1) (6 : Fin 8) d r) :=
  ld_q_apply q 6 (by decide) _ d r
theorem ld_q7 (d : Fin 16) (r : Fin 128) : View.ld q Attn.qRect7 (ix4 (0 : Fin 1) (0 : Fin 1) d r) = q (ix4 (0 : Fin 1) (7 : Fin 8) d r) :=
  ld_q_apply q 7 (by decide) _ d r
theorem ld_kv0 (d : Fin 16) (m : Fin 2048) : View.ld k Attn.kvRect0 (ix4 (0 : Fin 1) (0 : Fin 1) d m) = k (ix4 (0 : Fin 1) (0 : Fin 8) d m) :=
  ld_kv_apply k 0 (by decide) _ d m
theorem ld_kv1 (d : Fin 16) (m : Fin 2048) : View.ld k Attn.kvRect1 (ix4 (0 : Fin 1) (0 : Fin 1) d m) = k (ix4 (0 : Fin 1) (1 : Fin 8) d m) :=
  ld_kv_apply k 1 (by decide) _ d m
theorem ld_kv2 (d : Fin 16) (m : Fin 2048) : View.ld k Attn.kvRect2 (ix4 (0 : Fin 1) (0 : Fin 1) d m) = k (ix4 (0 : Fin 1) (2 : Fin 8) d m) :=
  ld_kv_apply k 2 (by decide) _ d m
theorem ld_kv3 (d : Fin 16) (m : Fin 2048) : View.ld k Attn.kvRect3 (ix4 (0 : Fin 1) (0 : Fin 1) d m) = k (ix4 (0 : Fin 1) (3 : Fin 8) d m) :=
  ld_kv_apply k 3 (by decide) _ d m
theorem ld_kv4 (d : Fin 16) (m : Fin 2048) : View.ld k Attn.kvRect4 (ix4 (0 : Fin 1) (0 : Fin 1) d m) = k (ix4 (0 : Fin 1) (4 : Fin 8) d m) :=
  ld_kv_apply k 4 (by decide) _ d m
theorem ld_kv5 (d : Fin 16) (m : Fin 2048) : View.ld k Attn.kvRect5 (ix4 (0 : Fin 1) (0 : Fin 1) d m) = k (ix4 (0 : Fin 1) (5 : Fin 8) d m) :=
  ld_kv_apply k 5 (by decide) _ d m
theorem ld_kv6 (d : Fin 16) (m : Fin 2048) : View.ld k Attn.kvRect6 (ix4 (0 : Fin 1) (0 : Fin 1) d m) = k (ix4 (0 : Fin 1) (6 : Fin 8) d m) :=
  ld_kv_apply k 6 (by decide) _ d m
theorem ld_kv7 (d : Fin 16) (m : Fin 2048) : View.ld k Attn.kvRect7 (ix4 (0 : Fin 1) (0 : Fin 1) d m) = k (ix4 (0 : Fin 1) (7 : Fin 8) d m) :=
  ld_kv_apply k 7 (by decide) _ d m

end Slices

/-! ## Casts, the stack of eight and the interleaving, read at an index -/

section Layout
variable {α : Type}

/-- One of eight by its number. -/
def pick8 {β : Type} (c0 c1 c2 c3 c4 c5 c6 c7 : β) : Fin 8 → β
  | ⟨0, _⟩ => c0 | ⟨1, _⟩ => c1 | ⟨2, _⟩ => c2 | ⟨3, _⟩ => c3 | ⟨4, _⟩ => c4 | ⟨5, _⟩ => c5 | ⟨6, _⟩ => c6 | ⟨7, _⟩ => c7

theorem zeros3 : (![0, 0, 0] : Fin 3 → ℕ) = fun _ => 0 :=
  funext fun c => match c with | ⟨0, _⟩ => rfl | ⟨1, _⟩ => rfl | ⟨2, _⟩ => rfl

/-- A [128, 2048] array cast to [1, 1, 128, 2048], at (u, w, r, m): the array at (r, m). -/
theorem cast_rows_apply (R : S128x2048.Idx → α) (h : S128x2048.ShapeCasts S1x1x128x2048) (x : S1x1x128x2048.Idx) :
    shapeCast S1x1x128x2048 R h x = R (ix2 (⟨(x 2).val, (x 2).isLt⟩ : Fin 128) (⟨(x 3).val, (x 3).isLt⟩ : Fin 2048)) := by
  have h0 : (x 0).val < 1 := (x 0).isLt
  have h1 : (x 1).val < 1 := (x 1).isLt
  refine shapeCast_apply R h x _ ?_
  rw [Shape.rowMajor_val_two, Shape.rowMajor_val_four]
  show (x 2).val * 2048 + (x 3).val = (((x 0).val * 1 + (x 1).val) * 128 + (x 2).val) * 2048 + (x 3).val
  omega

/-- An [8, 128, 16] array transposed to [128, 16, 8], flattened to [128, 128] and cast to [1, 128, 128], at (0, r, f):
    the array at (f mod 8, r, f div 8). -/
theorem interleave_apply (X : S8x128x16.Idx → α) (ht : S8x128x16.Transposes [1, 2, 0] S128x16x8)
    (h1 : S128x16x8.ShapeCasts S128x128) (h2 : S128x128.ShapeCasts S1x128x128) (r : Fin 128) (f : Fin 128) :
    shapeCast S1x128x128 (shapeCast S128x128 (transpose S128x16x8 [1, 2, 0] X ht) h1) h2 (ix3 (0 : Fin 1) r f)
      = X (ix3 (⟨f.val % 8, Nat.mod_lt _ (by decide)⟩ : Fin 8) r (⟨f.val / 8, by have := f.isLt; omega⟩ : Fin 16)) := by
  have hd : f.val / 8 < 16 := by have := f.isLt; omega
  have hm : f.val % 8 < 8 := Nat.mod_lt _ (by decide)
  refine (shapeCast_ab_1ab_apply _ h2 (0 : Fin 1) r f).trans ?_
  refine (shapeCast_apply _ h1 (ix2 r f) (ix3 r (⟨f.val / 8, hd⟩ : Fin 16) (⟨f.val % 8, hm⟩ : Fin 8)) ?_).trans ?_
  · rw [Shape.rowMajor_val_three, Shape.rowMajor_val_two]
    show (r.val * 16 + f.val / 8) * 8 + f.val % 8 = r.val * 128 + f.val
    omega
  · exact transpose_apply _ X ht _ _ (fun b => match b with | ⟨0, _⟩ => rfl | ⟨1, _⟩ => rfl | ⟨2, _⟩ => rfl)

/-- Eight [1, 128, 16] arrays stacked along axis 0, at (h, r, d): array h at (0, r, d). -/
theorem stack_apply (p0 p1 p2 p3 p4 p5 p6 p7 : S1x128x16.Idx → α)
    (hc : Shape.Concatenates [S1x128x16, S1x128x16, S1x128x16, S1x128x16, S1x128x16, S1x128x16, S1x128x16, S1x128x16] S8x128x16 0)
    (h : Fin 8) (r : Fin 128) (d : Fin 16) :
    concatenate S8x128x16 0 [⟨S1x128x16, p0⟩, ⟨S1x128x16, p1⟩, ⟨S1x128x16, p2⟩, ⟨S1x128x16, p3⟩, ⟨S1x128x16, p4⟩, ⟨S1x128x16, p5⟩,
        ⟨S1x128x16, p6⟩, ⟨S1x128x16, p7⟩] hc (ix3 h r d)
      = pick8 p0 p1 p2 p3 p4 p5 p6 p7 h (ix3 (0 : Fin 1) r d) :=
  match h with
  | ⟨0, _⟩ => concatenate_apply_piece (0 : Fin S8x128x16.rank) ([⟨S1x128x16, p0⟩, ⟨S1x128x16, p1⟩, ⟨S1x128x16, p2⟩, ⟨S1x128x16, p3⟩, ⟨S1x128x16, p4⟩, ⟨S1x128x16, p5⟩, ⟨S1x128x16, p6⟩, ⟨S1x128x16, p7⟩] : List ((s : Shape) × (s.Idx → α))) hc _ 0 (by show 0 < 8; decide) S1x128x16 p0 rfl rfl 0 (by rfl) (ix3 (0 : Fin 1) r d)
      (fun b hb => match b, hb with | ⟨0, _⟩, hb => absurd rfl hb | ⟨1, _⟩, _ => rfl | ⟨2, _⟩, _ => rfl) (by rfl)
  | ⟨1, _⟩ => concatenate_apply_piece (0 : Fin S8x128x16.rank) ([⟨S1x128x16, p0⟩, ⟨S1x128x16, p1⟩, ⟨S1x128x16, p2⟩, ⟨S1x128x16, p3⟩, ⟨S1x128x16, p4⟩, ⟨S1x128x16, p5⟩, ⟨S1x128x16, p6⟩, ⟨S1x128x16, p7⟩] : List ((s : Shape) × (s.Idx → α))) hc _ 1 (by show 1 < 8; decide) S1x128x16 p1 rfl rfl 1 (by rfl) (ix3 (0 : Fin 1) r d)
      (fun b hb => match b, hb with | ⟨0, _⟩, hb => absurd rfl hb | ⟨1, _⟩, _ => rfl | ⟨2, _⟩, _ => rfl) (by rfl)
  | ⟨2, _⟩ => concatenate_apply_piece (0 : Fin S8x128x16.rank) ([⟨S1x128x16, p0⟩, ⟨S1x128x16, p1⟩, ⟨S1x128x16, p2⟩, ⟨S1x128x16, p3⟩, ⟨S1x128x16, p4⟩, ⟨S1x128x16, p5⟩, ⟨S1x128x16, p6⟩, ⟨S1x128x16, p7⟩] : List ((s : Shape) × (s.Idx → α))) hc _ 2 (by show 2 < 8; decide) S1x128x16 p2 rfl rfl 2 (by rfl) (ix3 (0 : Fin 1) r d)
      (fun b hb => match b, hb with | ⟨0, _⟩, hb => absurd rfl hb | ⟨1, _⟩, _ => rfl | ⟨2, _⟩, _ => rfl) (by rfl)
  | ⟨3, _⟩ => concatenate_apply_piece (0 : Fin S8x128x16.rank) ([⟨S1x128x16, p0⟩, ⟨S1x128x16, p1⟩, ⟨S1x128x16, p2⟩, ⟨S1x128x16, p3⟩, ⟨S1x128x16, p4⟩, ⟨S1x128x16, p5⟩, ⟨S1x128x16, p6⟩, ⟨S1x128x16, p7⟩] : List ((s : Shape) × (s.Idx → α))) hc _ 3 (by show 3 < 8; decide) S1x128x16 p3 rfl rfl 3 (by rfl) (ix3 (0 : Fin 1) r d)
      (fun b hb => match b, hb with | ⟨0, _⟩, hb => absurd rfl hb | ⟨1, _⟩, _ => rfl | ⟨2, _⟩, _ => rfl) (by rfl)
  | ⟨4, _⟩ => concatenate_apply_piece (0 : Fin S8x128x16.rank) ([⟨S1x128x16, p0⟩, ⟨S1x128x16, p1⟩, ⟨S1x128x16, p2⟩, ⟨S1x128x16, p3⟩, ⟨S1x128x16, p4⟩, ⟨S1x128x16, p5⟩, ⟨S1x128x16, p6⟩, ⟨S1x128x16, p7⟩] : List ((s : Shape) × (s.Idx → α))) hc _ 4 (by show 4 < 8; decide) S1x128x16 p4 rfl rfl 4 (by rfl) (ix3 (0 : Fin 1) r d)
      (fun b hb => match b, hb with | ⟨0, _⟩, hb => absurd rfl hb | ⟨1, _⟩, _ => rfl | ⟨2, _⟩, _ => rfl) (by rfl)
  | ⟨5, _⟩ => concatenate_apply_piece (0 : Fin S8x128x16.rank) ([⟨S1x128x16, p0⟩, ⟨S1x128x16, p1⟩, ⟨S1x128x16, p2⟩, ⟨S1x128x16, p3⟩, ⟨S1x128x16, p4⟩, ⟨S1x128x16, p5⟩, ⟨S1x128x16, p6⟩, ⟨S1x128x16, p7⟩] : List ((s : Shape) × (s.Idx → α))) hc _ 5 (by show 5 < 8; decide) S1x128x16 p5 rfl rfl 5 (by rfl) (ix3 (0 : Fin 1) r d)
      (fun b hb => match b, hb with | ⟨0, _⟩, hb => absurd rfl hb | ⟨1, _⟩, _ => rfl | ⟨2, _⟩, _ => rfl) (by rfl)
  | ⟨6, _⟩ => concatenate_apply_piece (0 : Fin S8x128x16.rank) ([⟨S1x128x16, p0⟩, ⟨S1x128x16, p1⟩, ⟨S1x128x16, p2⟩, ⟨S1x128x16, p3⟩, ⟨S1x128x16, p4⟩, ⟨S1x128x16, p5⟩, ⟨S1x128x16, p6⟩, ⟨S1x128x16, p7⟩] : List ((s : Shape) × (s.Idx → α))) hc _ 6 (by show 6 < 8; decide) S1x128x16 p6 rfl rfl 6 (by rfl) (ix3 (0 : Fin 1) r d)
      (fun b hb => match b, hb with | ⟨0, _⟩, hb => absurd rfl hb | ⟨1, _⟩, _ => rfl | ⟨2, _⟩, _ => rfl) (by rfl)
  | ⟨7, _⟩ => concatenate_apply_piece (0 : Fin S8x128x16.rank) ([⟨S1x128x16, p0⟩, ⟨S1x128x16, p1⟩, ⟨S1x128x16, p2⟩, ⟨S1x128x16, p3⟩, ⟨S1x128x16, p4⟩, ⟨S1x128x16, p5⟩, ⟨S1x128x16, p6⟩, ⟨S1x128x16, p7⟩] : List ((s : Shape) × (s.Idx → α))) hc _ 7 (by show 7 < 8; decide) S1x128x16 p7 rfl rfl 7 (by rfl) (ix3 (0 : Fin 1) r d)
      (fun b hb => match b, hb with | ⟨0, _⟩, hb => absurd rfl hb | ⟨1, _⟩, _ => rfl | ⟨2, _⟩, _ => rfl) (by rfl)

/-- Eight [128, 16] arrays each cast to [1, 128, 16], the one numbered `h` at (0, r, d): array h at (r, d). -/
theorem pick8_cast (c0 c1 c2 c3 c4 c5 c6 c7 : S128x16.Idx → α) (hs : S128x16.ShapeCasts S1x128x16) (h : Fin 8) (r : Fin 128) (d : Fin 16) :
    pick8 (shapeCast S1x128x16 c0 hs) (shapeCast S1x128x16 c1 hs) (shapeCast S1x128x16 c2 hs) (shapeCast S1x128x16 c3 hs)
        (shapeCast S1x128x16 c4 hs) (shapeCast S1x128x16 c5 hs) (shapeCast S1x128x16 c6 hs) (shapeCast S1x128x16 c7 hs) h (ix3 (0 : Fin 1) r d)
      = pick8 c0 c1 c2 c3 c4 c5 c6 c7 h (ix2 r d) :=
  match h with
  | ⟨0, _⟩ => shapeCast_ab_1ab_apply c0 hs (0 : Fin 1) r d
  | ⟨1, _⟩ => shapeCast_ab_1ab_apply c1 hs (0 : Fin 1) r d
  | ⟨2, _⟩ => shapeCast_ab_1ab_apply c2 hs (0 : Fin 1) r d
  | ⟨3, _⟩ => shapeCast_ab_1ab_apply c3 hs (0 : Fin 1) r d
  | ⟨4, _⟩ => shapeCast_ab_1ab_apply c4 hs (0 : Fin 1) r d
  | ⟨5, _⟩ => shapeCast_ab_1ab_apply c5 hs (0 : Fin 1) r d
  | ⟨6, _⟩ => shapeCast_ab_1ab_apply c6 hs (0 : Fin 1) r d
  | ⟨7, _⟩ => shapeCast_ab_1ab_apply c7 hs (0 : Fin 1) r d

end Layout

/-! ## The two blocks at an index -/

section Blocks
variable (i : grid1.Coords) (q : Vec F S1x8x16x128 .f32) (k : Vec F S1x8x16x2048 .f32) (v : Vec F S1x8x16x2048 .f32)
  (a : Vec F S1x128x2048 .i32) (s : Vec F S128x2048 .f32)

/-- The attention block as one function of its index: head `y 1`'s rows at `(y 2, y 3)`. -/
def probFn (y : S1x8x128x2048.Idx) : F .f32 :=
  headRows i q k a s (⟨(y 1).val, (y 1).isLt⟩ : Fin 8) (ix2 (⟨(y 2).val, (y 2).isLt⟩ : Fin 128) (⟨(y 3).val, (y 3).isLt⟩ : Fin 2048))

theorem probFn_ix4 (h : Fin 8) (r : Fin 128) (m : Fin 2048) :
    probFn i q k a s (ix4 (0 : Fin 1) h r m) = headRows i q k a s h (ix2 r m) := rfl

theorem probFn_eq (y : S1x8x128x2048.Idx) (h : Fin 8) (r : Fin 128) (m : Fin 2048)
    (h1 : (y 1).val = h.val) (h2 : (y 2).val = r.val) (h3 : (y 3).val = m.val) :
    probFn i q k a s y = headRows i q k a s h (ix2 r m) := by
  unfold probFn
  rw [show (⟨(y 1).val, (y 1).isLt⟩ : Fin 8) = h from Fin.ext h1, show (⟨(y 2).val, (y 2).isLt⟩ : Fin 128) = r from Fin.ext h2,
    show (⟨(y 3).val, (y 3).isLt⟩ : Fin 2048) = m from Fin.ext h3]

/-- The slice at `n` of the attention block holds head `n`'s rows, cast: at its own index it is the block's function at
    the index under it. -/
theorem slice_piece (n : ℕ) (hn : n < 8)
    (inb : ∀ c, (![0, n, 0, 0] : Fin 4 → ℕ) c + S1x1x128x2048.size c ≤ S1x8x128x2048.size c)
    (P : Vec F S1x1x128x2048 .f32) (hP : P = k1_pay13 (headRows i q k a s ⟨n, hn⟩))
    (x : (Rect.unit (s := S1x8x128x2048) ![0, n, 0, 0] S1x1x128x2048.size inb).shape.Idx) :
    P x = probFn i q k a s ((Rect.unit (s := S1x8x128x2048) ![0, n, 0, 0] S1x1x128x2048.size inb).emb x) := by
  subst hP
  have h1 : (x 1).val < 1 := (x 1).isLt
  unfold k1_pay13
  refine (cast_rows_apply _ _ x).trans ?_
  exact (probFn_eq i q k a s _ ⟨n, hn⟩ _ _ (by show n + 1 * (x 1).val = n; omega) (by show 0 + 1 * (x 2).val = (x 2).val; omega)
    (by show 0 + 1 * (x 3).val = (x 3).val; omega)).symm

/-- The attention block at (0, h, r, m) is head `h`'s rows at (r, m). -/
theorem probBlock_apply (h : Fin 8) (r : Fin 128) (m : Fin 2048) :
    Attn.probBlock i q k a s (ix4 (0 : Fin 1) h r m) = headRows i q k a s h (ix2 r m) := by
  unfold Attn.probBlock
  refine (View.canon_apply_of_pieces (probFn i q k a s) _ ?_ _ (Attn.probBlock_cover _ _ _ _ _ _ _ _ _)).trans (probFn_ix4 i q k a s h r m)
  intro pc hpc x
  rcases List.mem_cons.mp hpc with rfl | hpc
  · exact slice_piece i q k a s 7 (by decide) inb_S1x8x128x2048_S1x1x128x2048_0_7_0_0 _ (prob7_eq i q k a s) x
  rcases List.mem_cons.mp hpc with rfl | hpc
  · exact slice_piece i q k a s 6 (by decide) inb_S1x8x128x2048_S1x1x128x2048_0_6_0_0 _ (prob6_eq i q k a s) x
  rcases List.mem_cons.mp hpc with rfl | hpc
  · exact slice_piece i q k a s 5 (by decide) inb_S1x8x128x2048_S1x1x128x2048_0_5_0_0 _ (prob5_eq i q k a s) x
  rcases List.mem_cons.mp hpc with rfl | hpc
  · exact slice_piece i q k a s 4 (by decide) inb_S1x8x128x2048_S1x1x128x2048_0_4_0_0 _ (prob4_eq i q k a s) x
  rcases List.mem_cons.mp hpc with rfl | hpc
  · exact slice_piece i q k a s 3 (by decide) inb_S1x8x128x2048_S1x1x128x2048_0_3_0_0 _ (prob3_eq i q k a s) x
  rcases List.mem_cons.mp hpc with rfl | hpc
  · exact slice_piece i q k a s 2 (by decide) inb_S1x8x128x2048_S1x1x128x2048_0_2_0_0 _ (prob2_eq i q k a s) x
  rcases List.mem_cons.mp hpc with rfl | hpc
  · exact slice_piece i q k a s 1 (by decide) inb_S1x8x128x2048_S1x1x128x2048_0_1_0_0 _ (prob1_eq i q k a s) x
  rcases List.mem_cons.mp hpc with rfl | hpc
  · exact slice_piece i q k a s 0 (by decide) inb_S1x8x128x2048_S1x1x128x2048_0_0_0_0 _ (prob0_eq i q k a s) x
  exact absurd hpc List.not_mem_nil

/-- The value of the output block at (0, r, f): of the eight [128, 16] blocks, the one numbered f mod 8, at (r, f div 8). -/
theorem pay3_apply (m : IVec S128x2048 1) (b : FVec F S128x2048 .f32) (c0 c1 c2 c3 c4 c5 c6 : FVec F S128x16 .f32)
    (v232 : FVec F S16x2048 .bf16) (v233 v234 : FVec F S128x2048 .f32) (r f : Fin 128) :
    k1_pay3 m b c0 c1 c2 c3 c4 c5 c6 v232 v233 v234 (ix3 (0 : Fin 1) r f)
      = pick8 c0 c1 c2 c3 c4 c5 c6 (k1_pay14 v232 (k1_pay1 m b v233 v234)) (⟨f.val % 8, Nat.mod_lt _ (by decide)⟩ : Fin 8)
          (ix2 r (⟨f.val / 8, by have := f.isLt; omega⟩ : Fin 16)) := by
  unfold k1_pay3
  refine (interleave_apply _ _ _ _ r f).trans ?_
  refine (stack_apply _ _ _ _ _ _ _ _ _ _ r _).trans ?_
  exact pick8_cast _ _ _ _ _ _ _ _ _ _ r _

/-- The eight [128, 16] blocks the output block is made of are the heads' products. -/
theorem blocks_eq (h : Fin 8) :
    pick8 (Attn.ctx0 i q k v a s) (Attn.ctx1 i q k v a s) (Attn.ctx2 i q k v a s) (Attn.ctx3 i q k v a s) (Attn.ctx4 i q k v a s)
        (Attn.ctx5 i q k v a s) (Attn.ctx6 i q k v a s)
        (k1_pay14 (k1_pay35 (View.ld v Attn.kvRect7)) (k1_pay1 (Attn.maskOf a) (Attn.biasOf i s) (k1_pay36 (View.ld q Attn.qRect7) (View.ld k Attn.kvRect7)) (k1_pay37 (F := F)))) h
      = headCtx i q k v a s h :=
  match h with
  | ⟨0, _⟩ => ctx0_eq i q k v a s
  | ⟨1, _⟩ => ctx1_eq i q k v a s
  | ⟨2, _⟩ => ctx2_eq i q k v a s
  | ⟨3, _⟩ => ctx3_eq i q k v a s
  | ⟨4, _⟩ => ctx4_eq i q k v a s
  | ⟨5, _⟩ => ctx5_eq i q k v a s
  | ⟨6, _⟩ => ctx6_eq i q k v a s
  | ⟨7, _⟩ => ctx7_eq i q k v a s

/-- The output block at (0, r, f) is the product block of head f mod 8 at (r, f div 8). -/
theorem outBlock_apply (r f : Fin 128) :
    Attn.outBlock i q k v a s (ix3 (0 : Fin 1) r f)
      = headCtx i q k v a s (⟨f.val % 8, Nat.mod_lt _ (by decide)⟩ : Fin 8) (ix2 r (⟨f.val / 8, by have := f.isLt; omega⟩ : Fin 16)) := by
  unfold Attn.outBlock
  refine (congrFun (View.canon_unit_zero (S := S1x128x128) zeros3 _ _) _).trans ?_
  refine (pay3_apply _ _ _ _ _ _ _ _ _ _ _ _ r f).trans ?_
  exact congrFun (blocks_eq i q k v a s _) _

end Blocks

end Cert.KernelIdeal.HeadPieces

end
-- ==== Proof.HeadValue.lean ====
/-
  One head of the attention body, read at an index, over the extended reals.

  The body's values for a tile of 128 query rows against the batch's 2048 key positions:
  • the mask is 1 exactly where the adjacency word is zero;
  • the bias is the encoding block with the entry on the global diagonal (tile number · 128 + row = column) replaced by
    the zero word; the tile number is below 16, so the 32-bit row number never wraps;
  • a head's weights: the query tile [16, 128] transposed times the keys [16, 2048] is, at (row, key position), the sum
    over the head's 16 coordinates of query · key; times ¼, plus the bias, −10¹⁰ under the mask; then along each row
    the maximum (starting from −∞) is subtracted, the exponential taken, and the result divided by the row's sum.
    A row's maximum and sum are kept as a [128, 1] column and repeated along the row, so both read, at (row, key
    position), the fold or the sum over that row alone: the whole chain at (r, m) depends only on row r of its inputs,
    which is the row-level softmax of the specification;
  • the weights times the values, contracting the 2048 key positions of both operands: at (row, coordinate) the sum
    over key positions of weight · value;
  • the stored weights block [1, 1, 128, 2048] is the [128, 2048] array with two unit axes in front.
  Changes of float format are the identity on extended reals, and a product into the zero accumulator is the bare sum.
-/
import proofs.«411331_j31172872634849_3_alg».proof.Proof.Gen.KernelIdeal.Skeleton
import proofs.«411331_j31172872634849_3_alg».proof.Proof.AttnLayer
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HeadValue

open Cert.KernelIdeal Cert.KernelIdeal.Gen
open Idealize.ShloMosaic Idealize.ShloMosaic.ValueIdx
open scoped BigOperators

/-! ## The stored block, the mask and the bias -/

/-- The weights block as stored: two unit axes in front of (row, key position). -/
theorem store_cast_apply (p : FVec Ideal S128x2048 .f32) (r : Fin 128) (m : Fin 2048) :
    k1_pay13 (F := Ideal) p (ix4 (0 : Fin 1) (0 : Fin 1) r m) = p (ix2 r m) := by
  unfold k1_pay13
  exact shapeCast_apply p _ _ _ (by
    rw [Shape.rowMajor_val_two, Shape.rowMajor_val_four]
    show r.val * 2048 + m.val = ((0 * 1 + 0) * 128 + r.val) * 2048 + m.val
    omega)

/-- The mask at (row, key position): 1 exactly where the adjacency word is zero. The comparison's bit is
    `BitVec.ofBool (word == 0)`; stated as the `if` it equals. -/
theorem mask_apply (a : Vec Ideal S1x128x2048 .i32) (r : Fin 128) (m : Fin 2048) :
    k1_pay4 (F := Ideal) a (ix2 r m) = (if a (ix3 (0 : Fin 1) r m) = 0#32 then 1#1 else 0#1) := by
  unfold k1_pay4
  show IntOp.cmpi .eq (shapeCast S128x2048 a _ (ix2 r m)) (0#32) = _
  rw [shapeCast_1ab_ab_apply]
  show BitVec.ofBool (a (ix3 (0 : Fin 1) r m) == 0#32) = _
  by_cases h : a (ix3 (0 : Fin 1) r m) = 0#32
  · rw [if_pos h, h]; rfl
  · rw [if_neg h, beq_eq_false_iff_ne.mpr h]; rfl

/-- The bias at (row, key position): the zero word on the global diagonal, the encoding elsewhere. The row number
    tile · 128 + row is below 2048 and the column below 2048, so equality of the 32-bit words is equality of the numbers. -/
theorem bias_apply (i : grid1.Coords) (s : Vec Ideal S128x2048 .f32) (r : Fin 128) (m : Fin 2048) :
    k1_pay5 (F := Ideal) i s (ix2 r m)
      = if (i 1).val * 128 + r.val = m.val then AttnLayer.zeroW else s (ix2 r m) := by
  have h16 : (i 1).val < 16 := (i 1).isLt
  have key : (IntOp.addi (Scalar.muli (BitVec.ofNat 32 (i 1).val) 128#32) (BitVec.ofNat 32 r.val) = BitVec.ofNat 32 m.val)
      ↔ (i 1).val * 128 + r.val = m.val := by
    unfold IntOp.addi Scalar.muli IntOp.muli
    rw [← BitVec.toNat_inj]
    simp only [BitVec.toNat_add, BitVec.toNat_mul, BitVec.toNat_ofNat]
    have := r.isLt; have := m.isLt
    omega
  unfold k1_pay5
  show Scalar.select (IntOp.cmpi .eq (IntOp.addi (Scalar.muli (BitVec.ofNat 32 (i 1).val) 128#32) (iota .tc S128x2048 32 [0] _ (ix2 r m)))
      (iota .tc S128x2048 32 [1] _ (ix2 r m))) (Scalar.ofBits (F := Ideal) .f32 0x00000000#32) (s (ix2 r m)) = _
  rw [iota_single_apply, iota_single_apply]
  show (if BitVec.ofBool (IntOp.addi (Scalar.muli (BitVec.ofNat 32 (i 1).val) 128#32) (BitVec.ofNat 32 r.val) == BitVec.ofNat 32 m.val) = 1
      then Ideal.ofBits .f32 0x00000000#32 else s (ix2 r m)) = _
  by_cases h : (i 1).val * 128 + r.val = m.val
  · rw [if_pos h, key.mpr h, beq_self_eq_true]; exact if_pos (by decide)
  · rw [if_neg h, beq_eq_false_iff_ne.mpr (fun e => h (key.mp e))]; exact if_neg (by decide)

/-! ## Weights times values -/

/-- The values [1, 1, 16, 2048] read as [16, 2048]. -/
theorem values_cast_apply (vh : Vec Ideal S1x1x16x2048 .f32) (d : Fin 16) (m : Fin 2048) :
    k1_pay11 (F := Ideal) vh (ix2 d m) = vh (ix4 (0 : Fin 1) (0 : Fin 1) d m) := by
  unfold k1_pay11
  show shapeCast S16x2048 vh _ (ix2 d m) = _
  exact shapeCast_apply vh _ _ _ (by
    rw [Shape.rowMajor_val_four, Shape.rowMajor_val_two]
    show ((0 * 1 + 0) * 16 + d.val) * 2048 + m.val = d.val * 2048 + m.val
    omega)

/-- Where the product of weights and values reads its operands: the weights at (row, contraction position), the values at
    (coordinate, contraction position). -/
theorem pv_lhs_0 (j : S128x16.Idx) (q : dot_S128x2048_S16x2048_S128x16_1_1_0_0_n_n.contr.Idx) :
    (dot_S128x2048_S16x2048_S128x16_1_1_0_0_n_n.lhsIdx j q 0).val = (j 0).val := by
  unfold DotDims.lhsIdx
  rw [dif_neg (show ¬(0 : Fin S128x2048.rank) ∈ dot_S128x2048_S16x2048_S128x16_1_1_0_0_n_n.lhsBatch by decide),
    dif_pos (show (0 : Fin S128x2048.rank) ∈ dot_S128x2048_S16x2048_S128x16_1_1_0_0_n_n.lhsNonContracting by decide)]
  rfl
theorem pv_lhs_1 (j : S128x16.Idx) (q : dot_S128x2048_S16x2048_S128x16_1_1_0_0_n_n.contr.Idx) :
    (dot_S128x2048_S16x2048_S128x16_1_1_0_0_n_n.lhsIdx j q 1).val = (q ⟨0, by decide⟩).val :=
  dot_S128x2048_S16x2048_S128x16_1_1_0_0_n_n.lhsIdx_val_of_single rfl j q
theorem pv_rhs_0 (j : S128x16.Idx) (q : dot_S128x2048_S16x2048_S128x16_1_1_0_0_n_n.contr.Idx) :
    (dot_S128x2048_S16x2048_S128x16_1_1_0_0_n_n.rhsIdx j q 0).val = (j 1).val := by
  unfold DotDims.rhsIdx
  rw [dif_neg (show ¬(0 : Fin S16x2048.rank) ∈ dot_S128x2048_S16x2048_S128x16_1_1_0_0_n_n.rhsBatch by decide),
    dif_pos (show (0 : Fin S16x2048.rank) ∈ dot_S128x2048_S16x2048_S128x16_1_1_0_0_n_n.rhsNonContracting by decide)]
  rfl
theorem pv_rhs_1 (j : S128x16.Idx) (q : dot_S128x2048_S16x2048_S128x16_1_1_0_0_n_n.contr.Idx) :
    (dot_S128x2048_S16x2048_S128x16_1_1_0_0_n_n.rhsIdx j q 1).val = (q ⟨0, by decide⟩).val :=
  dot_S128x2048_S16x2048_S128x16_1_1_0_0_n_n.rhsIdx_val_of_single rfl j q

/-- ONE HEAD'S WEIGHTS TIMES ITS VALUES: at (row, coordinate) the sum over key positions. -/
theorem head_ctx_apply (vh : Vec Ideal S1x1x16x2048 .f32) (p : FVec Ideal S128x2048 .f32) (r : Fin 128) (d : Fin 16) :
    k1_pay14 (F := Ideal) (k1_pay11 vh) p (ix2 r d)
      = ∑ m : Fin 2048, p (ix2 r m) * vh (ix4 (0 : Fin 1) (0 : Fin 1) d m) := by
  unfold k1_pay14
  refine (Ideal.matmul_constant_zero_apply dot_S128x2048_S16x2048_S128x16_1_1_0_0_n_n none _ _ (ix2 r d)).trans ?_
  rw [← Equiv.sum_comp (contrEquiv1 dot_S128x2048_S16x2048_S128x16_1_1_0_0_n_n 2048 rfl rfl).symm]
  refine Finset.sum_congr rfl fun k _ => ?_
  have hk := contrEquiv1_symm_val dot_S128x2048_S16x2048_S128x16_1_1_0_0_n_n 2048 rfl rfl k
  have el : dot_S128x2048_S16x2048_S128x16_1_1_0_0_n_n.lhsIdx (ix2 r d)
      ((contrEquiv1 dot_S128x2048_S16x2048_S128x16_1_1_0_0_n_n 2048 rfl rfl).symm k) = ix2 r k := funext fun a => Fin.ext (by
    match a with
    | ⟨0, _⟩ => exact pv_lhs_0 _ _
    | ⟨1, _⟩ => exact (pv_lhs_1 _ _).trans hk)
  have er : dot_S128x2048_S16x2048_S128x16_1_1_0_0_n_n.rhsIdx (ix2 r d)
      ((contrEquiv1 dot_S128x2048_S16x2048_S128x16_1_1_0_0_n_n 2048 rfl rfl).symm k) = ix2 d k := funext fun a => Fin.ext (by
    match a with
    | ⟨0, _⟩ => exact pv_rhs_0 _ _
    | ⟨1, _⟩ => exact (pv_rhs_1 _ _).trans hk)
  rw [el, er]
  show p (ix2 r k) * k1_pay11 (F := Ideal) vh (ix2 d k) = _
  rw [values_cast_apply]

/-! ## One head's weights -/

/-- A length-128 vector kept as a column. -/
theorem column_cast_apply {α : Type} (v : S128.Idx → α) (h : S128.ShapeCasts S128x1) (r : Fin 128) (u : Fin 1) :
    shapeCast S128x1 v h (ix2 r u) = v (ix1 r) :=
  shapeCast_apply v h _ _ (by
    rw [Shape.rowMajor_val_one, Shape.rowMajor_val_two]
    show r.val = r.val * 1 + u.val
    omega)

/-- A column repeated along the 2048 key positions. -/
theorem column_bcast_apply {α : Type} (v : S128x1.Idx → α) (h : S128x1.Broadcasts S128x2048) (r : Fin 128) (m : Fin 2048) :
    broadcastTo S128x2048 v h (ix2 r m) = v (ix2 r (0 : Fin 1)) :=
  broadcastTo_apply v h (ix2 r m) (ix2 r (0 : Fin 1)) fun ax => by
    match ax with
    | ⟨0, _⟩ => rfl
    | ⟨1, _⟩ => rfl

/-- The index of row `r` with key position `k` put back on the reduced axis. -/
theorem lift_row (hred : S128x2048.Reduces [1] S128) (r : Fin 128) (k : Fin 2048) :
    hred.lift (ix1 r) k = ix2 r k :=
  funext fun a => Fin.ext (by
    match a with
    | ⟨0, _⟩ => rfl
    | ⟨1, _⟩ => rfl)

/-- A row's maximum, kept as a column and repeated along the row. -/
theorem rowMax_apply (x : FVec Ideal S128x2048 .f32) (hred : S128x2048.Reduces [1] S128) (hφ : FKind.Formats .f32)
    (hacc : (0xFF800000#32 : BitVec 32) = FKind.maximumf.neutral .f32 hφ)
    (hc : S128.ShapeCasts S128x1) (hb : S128x1.Broadcasts S128x2048) (r : Fin 128) (m : Fin 2048) :
    broadcastTo S128x2048 (shapeCast S128x1 (multiReduction (F := Ideal) .maximumf [1] S128 x 0xFF800000#32 hred hφ hacc) hc) hb (ix2 r m)
      = (Finset.univ : Finset (Fin 2048)).fold max AttnLayer.negInf (fun m' => x (ix2 r m')) := by
  refine (column_bcast_apply _ hb r m).trans ?_
  refine (column_cast_apply _ hc r 0).trans ?_
  refine (Ideal.multiReduction_maximumf_single x _ hred hφ hacc (ix1 r)).trans ?_
  show (Finset.univ : Finset (Fin 2048)).fold max AttnLayer.negInf (fun k => x (hred.lift (ix1 r) k)) = _
  exact congrArg (fun g => (Finset.univ : Finset (Fin 2048)).fold max AttnLayer.negInf g)
    (funext fun k => congrArg x (lift_row hred r k))

/-- A row's sum, kept as a column and repeated along the row. -/
theorem rowSum_apply (x : FVec Ideal S128x2048 .f32) (hred : S128x2048.Reduces [1] S128) (hφ : FKind.Formats .f32)
    (hacc : (0x00000000#32 : BitVec 32) = FKind.add.neutral .f32 hφ)
    (hc : S128.ShapeCasts S128x1) (hb : S128x1.Broadcasts S128x2048) (r : Fin 128) (m : Fin 2048) :
    broadcastTo S128x2048 (shapeCast S128x1 (multiReduction (F := Ideal) .add [1] S128 x 0x00000000#32 hred hφ hacc) hc) hb (ix2 r m)
      = ∑ m' : Fin 2048, x (ix2 r m') := by
  refine (column_bcast_apply _ hb r m).trans ?_
  refine (column_cast_apply _ hc r 0).trans ?_
  refine (Ideal.multiReduction_add_single x _ hred hφ hacc (ix1 r)).trans ?_
  show ∑ k : Fin 2048, x (hred.lift (ix1 r) k) = _
  exact Finset.sum_congr rfl fun k _ => congrArg x (lift_row hred r k)

/-- Subtract the row's maximum and exponentiate. -/
theorem expRows_apply (x : FVec Ideal S128x2048 .f32) (hred : S128x2048.Reduces [1] S128) (hφ : FKind.Formats .f32)
    (hacc : (0xFF800000#32 : BitVec 32) = FKind.maximumf.neutral .f32 hφ)
    (hc : S128.ShapeCasts S128x1) (hb : S128x1.Broadcasts S128x2048) (r : Fin 128)
    (g : Fin 2048 → EReal) (hg : ∀ m', x (ix2 r m') = g m') (m : Fin 2048) :
    exp (subf x (broadcastTo S128x2048 (shapeCast S128x1 (multiReduction (F := Ideal) .maximumf [1] S128 x 0xFF800000#32 hred hφ hacc) hc) hb)) (ix2 r m)
      = Ideal.exp (g m - (Finset.univ : Finset (Fin 2048)).fold max AttnLayer.negInf g) := by
  show Ideal.exp (x (ix2 r m) - broadcastTo S128x2048 _ hb (ix2 r m)) = _
  rw [rowMax_apply x hred hφ hacc hc hb r m, hg m, show (fun m' => x (ix2 r m')) = g from funext hg]

/-- Divide by the row's sum. -/
theorem normRows_apply (e : FVec Ideal S128x2048 .f32) (hred : S128x2048.Reduces [1] S128) (hφ : FKind.Formats .f32)
    (hacc : (0x00000000#32 : BitVec 32) = FKind.add.neutral .f32 hφ)
    (hc : S128.ShapeCasts S128x1) (hb : S128x1.Broadcasts S128x2048) (r : Fin 128)
    (g : Fin 2048 → EReal) (hg : ∀ m', e (ix2 r m') = g m') (m : Fin 2048) :
    divf e (broadcastTo S128x2048 (shapeCast S128x1 (multiReduction (F := Ideal) .add [1] S128 e 0x00000000#32 hred hφ hacc) hc) hb) (ix2 r m)
      = Ideal.div (g m) (∑ m' : Fin 2048, g m') := by
  show Ideal.div (e (ix2 r m)) (broadcastTo S128x2048 _ hb (ix2 r m)) = _
  rw [rowSum_apply e hred hφ hacc hc hb r m, hg m]
  exact congrArg (Ideal.div (g m)) (Finset.sum_congr rfl fun m' _ => hg m')

/-- Where the product of queries and keys reads its operands: the transposed query tile at (row, contraction position),
    the keys at (contraction position, key position). -/
theorem qk_lhs_0 (j : S128x2048.Idx) (q : dot_S128x16_S16x2048_S128x2048_1_0_0_1_n_n.contr.Idx) :
    (dot_S128x16_S16x2048_S128x2048_1_0_0_1_n_n.lhsIdx j q 0).val = (j 0).val := by
  unfold DotDims.lhsIdx
  rw [dif_neg (show ¬(0 : Fin S128x16.rank) ∈ dot_S128x16_S16x2048_S128x2048_1_0_0_1_n_n.lhsBatch by decide),
    dif_pos (show (0 : Fin S128x16.rank) ∈ dot_S128x16_S16x2048_S128x2048_1_0_0_1_n_n.lhsNonContracting by decide)]
  rfl
theorem qk_lhs_1 (j : S128x2048.Idx) (q : dot_S128x16_S16x2048_S128x2048_1_0_0_1_n_n.contr.Idx) :
    (dot_S128x16_S16x2048_S128x2048_1_0_0_1_n_n.lhsIdx j q 1).val = (q ⟨0, by decide⟩).val :=
  dot_S128x16_S16x2048_S128x2048_1_0_0_1_n_n.lhsIdx_val_of_single rfl j q
theorem qk_rhs_0 (j : S128x2048.Idx) (q : dot_S128x16_S16x2048_S128x2048_1_0_0_1_n_n.contr.Idx) :
    (dot_S128x16_S16x2048_S128x2048_1_0_0_1_n_n.rhsIdx j q 0).val = (q ⟨0, by decide⟩).val :=
  dot_S128x16_S16x2048_S128x2048_1_0_0_1_n_n.rhsIdx_val_of_single rfl j q
theorem qk_rhs_1 (j : S128x2048.Idx) (q : dot_S128x16_S16x2048_S128x2048_1_0_0_1_n_n.contr.Idx) :
    (dot_S128x16_S16x2048_S128x2048_1_0_0_1_n_n.rhsIdx j q 1).val = (j 1).val := by
  unfold DotDims.rhsIdx
  rw [dif_neg (show ¬(1 : Fin S16x2048.rank) ∈ dot_S128x16_S16x2048_S128x2048_1_0_0_1_n_n.rhsBatch by decide),
    dif_pos (show (1 : Fin S16x2048.rank) ∈ dot_S128x16_S16x2048_S128x2048_1_0_0_1_n_n.rhsNonContracting by decide)]
  rfl

/-- The query tile, transposed, times the keys: at (row, key position) the sum over the head's 16 coordinates. -/
theorem qk_apply (qh : FVec Ideal S1x1x16x128 .f32) (kh : FVec Ideal S1x1x16x2048 .f32)
    (h1 : S1x1x16x128.ShapeCasts S16x128) (hb : FTy.bits .bf16 < FTy.bits .f32) (h2 : S16x128.Transposes [1, 0] S128x16)
    (h3 : S1x1x16x2048.ShapeCasts S16x2048) (r : Fin 128) (m : Fin 2048) :
    matmul (F := Ideal) dot_S128x16_S16x2048_S128x2048_1_0_0_1_n_n none
        (transpose S128x16 [1, 0] (truncf .bf16 (shapeCast S16x128 qh h1) hb) h2)
        (truncf .bf16 (shapeCast S16x2048 kh h3) hb) (constant S128x2048 .f32 0x00000000#32) (ix2 r m)
      = ∑ d : Fin 16, qh (ix4 (0 : Fin 1) (0 : Fin 1) d r) * kh (ix4 (0 : Fin 1) (0 : Fin 1) d m) := by
  refine (Ideal.matmul_constant_zero_apply dot_S128x16_S16x2048_S128x2048_1_0_0_1_n_n none _ _ (ix2 r m)).trans ?_
  rw [← Equiv.sum_comp (contrEquiv1 dot_S128x16_S16x2048_S128x2048_1_0_0_1_n_n 16 rfl rfl).symm]
  refine Finset.sum_congr rfl fun k _ => ?_
  have hk := contrEquiv1_symm_val dot_S128x16_S16x2048_S128x2048_1_0_0_1_n_n 16 rfl rfl k
  have el : dot_S128x16_S16x2048_S128x2048_1_0_0_1_n_n.lhsIdx (ix2 r m)
      ((contrEquiv1 dot_S128x16_S16x2048_S128x2048_1_0_0_1_n_n 16 rfl rfl).symm k) = ix2 r k := funext fun a => Fin.ext (by
    match a with
    | ⟨0, _⟩ => exact qk_lhs_0 _ _
    | ⟨1, _⟩ => exact (qk_lhs_1 _ _).trans hk)
  have er : dot_S128x16_S16x2048_S128x2048_1_0_0_1_n_n.rhsIdx (ix2 r m)
      ((contrEquiv1 dot_S128x16_S16x2048_S128x2048_1_0_0_1_n_n 16 rfl rfl).symm k) = ix2 k m := funext fun a => Fin.ext (by
    match a with
    | ⟨0, _⟩ => exact (qk_rhs_0 _ _).trans hk
    | ⟨1, _⟩ => exact qk_rhs_1 _ _)
  rw [el, er]
  have eq : transpose S128x16 [1, 0] (truncf (F := Ideal) .bf16 (shapeCast S16x128 qh h1) hb) h2 (ix2 r k)
      = qh (ix4 (0 : Fin 1) (0 : Fin 1) k r) := by
    refine (transpose_ix2_apply _ h2 r k).trans ?_
    show shapeCast S16x128 qh h1 (ix2 k r) = _
    exact shapeCast_apply qh h1 _ _ (by
      rw [Shape.rowMajor_val_four, Shape.rowMajor_val_two]
      show ((0 * 1 + 0) * 16 + k.val) * 128 + r.val = k.val * 128 + r.val
      omega)
  have ek : truncf (F := Ideal) .bf16 (shapeCast S16x2048 kh h3) hb (ix2 k m) = kh (ix4 (0 : Fin 1) (0 : Fin 1) k m) := by
    show shapeCast S16x2048 kh h3 (ix2 k m) = _
    exact shapeCast_apply kh h3 _ _ (by
      rw [Shape.rowMajor_val_four, Shape.rowMajor_val_two]
      show ((0 * 1 + 0) * 16 + k.val) * 2048 + m.val = k.val * 2048 + m.val
      omega)
  rw [eq, ek]

/-- The masked, biased, scaled scores at (row, key position). -/
theorem score_apply (mask : IVec S128x2048 1) (bias : FVec Ideal S128x2048 .f32)
    (qh : FVec Ideal S1x1x16x128 .f32) (kh : FVec Ideal S1x1x16x2048 .f32)
    (h1 : S1x1x16x128.ShapeCasts S16x128) (hb : FTy.bits .bf16 < FTy.bits .f32) (h2 : S16x128.Transposes [1, 0] S128x16)
    (h3 : S1x1x16x2048.ShapeCasts S16x2048) (r : Fin 128) (m : Fin 2048) :
    select mask (broadcast S128x2048 (Scalar.ofBits (F := Ideal) .f32 0xD01502F9#32))
        (addf (mulf (matmul (F := Ideal) dot_S128x16_S16x2048_S128x2048_1_0_0_1_n_n none
              (transpose S128x16 [1, 0] (truncf .bf16 (shapeCast S16x128 qh h1) hb) h2)
              (truncf .bf16 (shapeCast S16x2048 kh h3) hb) (constant S128x2048 .f32 0x00000000#32))
            (broadcast S128x2048 (Scalar.ofBits (F := Ideal) .f32 0x3E800000#32))) bias) (ix2 r m)
      = Scalar.select (mask (ix2 r m)) AttnLayer.negBig
          ((∑ d : Fin 16, qh (ix4 (0 : Fin 1) (0 : Fin 1) d r) * kh (ix4 (0 : Fin 1) (0 : Fin 1) d m)) * AttnLayer.quarter
            + bias (ix2 r m)) :=
  congrArg (fun t : EReal => Scalar.select (mask (ix2 r m)) AttnLayer.negBig (t * AttnLayer.quarter + bias (ix2 r m)))
    (qk_apply qh kh h1 hb h2 h3 r m)

/-- ONE HEAD'S ATTENTION WEIGHTS: at (row, key position) the row-level softmax of the specification. -/
theorem head_prob_apply (mask : IVec S128x2048 1) (bias : FVec Ideal S128x2048 .f32)
    (qh : Vec Ideal S1x1x16x128 .f32) (kh : Vec Ideal S1x1x16x2048 .f32) (r : Fin 128) (h : Fin 8)
    (Qr : Fin 128 → EReal) (K : Fin 2048 → Fin 128 → EReal) (adjr : Fin 2048 → BitVec 32) (encr : Fin 2048 → EReal)
    (hq : ∀ d, qh (ix4 (0 : Fin 1) (0 : Fin 1) d r) = Qr (AttnLayer.feat h d))
    (hk : ∀ m d, kh (ix4 (0 : Fin 1) (0 : Fin 1) d m) = K m (AttnLayer.feat h d))
    (hmask : ∀ m, mask (ix2 r m) = if adjr m = 0#32 then 1#1 else 0#1)
    (hbias : ∀ m, bias (ix2 r m) = encr m) (m : Fin 2048) :
    k1_pay12 (F := Ideal) mask bias qh kh (ix2 r m) = AttnLayer.probR Qr K adjr encr h m := by
  unfold k1_pay12
  refine (normRows_apply _ _ _ _ _ _ r (AttnLayer.expoR Qr K adjr encr h) (fun m' => ?_) m).trans rfl
  refine (expRows_apply _ _ _ _ _ _ r (AttnLayer.scoreR Qr K adjr encr h) (fun m'' => ?_) m').trans rfl
  refine (score_apply mask bias qh kh _ _ _ _ r m'').trans ?_
  rw [hmask m'', hbias m'']
  unfold AttnLayer.scoreR
  have hs : (∑ d : Fin 16, qh (ix4 (0 : Fin 1) (0 : Fin 1) d r) * kh (ix4 (0 : Fin 1) (0 : Fin 1) d m''))
      = ∑ d : Fin 16, Qr (AttnLayer.feat h d) * K m'' (AttnLayer.feat h d) :=
    Finset.sum_congr rfl fun d _ => by rw [hq d, hk m'' d]
  rw [hs]
  by_cases ha : adjr m'' = 0#32
  · rw [if_pos ha, if_pos ha]; exact select_one _ _
  · rw [if_neg ha, if_neg ha]; exact select_zero _ _

end Cert.KernelIdeal.HeadValue

end
-- ==== Proof.AttnWhole.lean ====
/-
  The attention call's two result arrays as whole-array functions of the arrays it is entered with.

  Fix the contents `V` the call is entered with. For batch β and query row n let the row's 128 query features be
  the transposed queries at (β, head, coordinate, n), the batch's keys and values likewise, the adjacency row the
  words adj(β, n, ·) and the encoding row sp(n, ·) with its entry at column n replaced by the zero word. Then the
  attention-weights array ends at the row-level weights `probR` of these at (head, key row), and the output array at
  `ctxR` of these with feature 8·coordinate + head — because at the grid point (β, n / 128) the body's blocks are
  exactly these functions restricted to the tile's rows (each head's chain read at an index, the tile's blocks read as
  entries of their arrays), and the points' blocks cover each array.
-/
import proofs.«411331_j31172872634849_3_alg».proof.Proof.AttnArrays
import proofs.«411331_j31172872634849_3_alg».proof.Proof.HeadPieces
import proofs.«411331_j31172872634849_3_alg».proof.Proof.HeadValue

set_option maxRecDepth 16384

noncomputable section

namespace Cert.KernelIdeal.AttnWhole

open Cert.KernelIdeal Cert.KernelIdeal.Gen
open Idealize.ShloMosaic Idealize.ShloMosaic.TcCoe Idealize.ShloMosaic.ValueIdx Idealize.SL.Sem
open Idealize.ShloMosaic.Pipeline (Dat)
open AttnLayer (feat headOf coordOf headOf_feat coordOf_feat zeroW)

variable (V : (c : Dev nD) → (b : Ref sig .tc) → Buf (Elt Ideal) ((c : Thread nD τ).loc b)) (c : Dev nD)

/-! ## The row-level data read off the entry arrays -/

def qRow (β : Fin 2) (n : Fin 2048) : Fin 128 → EReal :=
  fun f => (V c main_v10 : S2x8x16x2048.Idx → EReal) (ix4 β (headOf f) (coordOf f) n)
def kRows (β : Fin 2) : Fin 2048 → Fin 128 → EReal :=
  fun m f => (V c main_v12 : S2x8x16x2048.Idx → EReal) (ix4 β (headOf f) (coordOf f) m)
def vRows (β : Fin 2) : Fin 2048 → Fin 128 → EReal :=
  fun m f => (V c main_v14 : S2x8x16x2048.Idx → EReal) (ix4 β (headOf f) (coordOf f) m)
def adjRow (β : Fin 2) (n : Fin 2048) : Fin 2048 → BitVec 32 :=
  fun m => (V c main_arg1 : S2x2048x2048.Idx → BitVec 32) (ix3 β n m)
def encRow (n : Fin 2048) : Fin 2048 → EReal :=
  fun m => if n = m then zeroW else (V c main_arg2 : S2048x2048.Idx → EReal) (ix2 n m)

/-- The attention-weights array and the output array, whole. -/
def probWhole : S2x8x2048x2048.Idx → EReal := fun j =>
  AttnLayer.probR (qRow V c (j 0) (j 2)) (kRows V c (j 0)) (adjRow V c (j 0) (j 2)) (encRow V c (j 2)) (j 1) (j 3)
def outWhole : S2x2048x128.Idx → EReal := fun j =>
  AttnLayer.ctxR (qRow V c (j 0) (j 1)) (kRows V c (j 0)) (vRows V c (j 0)) (adjRow V c (j 0) (j 1)) (encRow V c (j 1))
    ⟨(j 2).val % 8, Nat.mod_lt _ (by decide)⟩ ⟨(j 2).val / 8, by have := (j 2).isLt; simp only [Matrix.cons_val] at this ⊢; omega⟩

/-! ## One head at one grid point -/

theorem zeros2 : (![0, 0] : Fin 2 → ℕ) = fun _ => 0 := funext fun a => by fin_cases a <;> rfl
theorem zeros3 : (![0, 0, 0] : Fin 3 → ℕ) = fun _ => 0 := funext fun a => by fin_cases a <;> rfl

/-- The batch and the global row of tile row `r` at point `t`. -/
def batchOf (t : Fin cfg1.N) : Fin 2 := ⟨t.val / 16, by have := lt_of_lt_of_eq t.isLt AttnArrays.points; omega⟩
def rowOf (t : Fin cfg1.N) (r : Fin 128) : Fin 2048 := ⟨t.val % 16 * 128 + r.val, by have := r.isLt; omega⟩

/-- Head `h`'s normalised rows at point `t`, read at (r, m), given that the head's query and key slices are the
    tile's blocks at head `h`: the row-level weights of global row 128·qi + r. -/
theorem head_rows_at (t : Fin cfg1.N) (h : Fin 8) (qh : Vec Ideal S1x1x16x128 .f32) (kh : Vec Ideal S1x1x16x2048 .f32)
    (hq : ∀ (d : Fin 16) (r : Fin 128), qh (ix4 (0 : Fin 1) (0 : Fin 1) d r) = (Attn.blockAt V c 0 t : Vec Ideal S1x8x16x128 .f32) (ix4 (0 : Fin 1) h d r))
    (hk : ∀ (d : Fin 16) (m : Fin 2048), kh (ix4 (0 : Fin 1) (0 : Fin 1) d m) = (Attn.blockAt V c 1 t : Vec Ideal S1x8x16x2048 .f32) (ix4 (0 : Fin 1) h d m))
    (r : Fin 128) (m : Fin 2048) :
    k1_pay12 (F := Ideal) (Attn.maskOf (Attn.blockAt V c 3 t : Vec Ideal S1x128x2048 .i32)) (Attn.biasOf (grid1.coords t) (Attn.blockAt V c 4 t : Vec Ideal S128x2048 .f32)) qh kh (ix2 r m)
      = AttnLayer.probR (qRow V c (batchOf t) (rowOf t r)) (kRows V c (batchOf t)) (adjRow V c (batchOf t) (rowOf t r)) (encRow V c (rowOf t r)) h m := by
  refine HeadValue.head_prob_apply _ _ qh kh r h _ _ _ _ (fun d => ?_) (fun m' d => ?_) (fun m' => ?_) (fun m' => ?_) m
  · -- the query features of the row
    show _ = (V c main_v10 : S2x8x16x2048.Idx → EReal) (ix4 (batchOf t) (headOf (feat h d)) (coordOf (feat h d)) (rowOf t r))
    rw [headOf_feat, coordOf_feat]
    exact (hq d r).trans (AttnArrays.queries_block V c t _ _ rfl rfl rfl rfl)
  · -- the keys
    show _ = (V c main_v12 : S2x8x16x2048.Idx → EReal) (ix4 (batchOf t) (headOf (feat h d)) (coordOf (feat h d)) m')
    rw [headOf_feat, coordOf_feat]
    exact (hk d m').trans (AttnArrays.keys_block V c t _ _ rfl rfl rfl rfl)
  · -- the mask is the adjacency row's zero test
    show k1_pay4 (F := Ideal) (View.ld (Attn.blockAt V c 3 t : Vec Ideal S1x128x2048 .i32) Attn.adjRect) (ix2 r m') = _
    rw [View.ld_unit_zero (S := S1x128x2048) zeros3]
    refine (HeadValue.mask_apply _ r m').trans ?_
    show (if (Attn.blockAt V c 3 t : Vec Ideal S1x128x2048 .i32) (ix3 (0 : Fin 1) r m') = 0#32 then 1#1 else 0#1) = _
    rw [AttnArrays.adjacency_block V c t (ix3 (0 : Fin 1) r m') (ix3 (batchOf t) (rowOf t r) m') rfl rfl rfl]
    rfl
  · -- the bias is the encoding row with its diagonal entry zeroed
    show k1_pay5 (F := Ideal) (grid1.coords t) (View.ld (Attn.blockAt V c 4 t : Vec Ideal S128x2048 .f32) Attn.encRect) (ix2 r m') = _
    rw [View.ld_unit_zero (S := S128x2048) zeros2]
    refine (HeadValue.bias_apply _ _ r m').trans ?_
    rw [AttnArrays.tile_coord t]
    unfold encRow
    by_cases e : t.val % 16 * 128 + r.val = m'.val
    · rw [if_pos e, if_pos (Fin.ext e : rowOf t r = m')]
    · rw [if_neg e, if_neg (fun e' : rowOf t r = m' => e (congrArg Fin.val e'))]
      exact AttnArrays.encoding_block V c t (ix2 r m') (ix2 (rowOf t r) m') rfl rfl

/-- Head `h`'s rows-times-values at point `t`, read at (r, d). -/
theorem head_ctx_at (t : Fin cfg1.N) (h : Fin 8) (qh : Vec Ideal S1x1x16x128 .f32) (kh vh : Vec Ideal S1x1x16x2048 .f32)
    (hq : ∀ (d : Fin 16) (r : Fin 128), qh (ix4 (0 : Fin 1) (0 : Fin 1) d r) = (Attn.blockAt V c 0 t : Vec Ideal S1x8x16x128 .f32) (ix4 (0 : Fin 1) h d r))
    (hk : ∀ (d : Fin 16) (m : Fin 2048), kh (ix4 (0 : Fin 1) (0 : Fin 1) d m) = (Attn.blockAt V c 1 t : Vec Ideal S1x8x16x2048 .f32) (ix4 (0 : Fin 1) h d m))
    (hv : ∀ (d : Fin 16) (m : Fin 2048), vh (ix4 (0 : Fin 1) (0 : Fin 1) d m) = (Attn.blockAt V c 2 t : Vec Ideal S1x8x16x2048 .f32) (ix4 (0 : Fin 1) h d m))
    (r : Fin 128) (d : Fin 16) :
    k1_pay14 (F := Ideal) (k1_pay11 vh) (k1_pay12 (F := Ideal) (Attn.maskOf (Attn.blockAt V c 3 t : Vec Ideal S1x128x2048 .i32)) (Attn.biasOf (grid1.coords t) (Attn.blockAt V c 4 t : Vec Ideal S128x2048 .f32)) qh kh) (ix2 r d)
      = AttnLayer.ctxR (qRow V c (batchOf t) (rowOf t r)) (kRows V c (batchOf t)) (vRows V c (batchOf t)) (adjRow V c (batchOf t) (rowOf t r)) (encRow V c (rowOf t r)) h d := by
  refine (HeadValue.head_ctx_apply vh _ r d).trans ?_
  unfold AttnLayer.ctxR
  refine Finset.sum_congr rfl fun m _ => ?_
  rw [head_rows_at V c t h qh kh hq hk r m]
  congr 1
  show _ = (V c main_v14 : S2x8x16x2048.Idx → EReal) (ix4 (batchOf t) (headOf (feat h d)) (coordOf (feat h d)) m)
  rw [headOf_feat, coordOf_feat]
  exact (hv d m).trans (AttnArrays.values_block V c t _ _ rfl rfl rfl rfl)

/-! ## What a point writes back -/

section Point
variable (t : Fin cfg1.N)

/-- The point's five input blocks at their literal types. -/
abbrev qB : Vec Ideal S1x8x16x128 .f32 := Attn.blockAt V c 0 t
abbrev kB : Vec Ideal S1x8x16x2048 .f32 := Attn.blockAt V c 1 t
abbrev vB : Vec Ideal S1x8x16x2048 .f32 := Attn.blockAt V c 2 t
abbrev aB : Vec Ideal S1x128x2048 .i32 := Attn.blockAt V c 3 t
abbrev sB : Vec Ideal S128x2048 .f32 := Attn.blockAt V c 4 t

/-- Every head's rows at the point are the row-level weights of the tile's rows. -/
theorem rows_at (h : Fin 8) (r : Fin 128) (m : Fin 2048) :
    HeadPieces.headRows (F := Ideal) (grid1.coords t) (qB V c t) (kB V c t) (aB V c t) (sB V c t) h (ix2 r m)
      = AttnLayer.probR (qRow V c (batchOf t) (rowOf t r)) (kRows V c (batchOf t)) (adjRow V c (batchOf t) (rowOf t r)) (encRow V c (rowOf t r)) h m :=
  match h with
    | ⟨0, _⟩ => head_rows_at V c t 0 _ _ (fun d r' => HeadPieces.ld_q0 (qB V c t) d r') (fun d m' => HeadPieces.ld_kv0 (kB V c t) d m') r m
    | ⟨1, _⟩ => head_rows_at V c t 1 _ _ (fun d r' => HeadPieces.ld_q1 (qB V c t) d r') (fun d m' => HeadPieces.ld_kv1 (kB V c t) d m') r m
    | ⟨2, _⟩ => head_rows_at V c t 2 _ _ (fun d r' => HeadPieces.ld_q2 (qB V c t) d r') (fun d m' => HeadPieces.ld_kv2 (kB V c t) d m') r m
    | ⟨3, _⟩ => head_rows_at V c t 3 _ _ (fun d r' => HeadPieces.ld_q3 (qB V c t) d r') (fun d m' => HeadPieces.ld_kv3 (kB V c t) d m') r m
    | ⟨4, _⟩ => head_rows_at V c t 4 _ _ (fun d r' => HeadPieces.ld_q4 (qB V c t) d r') (fun d m' => HeadPieces.ld_kv4 (kB V c t) d m') r m
    | ⟨5, _⟩ => head_rows_at V c t 5 _ _ (fun d r' => HeadPieces.ld_q5 (qB V c t) d r') (fun d m' => HeadPieces.ld_kv5 (kB V c t) d m') r m
    | ⟨6, _⟩ => head_rows_at V c t 6 _ _ (fun d r' => HeadPieces.ld_q6 (qB V c t) d r') (fun d m' => HeadPieces.ld_kv6 (kB V c t) d m') r m
    | ⟨7, _⟩ => head_rows_at V c t 7 _ _ (fun d r' => HeadPieces.ld_q7 (qB V c t) d r') (fun d m' => HeadPieces.ld_kv7 (kB V c t) d m') r m

/-- Every head's rows-times-values at the point are the row-level products of the tile's rows. -/
theorem ctx_at (h : Fin 8) (r : Fin 128) (d : Fin 16) :
    HeadPieces.headCtx (F := Ideal) (grid1.coords t) (qB V c t) (kB V c t) (vB V c t) (aB V c t) (sB V c t) h (ix2 r d)
      = AttnLayer.ctxR (qRow V c (batchOf t) (rowOf t r)) (kRows V c (batchOf t)) (vRows V c (batchOf t)) (adjRow V c (batchOf t) (rowOf t r)) (encRow V c (rowOf t r)) h d :=
  match h with
    | ⟨0, _⟩ => head_ctx_at V c t 0 _ _ _ (fun d' r' => HeadPieces.ld_q0 (qB V c t) d' r') (fun d' m' => HeadPieces.ld_kv0 (kB V c t) d' m') (fun d' m' => HeadPieces.ld_kv0 (vB V c t) d' m') r d
    | ⟨1, _⟩ => head_ctx_at V c t 1 _ _ _ (fun d' r' => HeadPieces.ld_q1 (qB V c t) d' r') (fun d' m' => HeadPieces.ld_kv1 (kB V c t) d' m') (fun d' m' => HeadPieces.ld_kv1 (vB V c t) d' m') r d
    | ⟨2, _⟩ => head_ctx_at V c t 2 _ _ _ (fun d' r' => HeadPieces.ld_q2 (qB V c t) d' r') (fun d' m' => HeadPieces.ld_kv2 (kB V c t) d' m') (fun d' m' => HeadPieces.ld_kv2 (vB V c t) d' m') r d
    | ⟨3, _⟩ => head_ctx_at V c t 3 _ _ _ (fun d' r' => HeadPieces.ld_q3 (qB V c t) d' r') (fun d' m' => HeadPieces.ld_kv3 (kB V c t) d' m') (fun d' m' => HeadPieces.ld_kv3 (vB V c t) d' m') r d
    | ⟨4, _⟩ => head_ctx_at V c t 4 _ _ _ (fun d' r' => HeadPieces.ld_q4 (qB V c t) d' r') (fun d' m' => HeadPieces.ld_kv4 (kB V c t) d' m') (fun d' m' => HeadPieces.ld_kv4 (vB V c t) d' m') r d
    | ⟨5, _⟩ => head_ctx_at V c t 5 _ _ _ (fun d' r' => HeadPieces.ld_q5 (qB V c t) d' r') (fun d' m' => HeadPieces.ld_kv5 (kB V c t) d' m') (fun d' m' => HeadPieces.ld_kv5 (vB V c t) d' m') r d
    | ⟨6, _⟩ => head_ctx_at V c t 6 _ _ _ (fun d' r' => HeadPieces.ld_q6 (qB V c t) d' r') (fun d' m' => HeadPieces.ld_kv6 (kB V c t) d' m') (fun d' m' => HeadPieces.ld_kv6 (vB V c t) d' m') r d
    | ⟨7, _⟩ => head_ctx_at V c t 7 _ _ _ (fun d' r' => HeadPieces.ld_q7 (qB V c t) d' r') (fun d' m' => HeadPieces.ld_kv7 (kB V c t) d' m') (fun d' m' => HeadPieces.ld_kv7 (vB V c t) d' m') r d

/-- The attention block of the point at a block index is the whole array's function at the corresponding array index. -/
theorem prob_block_eq (y : S1x8x128x2048.Idx) (k : S2x8x2048x2048.Idx)
    (h0 : (k 0).val = t.val / 16) (h1 : (k 1).val = (y 1).val) (h2 : (k 2).val = t.val % 16 * 128 + (y 2).val) (h3 : (k 3).val = (y 3).val) :
    Attn.probBlock (F := Ideal) (grid1.coords t) (qB V c t) (kB V c t) (aB V c t) (sB V c t) y = probWhole V c k := by
  have hy0 : (y 0).val = 0 := by have := (y 0).isLt; simp only [Matrix.cons_val_zero] at this; omega
  have ey : y 0 = (0 : Fin 1) := Fin.ext hy0
  obtain ⟨h, r, m, rfl⟩ : ∃ (h : Fin 8) (r : Fin 128) (m : Fin 2048), y = ix4 (0 : Fin 1) h r m :=
    ⟨y 1, y 2, y 3, (eq_ix4 y).trans (congrArg (fun z => ix4 z (y 1) (y 2) (y 3)) ey)⟩
  refine (HeadPieces.probBlock_apply _ _ _ _ _ h r m).trans ?_
  refine (rows_at V c t _ _ _).trans ?_
  unfold probWhole
  have e0 : k 0 = batchOf t := Fin.ext h0
  have e1 : k 1 = h := Fin.ext h1
  have e2 : k 2 = rowOf t r := Fin.ext h2
  have e3 : k 3 = m := Fin.ext h3
  rw [e0, e1, e2, e3]

/-- The output block of the point at a block index is the whole array's function at the corresponding array index. -/
theorem out_block_eq (y : S1x128x128.Idx) (k : S2x2048x128.Idx)
    (h0 : (k 0).val = t.val / 16) (h1 : (k 1).val = t.val % 16 * 128 + (y 1).val) (h2 : (k 2).val = (y 2).val) :
    Attn.outBlock (F := Ideal) (grid1.coords t) (qB V c t) (kB V c t) (vB V c t) (aB V c t) (sB V c t) y = outWhole V c k := by
  have hy0 : (y 0).val = 0 := by have := (y 0).isLt; simp only [Matrix.cons_val_zero] at this; omega
  have ey : y 0 = (0 : Fin 1) := Fin.ext hy0
  obtain ⟨r, f, rfl⟩ : ∃ (r : Fin 128) (f : Fin 128), y = ix3 (0 : Fin 1) r f :=
    ⟨y 1, y 2, (eq_ix3 y).trans (congrArg (fun z => ix3 z (y 1) (y 2)) ey)⟩
  refine (HeadPieces.outBlock_apply _ _ _ _ _ _ r f).trans ?_
  refine (ctx_at V c t _ _ _).trans ?_
  unfold outWhole
  have e0 : k 0 = batchOf t := Fin.ext h0
  have e1 : k 1 = rowOf t r := Fin.ext h1
  have e2 : (k 2).val = f.val := h2
  rw [e0, e1]
  congr 1 <;> exact Fin.ext (by simp only [e2])

/-- What point `t` writes back into each result array is the whole-array function on the point's block. -/
theorem prob_flushed : (Attn.data V c).flushed 6 t = ((cfg1.win 6).blk t).view.read (Elt Ideal) (probWhole V c) := by
  show (cfg1.win 6).cut (grid1.coords t) ((Attn.data V c).after 6 t) = _
  rw [Attn.after_prob]
  funext j
  have hi := AttnArrays.at_prob t
  have hj0 : (j 0).val = 0 := by
    have hlt : (j 0).val < win1_6.xsize (grid1.coords t) 0 := (j 0).isLt
    rw [(AttnArrays.prob_block_sizes t).1] at hlt; omega
  show Attn.probBlock (F := Ideal) (grid1.coords t) (qB V c t) (kB V c t) (aB V c t) (sB V c t) j = probWhole V c (((cfg1.win 6).blk t).view.emb j)
  refine prob_block_eq V c t j _ ?_ ?_ ?_ ?_
  · show win1_6.index t 0 * 1 + 1 * (j 0).val = _; rw [hi.1, hj0]; omega
  · show win1_6.index t 1 * 8 + 1 * (j 1).val = _; rw [hi.2.1]; omega
  · show win1_6.index t 2 * 128 + 1 * (j 2).val = _; rw [hi.2.2.1]; omega
  · show win1_6.index t 3 * 2048 + 1 * (j 3).val = _; rw [hi.2.2.2]; omega

theorem out_flushed : (Attn.data V c).flushed 5 t = ((cfg1.win 5).blk t).view.read (Elt Ideal) (outWhole V c) := by
  show (cfg1.win 5).cut (grid1.coords t) ((Attn.data V c).after 5 t) = _
  rw [Attn.after_out]
  funext j
  have hi := AttnArrays.at_out t
  have hj0 : (j 0).val = 0 := by
    have hlt : (j 0).val < win1_5.xsize (grid1.coords t) 0 := (j 0).isLt
    rw [(AttnArrays.out_block_sizes t).1] at hlt; omega
  show Attn.outBlock (F := Ideal) (grid1.coords t) (qB V c t) (kB V c t) (vB V c t) (aB V c t) (sB V c t) j = outWhole V c (((cfg1.win 5).blk t).view.emb j)
  refine out_block_eq V c t j _ ?_ ?_ ?_
  · show win1_5.index t 0 * 1 + 1 * (j 0).val = _; rw [hi.1, hj0]; omega
  · show win1_5.index t 1 * 128 + 1 * (j 1).val = _; rw [hi.2.1]; omega
  · show win1_5.index t 2 * 128 + 1 * (j 2).val = _; rw [hi.2.2]; omega

end Point

/-! ## The arrays after the call -/

theorem prob_final : (Attn.data V c).arrAt 6 cfg1.N = probWhole V c :=
  (Attn.data V c).arrAt_eq_of_cover 6 (probWhole V c) (fun t _ => prob_flushed V c t) (AttnArrays.prob_cover)
theorem out_final : (Attn.data V c).arrAt 5 cfg1.N = outWhole V c :=
  (Attn.data V c).arrAt_eq_of_cover 5 (outWhole V c) (fun t _ => out_flushed V c t) (AttnArrays.out_cover)

end Cert.KernelIdeal.AttnWhole

end
-- ==== Proof.ProjValue.lean ====
/-
  What the projection call leaves in its result array [4096, 384], index by index.

  The call's three inputs are prepared by the host: the input x [2, 2048, 128] flattened to [4096, 128] (row β·2048 + n is
  row n of batch β), the three weight matrices stacked along their rows to [384, 128] and transposed to [128, 384]
  (column 128·p + o is row o of matrix p), and the three bias vectors stacked to [384] and given a unit leading axis.
  Each of the 8 grid points takes 512 rows of the flattened input, multiplies them with the whole [128, 384] matrix
  and adds the bias row; its 512 result rows are written back at the same row offset, so the blocks tile the result and
  the result array is ONE function of the three prepared arrays:

      result (r, q) = Σ_k flat (r, k) · wt (k, q) + bias (0, q).

  Read through the host's layout operations this is, at row β·2048 + n and column 128·p + o, the linear layer with the
  p-th weight matrix and bias at (β, n, o).
-/
import proofs.«411331_j31172872634849_3_alg».proof.Proof.IdealRun
import proofs.«411331_j31172872634849_3_alg».proof.Proof.AttnLayer
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KernelIdeal.ProjValue

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! ## A host operation over three operands

Its result buffer holds the operation's function of the three operands' contents, each read at its own buffer. -/

section ThreeOperands
variable {τ' : Topo} {sig' : RefSig} {Val : EltTy → Type} {x a b y : Ref sig' .tc}

theorem nary3_result
    (f : ((k : Fin 3) → ((![x, a, b] : Fin 3 → Ref sig' .tc) k).ty.Contents Val) → y.ty.Contents Val) (hxs hy)
    (F : Valuation τ' sig' Val) :
    (StableHlo.nary (τ := τ') ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

end ThreeOperands

variable (m : (ℓ : Loc nD τ sig) → Buf (Elt Ideal) ℓ) (ρ : Dev nD → PrngReg)

/-! ## The three prepared arrays, as functions of the arguments -/

/-- The input flattened to [4096, 128]. -/
def flatRows (x : S2x2048x128.Idx → EReal) : S4096x128.Idx → EReal :=
  shapeCast S4096x128 x shapeCasts_S2x2048x128_S4096x128
/-- The three weight matrices stacked along their rows, transposed: [128, 384]. -/
def stackedW (Wq Wk Wv : S128x128.Idx → EReal) : S128x384.Idx → EReal :=
  transpose S128x384 [1, 0]
    (concatenate S384x128 0 [⟨S128x128, Wq⟩, ⟨S128x128, Wk⟩, ⟨S128x128, Wv⟩] concatenates_S128x128_S128x128_S128x128_S384x128_d0)
    transposes_S384x128_S128x384_1_0
/-- The three bias vectors stacked, as one row: [1, 384]. -/
def stackedB (bq bk bv : S128.Idx → EReal) : S1x384.Idx → EReal :=
  shapeCast S1x384 (concatenate S384 0 [⟨S128, bq⟩, ⟨S128, bk⟩, ⟨S128, bv⟩] concatenates_S128_S128_S128_S384_d0) shapeCasts_S384_S1x384

/-- The host operations before the call, read at a buffer: each operation's result at its own buffer, any other buffer
    untouched. -/
macro "host_results" : tactic =>
  `(tactic| (simp only [StableHlo.after_cons, StableHlo.after_nil]
             repeat (first
               | rw [StableHlo.unary_result] | rw [StableHlo.reshape_result] | rw [nary3_result]
               | (rw [StableHlo.unary_result_ne]; rotate_left; decide)
               | (rw [StableHlo.reshape_result_ne]; rotate_left; decide)
               | (rw [StableHlo.nary_result_ne]; rotate_left; decide))))

/-- The call's first window array holds the flattened input. -/
theorem entry_rows (c : Dev nD) :
    (Run.V1 m ρ c main_v0 : S4096x128.Idx → EReal) = flatRows (m ((c : Thread nD τ).loc main_arg0)) := by
  dsimp only [Run.V1, Run.W1, hostOps0]
  host_results
  rfl

/-- Its second holds the stacked, transposed weights. -/
theorem entry_weights (c : Dev nD) :
    (Run.V1 m ρ c main_v2 : S128x384.Idx → EReal)
      = stackedW (m ((c : Thread nD τ).loc main_arg3)) (m ((c : Thread nD τ).loc main_arg5)) (m ((c : Thread nD τ).loc main_arg7)) := by
  dsimp only [Run.V1, Run.W1, hostOps0]
  host_results
  rfl

/-- Its third holds the stacked bias row. -/
theorem entry_bias (c : Dev nD) :
    (Run.V1 m ρ c main_v4 : S1x384.Idx → EReal)
      = stackedB (m ((c : Thread nD τ).loc main_arg4)) (m ((c : Thread nD τ).loc main_arg6)) (m ((c : Thread nD τ).loc main_arg8)) := by
  dsimp only [Run.V1, Run.W1, hostOps0]
  host_results
  rfl

/-! ## The prepared arrays read at an index -/

/-- Row β·2048 + n of the flattened input is row n of batch β. -/
theorem flatRows_read (x : S2x2048x128.Idx → EReal) (β : Fin 2) (n : Fin 2048) (k : Fin 128) (r : Fin 4096)
    (hr : r.val = β.val * 2048 + n.val) : flatRows x (ix2 r k) = x (ix3 β n k) := by
  unfold flatRows
  refine shapeCast_apply _ _ (ix2 r k) (ix3 β n k) ?_
  rw [Shape.rowMajor_val_two, Shape.rowMajor_val_three]
  show (β.val * 2048 + n.val) * 128 + k.val = r.val * 128 + k.val
  rw [hr]

/-- Column 128·p + o of the stacked, transposed weights is row o of the p-th matrix. -/
theorem stackedW_read (Wq Wk Wv : S128x128.Idx → EReal) (p : Nat) (hp : p < 3) (Wp : S128x128.Idx → EReal)
    (hWp : ([⟨S128x128, Wq⟩, ⟨S128x128, Wk⟩, ⟨S128x128, Wv⟩] : List ((s : Shape) × (s.Idx → EReal)))[p]'hp = ⟨S128x128, Wp⟩)
    (k o : Fin 128) (q : Fin 384) (hq : q.val = 128 * p + o.val) :
    stackedW Wq Wk Wv (ix2 k q) = Wp (ix2 o k) := by
  unfold stackedW
  refine (transpose_apply _ _ _ (ix2 k q) (ix2 q k) (fun b => match b with | ⟨0, _⟩ => rfl | ⟨1, _⟩ => rfl)).trans ?_
  refine concatenate_apply_piece (0 : Fin S384x128.rank) [⟨S128x128, Wq⟩, ⟨S128x128, Wk⟩, ⟨S128x128, Wv⟩]
    concatenates_S128x128_S128x128_S128x128_S384x128_d0 (ix2 q k) p hp S128x128 Wp hWp rfl (128 * p) ?_ (ix2 o k) (fun b hb => ?_) ?_
  · interval_cases p <;> rfl
  · match b, hb with
    | ⟨0, _⟩, hb => exact absurd (Fin.ext rfl) hb
    | ⟨1, _⟩, _ => rfl
  · exact hq.symm

/-- Entry 128·p + o of the stacked bias row is entry o of the p-th vector. -/
theorem stackedB_read (bq bk bv : S128.Idx → EReal) (p : Nat) (hp : p < 3) (bp : S128.Idx → EReal)
    (hbp : ([⟨S128, bq⟩, ⟨S128, bk⟩, ⟨S128, bv⟩] : List ((s : Shape) × (s.Idx → EReal)))[p]'hp = ⟨S128, bp⟩)
    (o : Fin 128) (q : Fin 384) (hq : q.val = 128 * p + o.val) :
    stackedB bq bk bv (ix2 (0 : Fin 1) q) = bp (ix1 o) := by
  unfold stackedB
  refine (shapeCast_apply _ _ (ix2 (0 : Fin 1) q) (ix1 q) (by
    rw [Shape.rowMajor_val_one, Shape.rowMajor_val_two]
    show q.val = 0 * 384 + q.val
    omega)).trans ?_
  refine concatenate_apply_piece (0 : Fin S384.rank) [⟨S128, bq⟩, ⟨S128, bk⟩, ⟨S128, bv⟩]
    concatenates_S128_S128_S128_S384_d0 (ix1 q) p hp S128 bp hbp rfl (128 * p) ?_ (ix1 o) (fun b hb => ?_) ?_
  · interval_cases p <;> rfl
  · exact absurd (Subsingleton.elim _ _) hb
  · exact hq.symm

/-! ## The body's stored value at an index -/

theorem lhs_axis0 (i : S512x384.Idx) (q : dot_S512x128_S128x384_S512x384_1_0_0_1_n_n.contr.Idx) :
    (dot_S512x128_S128x384_S512x384_1_0_0_1_n_n.lhsIdx i q 0).val = (i 0).val := by
  unfold DotDims.lhsIdx
  rw [dif_neg (show ¬(0 : Fin S512x128.rank) ∈ dot_S512x128_S128x384_S512x384_1_0_0_1_n_n.lhsBatch by decide), dif_pos (show (0 : Fin S512x128.rank) ∈ dot_S512x128_S128x384_S512x384_1_0_0_1_n_n.lhsNonContracting by decide)]
  rfl
theorem lhs_axis1 (i : S512x384.Idx) (q : dot_S512x128_S128x384_S512x384_1_0_0_1_n_n.contr.Idx) :
    (dot_S512x128_S128x384_S512x384_1_0_0_1_n_n.lhsIdx i q 1).val = (q ⟨0, by decide⟩).val :=
  dot_S512x128_S128x384_S512x384_1_0_0_1_n_n.lhsIdx_val_of_single rfl i q
theorem rhs_axis0 (i : S512x384.Idx) (q : dot_S512x128_S128x384_S512x384_1_0_0_1_n_n.contr.Idx) :
    (dot_S512x128_S128x384_S512x384_1_0_0_1_n_n.rhsIdx i q 0).val = (q ⟨0, by decide⟩).val :=
  dot_S512x128_S128x384_S512x384_1_0_0_1_n_n.rhsIdx_val_of_single rfl i q
theorem rhs_axis1 (i : S512x384.Idx) (q : dot_S512x128_S128x384_S512x384_1_0_0_1_n_n.contr.Idx) :
    (dot_S512x128_S128x384_S512x384_1_0_0_1_n_n.rhsIdx i q 1).val = (i 1).val := by
  unfold DotDims.rhsIdx
  rw [dif_neg (show ¬(1 : Fin S128x384.rank) ∈ dot_S512x128_S128x384_S512x384_1_0_0_1_n_n.rhsBatch by decide), dif_pos (show (1 : Fin S128x384.rank) ∈ dot_S512x128_S128x384_S512x384_1_0_0_1_n_n.rhsNonContracting by decide)]
  rfl

/-- The product onto the zero accumulator at (p, q): the sum over the 128 contracted positions. -/
theorem product_apply (xb : FVec Ideal S512x128 .bf16) (wb : FVec Ideal S128x384 .bf16) (p : Fin 512) (q : Fin 384) :
    matmul dot_S512x128_S128x384_S512x384_1_0_0_1_n_n none xb wb (constant (F := Ideal) S512x384 .f32 0x00000000#32) (ix2 p q)
      = ∑ k : Fin 128, xb (ix2 p k) * wb (ix2 k q) := by
  refine (Ideal.matmul_constant_zero_apply dot_S512x128_S128x384_S512x384_1_0_0_1_n_n none xb wb (ix2 p q)).trans ?_
  rw [← Equiv.sum_comp (contrEquiv1 dot_S512x128_S128x384_S512x384_1_0_0_1_n_n 128 rfl rfl).symm]
  refine Finset.sum_congr rfl fun k _ => ?_
  have hk := contrEquiv1_symm_val dot_S512x128_S128x384_S512x384_1_0_0_1_n_n 128 rfl rfl k
  have el : dot_S512x128_S128x384_S512x384_1_0_0_1_n_n.lhsIdx (ix2 p q) ((contrEquiv1 dot_S512x128_S128x384_S512x384_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S512x128_S128x384_S512x384_1_0_0_1_n_n.rhsIdx (ix2 p q) ((contrEquiv1 dot_S512x128_S128x384_S512x384_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- What the body stores, at (p, q) of its block: row p of the rows block times column q of the weights, plus entry q of
    the bias row (the change of float format is the identity on extended reals). -/
theorem stored_apply (x0 : Vec Ideal S512x128 .f32) (w0 : Vec Ideal S128x384 .f32) (b0 : Vec Ideal S1x384 .f32) (p : Fin 512) (q : Fin 384) :
    (k0_pay1 (F := Ideal) x0 w0 b0 : S512x384.Idx → EReal) (ix2 p q)
      = (∑ k : Fin 128, x0 (ix2 p k) * w0 (ix2 k q)) + b0 (ix2 (0 : Fin 1) q) := by
  unfold k0_pay1
  simp only [shapeCast_self]
  refine (addf_apply _ _ _).trans ?_
  refine congrArg₂ (· + ·) ?_ ?_
  · exact product_apply _ _ p q
  · exact broadcastTo_apply _ _ (ix2 p q) (ix2 (0 : Fin 1) q) (fun a => match a with | ⟨0, _⟩ => rfl | ⟨1, _⟩ => rfl)

/-! ## The result array as one function of the three prepared arrays -/

/-- Entry (r, q): row r of the flattened input times column q of the weights, plus the bias at q. -/
def projAt (xf : S4096x128.Idx → EReal) (wt : S128x384.Idx → EReal) (bs : S1x384.Idx → EReal) (r : Fin 4096) (q : Fin 384) : EReal :=
  (∑ k : Fin 128, xf (ix2 r k) * wt (ix2 k q)) + bs (ix2 (0 : Fin 1) q)
def projArr (xf : S4096x128.Idx → EReal) (wt : S128x384.Idx → EReal) (bs : S1x384.Idx → EReal) : S4096x384.Idx → EReal :=
  fun j => projAt xf wt bs ⟨(j 0).val, idx2_lt0 j⟩ ⟨(j 1).val, idx2_lt1 j⟩

/-- At one grid point: the stored value at block index y is the result function at the array index i that y sits at (row
    offset T·512), when the point's three input blocks are the prepared arrays read at that offset. -/
theorem point_value (xb : Vec Ideal S512x128 .f32) (wb : Vec Ideal S128x384 .f32) (bb : Vec Ideal S1x384 .f32)
    (xf : S4096x128.Idx → EReal) (wt : S128x384.Idx → EReal) (bs : S1x384.Idx → EReal)
    (y : S512x384.Idx) (i : S4096x384.Idx) (T : Nat)
    (hi0 : (i 0).val = T * 512 + (y 0).val) (hi1 : (i 1).val = (y 1).val)
    (hx : ∀ (u : S512x128.Idx) (v : S4096x128.Idx), (v 0).val = T * 512 + (u 0).val → (v 1).val = (u 1).val → xb u = xf v)
    (hw : ∀ u : S128x384.Idx, wb u = wt u) (hb : ∀ u : S1x384.Idx, bb u = bs u) :
    (k0_pay1 (F := Ideal) xb wb bb : S512x384.Idx → EReal) y = projArr xf wt bs i := by
  obtain ⟨p, q, rfl⟩ : ∃ (p : Fin 512) (q : Fin 384), y = ix2 p q := ⟨y 0, y 1, eq_ix2 y⟩
  rw [stored_apply]
  unfold projArr projAt
  have hq : (⟨(i 1).val, idx2_lt1 i⟩ : Fin 384) = q := Fin.ext hi1
  rw [hq]
  refine congrArg₂ (· + ·) (Finset.sum_congr rfl fun k _ => ?_) (hb _)
  rw [hx (ix2 p k) (ix2 ⟨(i 0).val, idx2_lt0 i⟩ k) hi0 rfl, hw]

theorem hz : (![0, 0] : Fin 2 → Nat) = fun _ => 0 := funext fun a => by fin_cases a <;> rfl

/-- The printed index maps over the grid: the rows window moves with the result window along the rows, point t at block
    row t; the weights and the bias stay at block (0, 0). -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) = t.val :=
  (by decide +kernel : ∀ t : Fin grid0.N, _)

variable (V : (c : Dev nD) → (b : Ref sig .tc) → Buf (Elt Ideal) ((c : Thread nD τ).loc b))

/-- What point t writes back is block t of the result function of the arrays the call is entered with. -/
theorem flushed_eq (c : Dev nD) (t : Fin cfg0.N) :
    (Proj.data V c).flushed 3 t
      = ((cfg0.win 3).blk t).view.read (Elt Ideal) (projArr (V c main_v0) (V c main_v2) (V c main_v4)) := by
  show (cfg0.win 3).cut (grid0.coords t) ((Proj.data V c).after 3 t) = _
  rw [Proj.after_result]
  unfold Proj.projBlock
  rw [View.canon_unit_zero hz]
  simp only [View.ld_unit_zero (S := S512x128) hz, View.ld_unit_zero (S := S128x384) hz, View.ld_unit_zero (S := S1x384) hz]
  obtain ⟨e0, e1, e2, e3, e4, e5, e6, e7⟩ := idx_facts t
  funext j
  refine point_value (Proj.blockAt V c 0 t) (Proj.blockAt V c 1 t) (Proj.blockAt V c 2 t) (V c main_v0) (V c main_v2) (V c main_v4)
    ((cfg0.win 3).xinj (grid0.coords t) j) (((cfg0.win 3).blk t).view.emb j) (win0_3.index t (0 : Fin 2)) ?_ ?_ ?_ ?_ ?_
  · show win0_3.index t (0 : Fin 2) * 512 + 1 * (j 0).val = win0_3.index t (0 : Fin 2) * 512 + (j 0).val
    omega
  · show win0_3.index t (1 : Fin 2) * 384 + 1 * (j 1).val = (j 1).val
    omega
  · intro u v h0 h1
    show V c main_v0 (((cfg0.win 0).blk t).view.emb u) = V c main_v0 v
    refine congrArg (V c main_v0) (funext fun a => Fin.ext ?_)
    match a with
    | ⟨0, _⟩ => show win0_0.index t (0 : Fin 2) * 512 + 1 * (u 0).val = (v 0).val; omega
    | ⟨1, _⟩ => show win0_0.index t (1 : Fin 2) * 128 + 1 * (u 1).val = (v 1).val; omega
  · intro u
    show V c main_v2 (((cfg0.win 1).blk t).view.emb u) = V c main_v2 u
    refine congrArg (V c main_v2) (funext fun a => Fin.ext ?_)
    match a with
    | ⟨0, _⟩ => show win0_1.index t (0 : Fin 2) * 128 + 1 * (u 0).val = (u 0).val; omega
    | ⟨1, _⟩ => show win0_1.index t (1 : Fin 2) * 384 + 1 * (u 1).val = (u 1).val; omega
  · intro u
    show V c main_v4 (((cfg0.win 2).blk t).view.emb u) = V c main_v4 u
    refine congrArg (V c main_v4) (funext fun a => Fin.ext ?_)
    match a with
    | ⟨0, _⟩ => show win0_2.index t (0 : Fin 2) * 1 + 1 * (u 0).val = (u 0).val; omega
    | ⟨1, _⟩ => show win0_2.index t (1 : Fin 2) * 384 + 1 * (u 1).val = (u 1).val; omega

/-- An index of the result array is in point t's block iff its row is among the point's 512 rows. -/
theorem mem_blk (t : Fin cfg0.N) (i : S4096x384.Idx) :
    i ∈ ((cfg0.win 3).blk t).view.set ↔ ∀ a : Fin 2, win0_3.index t a * S512x384.size a ≤ (i a).val ∧ (i a).val < win0_3.index t a * S512x384.size a + S512x384.size a := by
  show i ∈ ((View.whole main_v5).slice (win0_3.rect t)).set ↔ _
  rw [View.set_slice_whole, Rect.mem_set_unit]
  exact Iff.rfl

/-- Row r of the result is written by point r / 512: the eight blocks tile the array. -/
theorem covered (i : S4096x384.Idx) : ∃ t : Fin cfg0.N, (cfg0.win 3).flush t = true ∧ i ∈ ((cfg0.win 3).blk t).view.set := by
  have hi0 : (i 0).val < 4096 := (i 0).isLt
  have hi1 : (i 1).val < 384 := (i 1).isLt
  have hN : cfg0.N = 8 := N_0
  obtain ⟨t, ht⟩ : ∃ t : Fin cfg0.N, t.val = (i 0).val / 512 := ⟨⟨(i 0).val / 512, by omega⟩, rfl⟩
  obtain ⟨-, -, -, -, -, -, e6, e7⟩ := idx_facts t
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 384 ≤ (i 1).val ∧ (i 1).val < win0_3.index t (1 : Fin 2) * 384 + 384; omega

/-- The result array after the call. -/
theorem result_eq (c : Dev nD) :
    (Run.W2 m ρ c (Proc.devRef .tc main_v5) : S4096x384.Idx → EReal)
      = projArr (Run.V1 m ρ c main_v0) (Run.V1 m ρ c main_v2) (Run.V1 m ρ c main_v4) :=
  (Run.W2_arr m ρ c 3).trans
    ((Proj.data (Run.V1 m ρ) c).arrAt_eq_of_cover 3 _ (fun t _ => flushed_eq (Run.V1 m ρ) c t) covered)

/-! ## The three linear layers in the result array -/

/-- The result function of the prepared arrays, at row β·2048 + n and column 128·p + o, is the linear layer with the p-th
    weight matrix and bias at (β, n, o). -/
theorem projArr_lin (x : S2x2048x128.Idx → EReal) (Wq Wk Wv : S128x128.Idx → EReal) (bq bk bv : S128.Idx → EReal)
    (p : Nat) (hp : p < 3) (Wp : S128x128.Idx → EReal) (bp : S128.Idx → EReal)
    (hWp : ([⟨S128x128, Wq⟩, ⟨S128x128, Wk⟩, ⟨S128x128, Wv⟩] : List ((s : Shape) × (s.Idx → EReal)))[p]'hp = ⟨S128x128, Wp⟩)
    (hbp : ([⟨S128, bq⟩, ⟨S128, bk⟩, ⟨S128, bv⟩] : List ((s : Shape) × (s.Idx → EReal)))[p]'hp = ⟨S128, bp⟩)
    (β : Fin 2) (n : Fin 2048) (o : Fin 128) (r : Fin 4096) (q : Fin 384)
    (hr : r.val = β.val * 2048 + n.val) (hq : q.val = 128 * p + o.val) :
    projArr (flatRows x) (stackedW Wq Wk Wv) (stackedB bq bk bv) (ix2 r q) = AttnLayer.lin x Wp bp β n o := by
  show projAt (flatRows x) (stackedW Wq Wk Wv) (stackedB bq bk bv) r q = _
  unfold projAt AttnLayer.lin
  refine congrArg₂ (· + ·) (Finset.sum_congr rfl fun k _ => ?_) (stackedB_read bq bk bv p hp bp hbp o q hq)
  rw [flatRows_read x β n k r hr, stackedW_read Wq Wk Wv p hp Wp hWp k o q hq]

theorem projected_q (c : Dev nD) (β : Fin 2) (n : Fin 2048) (o : Fin 128) :
    (Run.W2 m ρ c (Proc.devRef .tc main_v5) : S4096x384.Idx → EReal)
        (ix2 (⟨β.val * 2048 + n.val, by omega⟩ : Fin 4096) (⟨o.val, by omega⟩ : Fin 384))
      = AttnLayer.lin (m ((c : Thread nD τ).loc main_arg0)) (m ((c : Thread nD τ).loc main_arg3)) (m ((c : Thread nD τ).loc main_arg4)) β n o := by
  rw [result_eq, entry_rows, entry_weights, entry_bias]
  exact projArr_lin _ _ _ _ _ _ _ 0 (by decide) _ _ rfl rfl β n o _ _ rfl (by show o.val = 128 * 0 + o.val; omega)

theorem projected_k (c : Dev nD) (β : Fin 2) (n : Fin 2048) (o : Fin 128) :
    (Run.W2 m ρ c (Proc.devRef .tc main_v5) : S4096x384.Idx → EReal)
        (ix2 (⟨β.val * 2048 + n.val, by omega⟩ : Fin 4096) (⟨128 + o.val, by omega⟩ : Fin 384))
      = AttnLayer.lin (m ((c : Thread nD τ).loc main_arg0)) (m ((c : Thread nD τ).loc main_arg5)) (m ((c : Thread nD τ).loc main_arg6)) β n o := by
  rw [result_eq, entry_rows, entry_weights, entry_bias]
  exact projArr_lin _ _ _ _ _ _ _ 1 (by decide) _ _ rfl rfl β n o _ _ rfl (by show 128 + o.val = 128 * 1 + o.val; omega)

theorem projected_v (c : Dev nD) (β : Fin 2) (n : Fin 2048) (o : Fin 128) :
    (Run.W2 m ρ c (Proc.devRef .tc main_v5) : S4096x384.Idx → EReal)
        (ix2 (⟨β.val * 2048 + n.val, by omega⟩ : Fin 4096) (⟨256 + o.val, by omega⟩ : Fin 384))
      = AttnLayer.lin (m ((c : Thread nD τ).loc main_arg0)) (m ((c : Thread nD τ).loc main_arg7)) (m ((c : Thread nD τ).loc main_arg8)) β n o := by
  rw [result_eq, entry_rows, entry_weights, entry_bias]
  exact projArr_lin _ _ _ _ _ _ _ 2 (by decide) _ _ rfl rfl β n o _ _ rfl (by show 256 + o.val = 128 * 2 + o.val; omega)

end Cert.KernelIdeal.ProjValue

end
-- ==== Proof.HeadLayout.lean ====
/-
  Between the two calls the projected rows [4096, 384] (row β·2048 + n holds token n of batch β; columns 0‥127 the
  queries, 128‥255 the keys, 256‥383 the values, feature 16·h + d being coordinate d of head h) are cut into three
  [4096, 128] matrices, each reshaped to [2, 2048, 8, 16] and transposed to [2, 8, 16, 2048]: head by head, the
  sequence axis last. Read at an index:

    queries (β, h, d, n) = P (β·2048 + n,       16·h + d)
    keys    (β, h, d, n) = P (β·2048 + n, 128 + 16·h + d)
    values  (β, h, d, n) = P (β·2048 + n, 256 + 16·h + d)

  with P the projected rows as the projection call leaves them. A reshape keeps the row-major position, so the
  [2, 2048, 8, 16] index (β, n, h, d) is the matrix index (β·2048 + n, 16·h + d); the transpose moves n last; the
  slice shifts the column. The adjacency and the encoding are arguments no operation up to here writes: they hold
  what they were launched with. Stated at any float family.
-/
import proofs.«411331_j31172872634849_3_alg».proof.Proof.IdealRun
import proofs.«411331_j31172872634849_3_alg».proof.Proof.AttnLayer
import Idealize.ShloMosaic.Lib.ValueLayout

set_option maxRecDepth 16384

noncomputable section

namespace Cert.KernelIdeal.HeadLayout

open Cert.KernelIdeal Cert.KernelIdeal.Gen
open Idealize.ShloMosaic Idealize.ShloMosaic.TcCoe Idealize.ShloMosaic.ValueIdx

/-! ## The three layout operations read at an index -/

section Layout
variable {α : Type}

/-- The [2, 2048, 8, 16] view of a [4096, 128] matrix: (β, n, h, d) is row β·2048 + n, column 16·h + d. -/
theorem split_apply (X : S4096x128.Idx → α) (hc : S4096x128.ShapeCasts S2x2048x8x16)
    (β : Fin 2) (n : Fin 2048) (h : Fin 8) (d : Fin 16) :
    shapeCast S2x2048x8x16 X hc (ix4 β n h d)
      = X (ix2 (⟨β.val * 2048 + n.val, by omega⟩ : Fin 4096) (⟨h.val * 16 + d.val, by omega⟩ : Fin 128)) :=
  shapeCast_apply X hc _ _ (by
    rw [Shape.rowMajor_val_two, Shape.rowMajor_val_four]
    show (β.val * 2048 + n.val) * 128 + (h.val * 16 + d.val) = ((β.val * 2048 + n.val) * 8 + h.val) * 16 + d.val
    omega)

/-- The sequence axis moved last: (β, h, d, n) of the result is (β, n, h, d) of the operand. -/
theorem seqLast_apply (Y : S2x2048x8x16.Idx → α) (ht : S2x2048x8x16.Transposes [0, 2, 3, 1] S2x8x16x2048)
    (β : Fin 2) (h : Fin 8) (d : Fin 16) (n : Fin 2048) :
    transpose S2x8x16x2048 [0, 2, 3, 1] Y ht (ix4 β h d n) = Y (ix4 β n h d) :=
  transpose_apply _ Y ht _ _ fun b => match b with
    | ⟨0, _⟩ => rfl | ⟨1, _⟩ => rfl | ⟨2, _⟩ => rfl | ⟨3, _⟩ => rfl

/-- A band of 128 columns from column `o`, split into heads with the sequence axis last, read at (β, h, d, n). -/
theorem band_apply (o : Nat) (ho : o + 128 ≤ 384) (P : S4096x384.Idx → α) (hs : S4096x384.Slices ![0, o] S4096x128)
    (hc : S4096x128.ShapeCasts S2x2048x8x16) (ht : S2x2048x8x16.Transposes [0, 2, 3, 1] S2x8x16x2048)
    (β : Fin 2) (h : Fin 8) (d : Fin 16) (n : Fin 2048) :
    transpose S2x8x16x2048 [0, 2, 3, 1] (shapeCast S2x2048x8x16 (extractStridedSlice S4096x128 ![0, o] P hs) hc) ht (ix4 β h d n)
      = P (ix2 (⟨β.val * 2048 + n.val, by omega⟩ : Fin 4096) (⟨o + (h.val * 16 + d.val), by omega⟩ : Fin 384)) :=
  (seqLast_apply _ ht β h d n).trans <| (split_apply _ hc β n h d).trans <|
    slice2_axis1_apply o P hs _ _ _ rfl

end Layout

/-! ## What the attention call is entered with -/

variable {F : FTy → Type} [FloatOps F]
variable (m : (ℓ : Loc nD τ sig) → Buf (Elt F) ℓ) (ρ : Dev nD → PrngReg)

/-- The projected rows, as the projection call leaves them. -/
abbrev P (c : Dev nD) : S4096x384.Idx → Elt F .f32 := Run.W2 m ρ c (Proc.devRef .tc main_v5)

theorem queries_eq (c : Dev nD) : (Run.V3 m ρ c main_v10 : S2x8x16x2048.Idx → Elt F .f32)
    = transpose S2x8x16x2048 [0, 2, 3, 1] (shapeCast S2x2048x8x16
        (extractStridedSlice S4096x128 ![0, 0] (P m ρ c) slices_S4096x384_S4096x128_0_0) shapeCasts_S4096x128_S2x2048x8x16)
        transposes_S2x2048x8x16_S2x8x16x2048_0_2_3_1 := by
  show StableHlo.after hostOps1 (Run.W2 m ρ c) (Proc.devRef .tc main_v10) = _
  after_results
  rfl

theorem keys_eq (c : Dev nD) : (Run.V3 m ρ c main_v12 : S2x8x16x2048.Idx → Elt F .f32)
    = transpose S2x8x16x2048 [0, 2, 3, 1] (shapeCast S2x2048x8x16
        (extractStridedSlice S4096x128 ![0, 128] (P m ρ c) slices_S4096x384_S4096x128_0_128) shapeCasts_S4096x128_S2x2048x8x16)
        transposes_S2x2048x8x16_S2x8x16x2048_0_2_3_1 := by
  show StableHlo.after hostOps1 (Run.W2 m ρ c) (Proc.devRef .tc main_v12) = _
  after_results
  rfl

theorem values_eq (c : Dev nD) : (Run.V3 m ρ c main_v14 : S2x8x16x2048.Idx → Elt F .f32)
    = transpose S2x8x16x2048 [0, 2, 3, 1] (shapeCast S2x2048x8x16
        (extractStridedSlice S4096x128 ![0, 256] (P m ρ c) slices_S4096x384_S4096x128_0_256) shapeCasts_S4096x128_S2x2048x8x16)
        transposes_S2x2048x8x16_S2x8x16x2048_0_2_3_1 := by
  show StableHlo.after hostOps1 (Run.W2 m ρ c) (Proc.devRef .tc main_v14) = _
  after_results
  rfl

/-- The queries, head by head with the sequence axis last. -/
theorem queries_T (c : Dev nD) (β : Fin 2) (h : Fin 8) (d : Fin 16) (n : Fin 2048) :
    (Run.V3 m ρ c main_v10 : S2x8x16x2048.Idx → Elt F .f32) (ix4 β h d n)
      = P m ρ c (ix2 (⟨β.val * 2048 + n.val, by omega⟩ : Fin 4096) (⟨h.val * 16 + d.val, by omega⟩ : Fin 384)) :=
  (congrFun (queries_eq m ρ c) (ix4 β h d n)).trans <|
    (band_apply 0 (by omega) (P m ρ c) _ _ _ β h d n).trans <|
      congrArg (P m ρ c) (congrArg (ix2 _) (Fin.ext (Nat.zero_add _)))

/-- The keys. -/
theorem keys_T (c : Dev nD) (β : Fin 2) (h : Fin 8) (d : Fin 16) (n : Fin 2048) :
    (Run.V3 m ρ c main_v12 : S2x8x16x2048.Idx → Elt F .f32) (ix4 β h d n)
      = P m ρ c (ix2 (⟨β.val * 2048 + n.val, by omega⟩ : Fin 4096) (⟨128 + (h.val * 16 + d.val), by omega⟩ : Fin 384)) :=
  (congrFun (keys_eq m ρ c) (ix4 β h d n)).trans <| band_apply 128 (by omega) (P m ρ c) _ _ _ β h d n

/-- The values. -/
theorem values_T (c : Dev nD) (β : Fin 2) (h : Fin 8) (d : Fin 16) (n : Fin 2048) :
    (Run.V3 m ρ c main_v14 : S2x8x16x2048.Idx → Elt F .f32) (ix4 β h d n)
      = P m ρ c (ix2 (⟨β.val * 2048 + n.val, by omega⟩ : Fin 4096) (⟨256 + (h.val * 16 + d.val), by omega⟩ : Fin 384)) :=
  (congrFun (values_eq m ρ c) (ix4 β h d n)).trans <| band_apply 256 (by omega) (P m ρ c) _ _ _ β h d n

/-- The column of head `h`, coordinate `d` is the feature index 16·h + d of the layer's specification. -/
theorem feat_val (h : Fin 8) (d : Fin 16) : (AttnLayer.feat h d).val = h.val * 16 + d.val := rfl

/-! ## The adjacency and the encoding are as launched -/

/-- A buffer neither host stretch writes and that is no window of the projection call holds what it was launched with. -/
theorem kept (c : Dev nD) (r : Ref sig .tc) (h3 : r ∉ hostOps1_W) (h2 : ∀ w, Pipeline.arrRef spec0 w ≠ r) (h1 : r ∉ hostOps0_W) :
    Run.V3 m ρ c r = m ((c : Thread nD τ).loc r) :=
  (StableHlo.after_of_writes_sub hostOps1 _ hostOps1_writes h3).trans <|
    (Run.W2_of_ne m ρ c r h2).trans <| (StableHlo.after_of_writes_sub hostOps0 _ hostOps0_writes h1).trans rfl

theorem adjacency_kept (c : Dev nD) : Run.V3 m ρ c main_arg1 = m ((c : Thread nD τ).loc main_arg1) :=
  kept m ρ c main_arg1 (by decide) (by decide) (by decide)

theorem encoding_kept (c : Dev nD) : Run.V3 m ρ c main_arg2 = m ((c : Thread nD τ).loc main_arg2) :=
  kept m ρ c main_arg2 (by decide) (by decide) (by decide)

end Cert.KernelIdeal.HeadLayout

end
-- ==== Proof.LayerResult.lean ====
/-
  The program's two results are the specification's arrays.

  The attention call is entered with the transposed queries, keys and values cut out of the projection call's result,
  which holds the three linear layers side by side; with the adjacency and the encoding as launched. So the row-level
  data the attention call works on are: query features lin Wq bq (β, n, ·), keys lin Wk bk (β, ·, ·), values
  lin Wv bv (β, ·, ·), the adjacency row adj(β, n, ·) and the zero-diagonal encoding row — and what the call leaves
  in its two result arrays is the specification's output array and attention-weights array of the launch inputs.
-/
import proofs.«411331_j31172872634849_3_alg».proof.Proof.AttnWhole
import proofs.«411331_j31172872634849_3_alg».proof.Proof.ProjValue
import proofs.«411331_j31172872634849_3_alg».proof.Proof.HeadLayout

set_option maxRecDepth 16384

noncomputable section

namespace Cert.KernelIdeal.Result

open Cert.KernelIdeal Cert.KernelIdeal.Gen
open Idealize.ShloMosaic Idealize.ShloMosaic.TcCoe Idealize.ShloMosaic.ValueIdx Idealize.SL.Sem
open AttnLayer (feat headOf coordOf)

variable (m : (ℓ : Loc nD τ sig) → Buf (Elt Ideal) ℓ) (ρ : Dev nD → PrngReg) (c : Dev nD)

/-- The nine launch inputs on core `c`. -/
abbrev xIn : S2x2048x128.Idx → EReal := m ((c : Thread nD τ).loc main_arg0)
abbrev adjIn : S2x2048x2048.Idx → BitVec 32 := m ((c : Thread nD τ).loc main_arg1)
abbrev encIn : S2048x2048.Idx → EReal := m ((c : Thread nD τ).loc main_arg2)
abbrev WqIn : S128x128.Idx → EReal := m ((c : Thread nD τ).loc main_arg3)
abbrev bqIn : S128.Idx → EReal := m ((c : Thread nD τ).loc main_arg4)
abbrev WkIn : S128x128.Idx → EReal := m ((c : Thread nD τ).loc main_arg5)
abbrev bkIn : S128.Idx → EReal := m ((c : Thread nD τ).loc main_arg6)
abbrev WvIn : S128x128.Idx → EReal := m ((c : Thread nD τ).loc main_arg7)
abbrev bvIn : S128.Idx → EReal := m ((c : Thread nD τ).loc main_arg8)

/-- A feature index is 16·(its head) + (its coordinate). -/
theorem feat_split (f : Fin 128) : (headOf f).val * 16 + (coordOf f).val = f.val := by
  simp only [headOf, coordOf]; omega

/-- The row-level data of the attention call are the linear layers, the adjacency row and the zero-diagonal
    encoding row of the launch inputs. -/
theorem qRow_eq (β : Fin 2) (n : Fin 2048) :
    AttnWhole.qRow (Run.V3 m ρ) c β n = AttnLayer.lin (xIn m c) (WqIn m c) (bqIn m c) β n := by
  funext f
  unfold AttnWhole.qRow
  refine (HeadLayout.queries_T m ρ c β (headOf f) (coordOf f) n).trans ?_
  refine Eq.trans (congrArg (fun z : Fin 384 => HeadLayout.P m ρ c (ix2 (⟨β.val * 2048 + n.val, by omega⟩ : Fin 4096) z))
    (Fin.ext (feat_split f) : (⟨(headOf f).val * 16 + (coordOf f).val, by have := f.isLt; have := feat_split f; omega⟩ : Fin 384) = ⟨f.val, by omega⟩)) ?_
  exact ProjValue.projected_q m ρ c β n f
theorem kRows_eq (β : Fin 2) :
    AttnWhole.kRows (Run.V3 m ρ) c β = AttnLayer.lin (xIn m c) (WkIn m c) (bkIn m c) β := by
  funext n f
  unfold AttnWhole.kRows
  refine (HeadLayout.keys_T m ρ c β (headOf f) (coordOf f) n).trans ?_
  refine Eq.trans (congrArg (fun z : Fin 384 => HeadLayout.P m ρ c (ix2 (⟨β.val * 2048 + n.val, by omega⟩ : Fin 4096) z))
    (Fin.ext (by show 128 + ((headOf f).val * 16 + (coordOf f).val) = 128 + f.val; rw [feat_split f]) :
      (⟨128 + ((headOf f).val * 16 + (coordOf f).val), by have := f.isLt; have := feat_split f; omega⟩ : Fin 384) = ⟨128 + f.val, by omega⟩)) ?_
  exact ProjValue.projected_k m ρ c β n f
theorem vRows_eq (β : Fin 2) :
    AttnWhole.vRows (Run.V3 m ρ) c β = AttnLayer.lin (xIn m c) (WvIn m c) (bvIn m c) β := by
  funext n f
  unfold AttnWhole.vRows
  refine (HeadLayout.values_T m ρ c β (headOf f) (coordOf f) n).trans ?_
  refine Eq.trans (congrArg (fun z : Fin 384 => HeadLayout.P m ρ c (ix2 (⟨β.val * 2048 + n.val, by omega⟩ : Fin 4096) z))
    (Fin.ext (by show 256 + ((headOf f).val * 16 + (coordOf f).val) = 256 + f.val; rw [feat_split f]) :
      (⟨256 + ((headOf f).val * 16 + (coordOf f).val), by have := f.isLt; have := feat_split f; omega⟩ : Fin 384) = ⟨256 + f.val, by omega⟩)) ?_
  exact ProjValue.projected_v m ρ c β n f
theorem adjRow_eq (β : Fin 2) (n : Fin 2048) :
    AttnWhole.adjRow (Run.V3 m ρ) c β n = fun m' => adjIn m c (ix3 β n m') := by
  unfold AttnWhole.adjRow; rw [HeadLayout.adjacency_kept m ρ c]
theorem encRow_eq (n : Fin 2048) :
    AttnWhole.encRow (Run.V3 m ρ) c n = AttnLayer.encZ (encIn m c) n := by
  unfold AttnWhole.encRow AttnLayer.encZ; rw [HeadLayout.encoding_kept m ρ c]

/-- The attention-weights result. -/
theorem prob_result : (Run.W4 m ρ c (Proc.devRef .tc main_v15_1) : S2x8x2048x2048.Idx → EReal)
    = AttnLayer.probArr (xIn m c) (adjIn m c) (encIn m c) (WqIn m c) (bqIn m c) (WkIn m c) (bkIn m c) := by
  refine (Run.W4_arr m ρ c 6).trans ?_
  rw [AttnWhole.prob_final]
  funext j
  obtain ⟨β, h, n, k, rfl⟩ : ∃ (β : Fin 2) (h : Fin 8) (n k : Fin 2048), j = ix4 β h n k := ⟨j 0, j 1, j 2, j 3, eq_ix4 j⟩
  unfold AttnWhole.probWhole AttnLayer.probArr AttnLayer.prob
  show AttnLayer.probR (AttnWhole.qRow (Run.V3 m ρ) c β n) (AttnWhole.kRows (Run.V3 m ρ) c β) (AttnWhole.adjRow (Run.V3 m ρ) c β n)
      (AttnWhole.encRow (Run.V3 m ρ) c n) h k
    = AttnLayer.probR (AttnLayer.lin (xIn m c) (WqIn m c) (bqIn m c) β n) (AttnLayer.lin (xIn m c) (WkIn m c) (bkIn m c) β)
      (fun m' => adjIn m c (ix3 β n m')) (AttnLayer.encZ (encIn m c) n) h k
  rw [qRow_eq, kRows_eq, adjRow_eq, encRow_eq]

/-- The output result. -/
theorem out_result : (Run.W4 m ρ c (Proc.devRef .tc main_v15_0) : S2x2048x128.Idx → EReal)
    = AttnLayer.outArr (xIn m c) (adjIn m c) (encIn m c) (WqIn m c) (bqIn m c) (WkIn m c) (bkIn m c) (WvIn m c) (bvIn m c) := by
  refine (Run.W4_arr m ρ c 5).trans ?_
  rw [AttnWhole.out_final]
  funext j
  obtain ⟨β, n, f, rfl⟩ : ∃ (β : Fin 2) (n : Fin 2048) (f : Fin 128), j = ix3 β n f := ⟨j 0, j 1, j 2, eq_ix3 j⟩
  unfold AttnWhole.outWhole AttnLayer.outArr AttnLayer.ctx
  show AttnLayer.ctxR (AttnWhole.qRow (Run.V3 m ρ) c β n) (AttnWhole.kRows (Run.V3 m ρ) c β) (AttnWhole.vRows (Run.V3 m ρ) c β)
      (AttnWhole.adjRow (Run.V3 m ρ) c β n) (AttnWhole.encRow (Run.V3 m ρ) c n) _ _
    = AttnLayer.ctxR (AttnLayer.lin (xIn m c) (WqIn m c) (bqIn m c) β n) (AttnLayer.lin (xIn m c) (WkIn m c) (bkIn m c) β)
      (AttnLayer.lin (xIn m c) (WvIn m c) (bvIn m c) β) (fun m' => adjIn m c (ix3 β n m')) (AttnLayer.encZ (encIn m c) n) _ _
  rw [qRow_eq, kRows_eq, vRows_eq, adjRow_eq, encRow_eq]

end Cert.KernelIdeal.Result

end
-- ==== Proof.RefStages.lean ====
/-
  The reference program's run and its stages, one host operation at a time, brought in for the
  modules that compare the reference's result with the attention kernel's.
-/
import proofs.«411331_j31172872634849_3_alg».proof.Proof.Gen.ReferenceIdeal.Run
import proofs.«411331_j31172872634849_3_alg».proof.Proof.Gen.ReferenceIdeal.Read
-- ==== Proof.LibSeqScatter.lean ====
/-
  A table updated one (index, value) pair at a time, the last pair at an index deciding its entry: the closed form of
  that update; the positions whose index comes again later may be sent out of range without changing it; the vector
  subcore's masked indexed store is such an update by its lanes in ascending order; a table held in shards, each shard
  updated vector by vector, ends as the shards of the table updated pair by pair; and the host's scatter whose body
  returns the update is that update, in row-major order of the pairs.
-/
import Mathlib.Data.List.FinRange
import Mathlib.Tactic.Ring
import Idealize.ShloMosaic.PureOps.ShapeOps
import Idealize.ShloMosaic.Lib.ValueIdx

namespace Cert.Lib.SeqScatter

open Idealize.ShloMosaic Idealize.ShloMosaic.ValueIdx

variable {α : Type}

/-! ## Folds over the positions `0, 1, …, n - 1` -/

/-- A property that holds of the start at `0` and passes from `t` to `t + 1` across the step at position `t` holds at
    `n` of the fold over all `n` positions. -/
theorem foldl_finRange_ind {β : Type} {n : ℕ} (f : β → Fin n → β) (b : β) (P : ℕ → β → Prop)
    (h0 : P 0 b) (hs : ∀ (t : Fin n) (x : β), P t.val x → P (t.val + 1) (f x t)) :
    P n ((List.finRange n).foldl f b) := by
  induction n with
  | zero => simpa using h0
  | succ n ih =>
    rw [List.finRange_succ_last, List.foldl_append, List.foldl_map]
    simp only [List.foldl_cons, List.foldl_nil]
    exact hs (Fin.last n) _ (ih (fun x t => f x t.castSucc) (fun t x hx => hs t.castSucc x hx))

/-- Two folds over one list whose starts are related and whose steps keep the relation end related. -/
theorem foldl_rel {β γ ι : Type} (R : β → γ → Prop) (f : β → ι → β) (f' : γ → ι → γ) (l : List ι) (b : β) (c : γ)
    (h0 : R b c) (hs : ∀ (i : ι) (x : β) (y : γ), R x y → R (f x i) (f' y i)) :
    R (l.foldl f b) (l.foldl f' c) := by
  induction l generalizing b c with
  | nil => exact h0
  | cons i l ih => exact ih _ _ (hs i b c h0)

/-- A fold over the positions below `n` is the fold over the positions below `n'` when the two numbers are equal. -/
theorem foldl_finRange_cast {β : Type} {n n' : ℕ} (h : n = n') (f : β → Fin n → β) (b : β) :
    (List.finRange n).foldl f b = (List.finRange n').foldl (fun x p => f x (Fin.cast h.symm p)) b := by
  subst h; rfl

/-! ## One pair at a time -/

/-- One update of a table of `N` entries: entry `i` becomes `a`; an `i` that names no entry (negative, or `N` or
    more) changes nothing. -/
def set1 {N : ℕ} (g : Fin N → α) (i : ℤ) (a : α) : Fin N → α :=
  fun j => if (j.val : ℤ) = i then a else g j

/-- The table `tbl` after the pairs `(idx p, upd p)`, `p = 0, 1, …, B - 1` in that order, each applied by `set1`. -/
def seqSet {N B : ℕ} (tbl : Fin N → α) (idx : Fin B → ℤ) (upd : Fin B → α) : Fin N → α :=
  (List.finRange B).foldl (fun g p => set1 g (idx p) (upd p)) tbl

/-- `g` IS THE CLOSED FORM AFTER THE FIRST `t` PAIRS of a table `base` of `M` entries whose entry `j` is the one the
    index `key j` names: an entry no pair below `t` names is `base`'s, and an entry some pair below `t` names holds
    the update of the last such pair. -/
def Closed {M B : ℕ} (idx : Fin B → ℤ) (upd : Fin B → α) (base : Fin M → α) (key : Fin M → ℤ) (t : ℕ) (g : Fin M → α) :
    Prop :=
  ∀ j : Fin M,
    ((∀ p : Fin B, p.val < t → idx p ≠ key j) → g j = base j) ∧
    (∀ p : Fin B, p.val < t → idx p = key j → (∀ q : Fin B, p < q → q.val < t → idx q ≠ key j) → g j = upd p)

/-- Before any pair the table itself is the closed form. -/
theorem Closed.zero {M B : ℕ} (idx : Fin B → ℤ) (upd : Fin B → α) (base : Fin M → α) (key : Fin M → ℤ) :
    Closed idx upd base key 0 base :=
  fun _ => ⟨fun _ => rfl, fun p hp => absurd hp (Nat.not_lt_zero _)⟩

/-- The closed form after `t` pairs, with the entry that pair `t` names replaced by its update, is the closed form
    after `t + 1` pairs. -/
theorem Closed.step {M B : ℕ} {idx : Fin B → ℤ} {upd : Fin B → α} {base : Fin M → α} {key : Fin M → ℤ} (t : Fin B)
    {g g₁ : Fin M → α} (hc : Closed idx upd base key t.val g)
    (h₁ : ∀ j, g₁ j = if key j = idx t then upd t else g j) : Closed idx upd base key (t.val + 1) g₁ := by
  intro j
  rw [h₁ j]
  by_cases hk : key j = idx t
  · rw [if_pos hk]
    refine ⟨fun hno => absurd hk.symm (hno t (Nat.lt_succ_self _)), fun p hp hpj hlast => ?_⟩
    rcases Nat.lt_succ_iff_lt_or_eq.mp hp with hlt | heq
    · exact absurd hk.symm (hlast t (Fin.lt_def.mpr hlt) (Nat.lt_succ_self _))
    · rw [Fin.ext heq]
  · rw [if_neg hk]
    refine ⟨fun hno => (hc j).1 fun p hp => hno p (Nat.lt_succ_of_lt hp), fun p hp hpj hlast => ?_⟩
    rcases Nat.lt_succ_iff_lt_or_eq.mp hp with hlt | heq
    · exact (hc j).2 p hlt hpj fun q hq hqt => hlast q hq (Nat.lt_succ_of_lt hqt)
    · exact absurd ((congrArg idx (Fin.ext heq)).symm.trans hpj).symm hk

/-- The table updated one pair at a time is the closed form after all the pairs. -/
theorem seqSet_closed {N B : ℕ} (tbl : Fin N → α) (idx : Fin B → ℤ) (upd : Fin B → α) :
    Closed idx upd tbl (fun j => (j.val : ℤ)) B (seqSet tbl idx upd) :=
  foldl_finRange_ind _ tbl (fun t g => Closed idx upd tbl (fun j => (j.val : ℤ)) t g) (Closed.zero _ _ _ _)
    fun t _ hx => Closed.step t hx fun _ => rfl

/-- CLOSED FORM, an entry some pair names: the LAST pair that names entry `j` decides it. -/
theorem seqSet_of_last {N B : ℕ} (tbl : Fin N → α) (idx : Fin B → ℤ) (upd : Fin B → α) (j : Fin N) (p : Fin B)
    (hp : idx p = (j.val : ℤ)) (hlast : ∀ q : Fin B, p < q → idx q ≠ (j.val : ℤ)) :
    seqSet tbl idx upd j = upd p :=
  (seqSet_closed tbl idx upd j).2 p p.isLt hp fun q hq _ => hlast q hq

/-- CLOSED FORM, an entry no pair names keeps the table's value. -/
theorem seqSet_of_not_mem {N B : ℕ} (tbl : Fin N → α) (idx : Fin B → ℤ) (upd : Fin B → α) (j : Fin N)
    (h : ∀ p : Fin B, idx p ≠ (j.val : ℤ)) :
    seqSet tbl idx upd j = tbl j :=
  (seqSet_closed tbl idx upd j).1 fun p _ => h p

/-- Of the positions that hold a given index there is a last one, or there is none. -/
theorem exists_last_or_none {B : ℕ} (idx : Fin B → ℤ) (i : ℤ) :
    (∃ p : Fin B, idx p = i ∧ ∀ q : Fin B, p < q → idx q ≠ i) ∨ (∀ p : Fin B, idx p ≠ i) := by
  by_cases h : ∃ p : Fin B, idx p = i
  · left
    obtain ⟨p₀, hp₀⟩ := h
    obtain ⟨p, hp, hmax⟩ := Finset.exists_max_image (Finset.univ.filter fun p : Fin B => idx p = i) (fun p => p)
      ⟨p₀, Finset.mem_filter.mpr ⟨Finset.mem_univ _, hp₀⟩⟩
    refine ⟨p, (Finset.mem_filter.mp hp).2, fun q hq hqi => ?_⟩
    exact absurd hq (not_lt_of_ge (hmax q (Finset.mem_filter.mpr ⟨Finset.mem_univ _, hqi⟩)))
  · right
    exact fun p hp => h ⟨p, hp⟩

/-- Every entry is one of the two cases of the closed form. -/
theorem seqSet_cases {N B : ℕ} (idx : Fin B → ℤ) (j : Fin N) :
    (∃ p : Fin B, idx p = (j.val : ℤ) ∧ ∀ q : Fin B, p < q → idx q ≠ (j.val : ℤ)) ∨ (∀ p : Fin B, idx p ≠ (j.val : ℤ)) :=
  exists_last_or_none idx _

/-! ## Positions whose index comes again later may be sent out of range -/

/-- If `dd` is `idx` except at some positions whose index comes again at a LATER position, and there `dd` names no
    entry of the table, the two updates give the same table. -/
theorem seqSet_dedup {N B : ℕ} (tbl : Fin N → α) (idx dd : Fin B → ℤ) (upd : Fin B → α)
    (h : ∀ p : Fin B, dd p = idx p ∨ ((dd p < 0 ∨ (N : ℤ) ≤ dd p) ∧ ∃ q : Fin B, p < q ∧ idx q = idx p)) :
    seqSet tbl dd upd = seqSet tbl idx upd := by
  funext j
  have hj : (0 : ℤ) ≤ (j.val : ℤ) ∧ (j.val : ℤ) < (N : ℤ) := ⟨Int.natCast_nonneg _, Int.ofNat_lt.mpr j.isLt⟩
  -- a position that `idx` does not send to entry `j` is not sent there by `dd` either
  have hne : ∀ q : Fin B, idx q ≠ (j.val : ℤ) → dd q ≠ (j.val : ℤ) := by
    intro q hq
    rcases h q with he | ⟨hout, _⟩
    · rw [he]; exact hq
    · intro hd; rw [hd] at hout; omega
  rcases seqSet_cases (N := N) idx j with ⟨p, hp, hlast⟩ | hnone
  · have hdp : dd p = idx p := by
      rcases h p with he | ⟨_, q, hq, hqi⟩
      · exact he
      · exact absurd (hqi.trans hp) (hlast q hq)
    rw [seqSet_of_last tbl idx upd j p hp hlast,
      seqSet_of_last tbl dd upd j p (hdp.trans hp) fun q hq => hne q (hlast q hq)]
  · rw [seqSet_of_not_mem tbl idx upd j hnone, seqSet_of_not_mem tbl dd upd j fun p => hne p (hnone p)]

/-- The same in blocks of `W` positions: every position whose index comes again later IN ITS OWN BLOCK of `W` gets the
    out-of-range index `D`, the others keep theirs. -/
theorem seqSet_dedup_blocks {N B : ℕ} (W : ℕ) (D : ℤ) (hD : (N : ℤ) ≤ D) (tbl : Fin N → α) (idx dd : Fin B → ℤ) (upd : Fin B → α)
    (h : ∀ p : Fin B, dd p = if ∃ q : Fin B, p < q ∧ q.val / W = p.val / W ∧ idx q = idx p then D else idx p) :
    seqSet tbl dd upd = seqSet tbl idx upd := by
  refine seqSet_dedup tbl idx dd upd fun p => ?_
  rw [h p]
  by_cases hex : ∃ q : Fin B, p < q ∧ q.val / W = p.val / W ∧ idx q = idx p
  · rw [if_pos hex]
    obtain ⟨q, hq, _, hqi⟩ := hex
    exact Or.inr ⟨Or.inr hD, q, hq, hqi⟩
  · rw [if_neg hex]; exact Or.inl rfl

/-! ## One vector of pairs, into a shard -/

/-- Lane `l` of vector `k` is position `W * k + l`, one of the `B` positions when the whole vector lies inside them. -/
theorem lane_lt {W k B : ℕ} (h : W * (k + 1) ≤ B) (l : Fin W) : W * k + l.val < B := by
  have := l.isLt; rw [Nat.mul_add, Nat.mul_one] at h; omega

/-- A shard holds entries `lo, lo + 1, …, lo + m - 1` of the table as its entries `0 … m - 1`. One vector of `W` pairs
    applied to it, lane `0` first: a lane whose index lies in `[lo, lo + m)` updates the shard's entry `index - lo`,
    every other lane does nothing. -/
def vecSet {m W : ℕ} (lo : ℕ) (g : Fin m → α) (ix : Fin W → ℤ) (v : Fin W → α) : Fin m → α :=
  (List.finRange W).foldl
    (fun g l => if (lo : ℤ) ≤ ix l ∧ ix l < (lo : ℤ) + (m : ℤ) then set1 g (ix l - (lo : ℤ)) (v l) else g) g

/-- The shard after the first `k` vectors of `W` pairs each (vector `k` is the positions `W * k, …, W * k + W - 1`);
    a vector that does not lie inside the `B` positions is skipped. -/
def shardAfter {m B : ℕ} (W lo : ℕ) (g0 : Fin m → α) (idx : Fin B → ℤ) (upd : Fin B → α) : ℕ → Fin m → α
  | 0 => g0
  | k + 1 =>
    if h : W * (k + 1) ≤ B then
      vecSet lo (shardAfter W lo g0 idx upd k)
        (fun l : Fin W => idx ⟨W * k + l.val, lane_lt h l⟩)
        (fun l : Fin W => upd ⟨W * k + l.val, lane_lt h l⟩)
    else shardAfter W lo g0 idx upd k

/-- Before any vector the shard is as given. -/
@[simp] theorem shardAfter_zero {m B : ℕ} (W lo : ℕ) (g0 : Fin m → α) (idx : Fin B → ℤ) (upd : Fin B → α) :
    shardAfter W lo g0 idx upd 0 = g0 := rfl

/-- THE STEP: vector `k` (inside the `B` positions) takes the shard after `k` vectors to the shard after `k + 1`. -/
theorem shardAfter_succ {m B : ℕ} (W lo : ℕ) (g0 : Fin m → α) (idx : Fin B → ℤ) (upd : Fin B → α) (k : ℕ)
    (h : W * (k + 1) ≤ B) :
    shardAfter W lo g0 idx upd (k + 1)
      = vecSet lo (shardAfter W lo g0 idx upd k)
          (fun l : Fin W => idx ⟨W * k + l.val, lane_lt h l⟩)
          (fun l : Fin W => upd ⟨W * k + l.val, lane_lt h l⟩) := by
  rw [shardAfter, dif_pos h]

/-- One lane's step on a shard, read at an entry: the entry the lane's index names (as `lo + j`) takes the lane's
    value, every other entry stays. -/
theorem lane_step_apply {m : ℕ} (lo : ℕ) (g : Fin m → α) (i : ℤ) (a : α) (j : Fin m) :
    (if (lo : ℤ) ≤ i ∧ i < (lo : ℤ) + (m : ℤ) then set1 g (i - (lo : ℤ)) a else g) j
      = if (lo : ℤ) + (j.val : ℤ) = i then a else g j := by
  have hj : (0 : ℤ) ≤ (j.val : ℤ) ∧ (j.val : ℤ) < (m : ℤ) := ⟨Int.natCast_nonneg _, Int.ofNat_lt.mpr j.isLt⟩
  by_cases hr : (lo : ℤ) ≤ i ∧ i < (lo : ℤ) + (m : ℤ)
  · rw [if_pos hr]
    unfold set1
    by_cases he : (lo : ℤ) + (j.val : ℤ) = i
    · rw [if_pos he, if_pos (by omega)]
    · rw [if_neg he, if_neg (by omega)]
  · rw [if_neg hr, if_neg (by omega)]

/-- The shard after `k` vectors is the closed form after the first `W * k` pairs, entry `j` of the shard being the one
    the index `lo + j` names. -/
theorem shardAfter_closed {m B : ℕ} (W lo : ℕ) (g0 : Fin m → α) (idx : Fin B → ℤ) (upd : Fin B → α) (k : ℕ)
    (hk : W * k ≤ B) :
    Closed idx upd g0 (fun j => (lo : ℤ) + (j.val : ℤ)) (W * k) (shardAfter W lo g0 idx upd k) := by
  induction k with
  | zero => exact Closed.zero _ _ _ _
  | succ k ih =>
    have hk' : W * k ≤ B := le_trans (Nat.mul_le_mul_left W (Nat.le_succ k)) hk
    rw [shardAfter_succ W lo g0 idx upd k hk]
    have hW : W * (k + 1) = W * k + W := by ring
    rw [hW]
    unfold vecSet
    refine foldl_finRange_ind _ _ (fun l g => Closed idx upd g0 (fun j => (lo : ℤ) + (j.val : ℤ)) (W * k + l) g)
      (ih hk') fun l x hx => ?_
    exact Closed.step (⟨W * k + l.val, lane_lt hk l⟩ : Fin B) hx fun j => lane_step_apply lo x _ _ j

/-- THE SHARDS OF THE UPDATED TABLE. A shard that starts as entries `lo …` of `tbl` (wherever `lo + j` is an entry of the
    table; the shard may be longer than what is left of the table, and what it holds there is not asked) is, after all
    `K` vectors (`K * W = B`), entries `lo …` of the table updated one pair at a time. -/
theorem shardAfter_eq_seqSet {N m B : ℕ} (W K lo : ℕ) (hB : K * W = B) (tbl : Fin N → α) (g0 : Fin m → α)
    (idx : Fin B → ℤ) (upd : Fin B → α)
    (hg0 : ∀ (j : Fin m) (h : lo + j.val < N), g0 j = tbl ⟨lo + j.val, h⟩)
    (j : Fin m) (h : lo + j.val < N) :
    shardAfter W lo g0 idx upd K j = seqSet tbl idx upd ⟨lo + j.val, h⟩ := by
  have hWK : W * K = B := (Nat.mul_comm W K).trans hB
  have hc := shardAfter_closed W lo g0 idx upd K (le_of_eq hWK) j
  have hkey : (lo : ℤ) + (j.val : ℤ) = (((⟨lo + j.val, h⟩ : Fin N).val : ℕ) : ℤ) := by push_cast; rfl
  dsimp only at hc
  rw [hkey, hWK] at hc
  rcases seqSet_cases (N := N) idx ⟨lo + j.val, h⟩ with ⟨p, hp, hlast⟩ | hnone
  · rw [seqSet_of_last tbl idx upd _ p hp hlast]
    exact hc.2 p p.isLt hp fun q hq _ => hlast q hq
  · rw [seqSet_of_not_mem tbl idx upd _ hnone, ← hg0 j h]
    exact hc.1 fun p _ => hnone p

/-! ## The vector subcore's masked indexed store is `vecSet` -/

section Store
variable {F : FTy → Type} [FloatOps F] {e : EltTy}

/-- Lane `l` of a vector of `W` lanes, as the store names it, is the rank-one index `ix1 l`. -/
theorem ofLane_eq_ix1 {W : ℕ} (l : Fin W) : Shape.ofLane (d := ![W]) l = ix1 l := by
  funext a
  obtain rfl : a = 0 := Subsingleton.elim _ _
  rfl

/-- `tpu.vector_store_idx` (no add) into a rank-one memref of `m` elements holding `f`, by one index vector `idxs 0`,
    with `W` lanes: if lane `l`'s mask bit is set exactly when `ix l` lies in `[lo, lo + m)`, and a set lane's index
    word reads `ix l - lo`, what the store leaves is `vecSet` of what was there. (The lanes are taken in ascending order
    by the store itself, so lanes naming one element need not be excluded.) -/
theorem storeIdx_eq_vecSet {m W : ℕ} (lo : ℕ) (f : Vec F ⟨1, ![m]⟩ e) (idxs : Fin 1 → IVec ⟨1, ![W]⟩ 32)
    (v : Vec F ⟨1, ![W]⟩ e) (mask : IVec ⟨1, ![W]⟩ 1)
    (hin : ∀ (a : Fin (⟨1, ![m]⟩ : Shape).rank) (x : (⟨1, ![W]⟩ : Shape).Idx), (idxs a x).toNat < (⟨1, ![m]⟩ : Shape).size a)
    (ix : Fin W → ℤ)
    (hmask : ∀ l : Fin W, mask (ix1 l) = 1 ↔ ((lo : ℤ) ≤ ix l ∧ ix l < (lo : ℤ) + (m : ℤ)))
    (hli : ∀ l : Fin W, mask (ix1 l) = 1 → (((idxs 0 (ix1 l)).toNat : ℕ) : ℤ) = ix l - (lo : ℤ))
    (j : Fin m) :
    storeIdx f idxs v mask false hin (ix1 j)
      = vecSet lo (fun j' => f (ix1 j')) ix (fun l => v (ix1 l)) j := by
  unfold storeIdx vecSet
  refine foldl_rel (fun (x : Vec F ⟨1, ![m]⟩ e) (y : Fin m → Elt F e) => ∀ j : Fin m, x (ix1 j) = y j) _ _
    (List.finRange W) f _ (fun _ => rfl) (fun l x y hxy j => ?_) j
  show (if mask (Shape.ofLane (d := ![W]) l) = 1 then
      (fun j' : (⟨1, ![m]⟩ : Shape).Idx =>
        if (∀ a, (j' a).val = (idxAt idxs hin (Shape.ofLane (d := ![W]) l) a).val) then v (Shape.ofLane (d := ![W]) l) else x j')
      else x) (ix1 j) = _
  rw [ofLane_eq_ix1]
  by_cases hm : mask (ix1 l) = 1
  · have hr := (hmask l).mp hm
    have hi := hli l hm
    rw [if_pos hm, if_pos hr]
    unfold set1
    show (if (∀ a, ((ix1 j : (⟨1, ![m]⟩ : Shape).Idx) a).val = (idxAt idxs hin (ix1 l) a).val) then v (ix1 l) else x (ix1 j)) = _
    have hiff : (∀ a, ((ix1 j : (⟨1, ![m]⟩ : Shape).Idx) a).val = (idxAt idxs hin (ix1 l) a).val)
        ↔ (j.val : ℤ) = ix l - (lo : ℤ) := by
      constructor
      · intro hall
        have h0 : j.val = (idxs 0 (ix1 l)).toNat := hall 0
        rw [← hi, h0]
      · intro hj a
        obtain rfl : a = 0 := Subsingleton.elim _ _
        show j.val = (idxs 0 (ix1 l)).toNat
        rw [← hi] at hj
        exact Int.ofNat_inj.mp hj
    by_cases hc : (j.val : ℤ) = ix l - (lo : ℤ)
    · rw [if_pos (hiff.mpr hc), if_pos hc]
    · rw [if_neg (fun hh => hc (hiff.mp hh)), if_neg hc]
      exact hxy j
  · rw [if_neg hm, if_neg (fun hr => hm ((hmask l).mpr hr))]
    exact hxy j

/-- The store at trip `k` of the loop over the vectors: from a memref holding the shard after `k` vectors to one holding
    the shard after `k + 1`. -/
theorem storeIdx_shardAfter {m B : ℕ} (W lo : ℕ) (g0 : Fin m → Elt F e) (idx : Fin B → ℤ) (upd : Fin B → Elt F e)
    (k : ℕ) (hk : W * (k + 1) ≤ B)
    (f : Vec F ⟨1, ![m]⟩ e) (idxs : Fin 1 → IVec ⟨1, ![W]⟩ 32) (v : Vec F ⟨1, ![W]⟩ e) (mask : IVec ⟨1, ![W]⟩ 1)
    (hin : ∀ (a : Fin (⟨1, ![m]⟩ : Shape).rank) (x : (⟨1, ![W]⟩ : Shape).Idx), (idxs a x).toNat < (⟨1, ![m]⟩ : Shape).size a)
    (hf : ∀ j : Fin m, f (ix1 j) = shardAfter W lo g0 idx upd k j)
    (hmask : ∀ l : Fin W, mask (ix1 l) = 1 ↔
      ((lo : ℤ) ≤ idx ⟨W * k + l.val, lane_lt hk l⟩
        ∧ idx ⟨W * k + l.val, lane_lt hk l⟩ < (lo : ℤ) + (m : ℤ)))
    (hli : ∀ l : Fin W, mask (ix1 l) = 1 →
      (((idxs 0 (ix1 l)).toNat : ℕ) : ℤ) = idx ⟨W * k + l.val, lane_lt hk l⟩ - (lo : ℤ))
    (hv : ∀ l : Fin W, v (ix1 l) = upd ⟨W * k + l.val, lane_lt hk l⟩)
    (j : Fin m) :
    storeIdx f idxs v mask false hin (ix1 j) = shardAfter W lo g0 idx upd (k + 1) j := by
  rw [shardAfter_succ W lo g0 idx upd k hk,
    storeIdx_eq_vecSet lo f idxs v mask hin (fun l => idx ⟨W * k + l.val, lane_lt hk l⟩) hmask hli j]
  have e1 : (fun j' : Fin m => f (ix1 j')) = shardAfter W lo g0 idx upd k := funext hf
  have e2 : (fun l : Fin W => v (ix1 l)) = fun l : Fin W => upd ⟨W * k + l.val, lane_lt hk l⟩ := funext hv
  rw [e1, e2]

end Store

/-! ## The host's scatter that returns its update -/

section Scatter
variable {s si u : Shape} {w : ℕ}

/-- Where an update lands, its landing index is start plus window coordinate on every axis. -/
theorem resultIdx?_some (d : ScatterDims s si u) (j : u.Idx) (idx : IVec si w) (i : s.Idx)
    (h : d.resultIdx? j idx = some i) (a : Fin s.rank) : ((i a).val : ℤ) = d.start j idx a + (d.window j a : ℤ) := by
  unfold ScatterDims.resultIdx? at h
  split at h
  · rename_i hh
    have ha := hh a
    cases h
    show (((d.start j idx a + (d.window j a : ℤ)).toNat : ℕ) : ℤ) = _
    omega
  · cases h

/-- An update is dropped only when start plus window coordinate leaves the operand on some axis. -/
theorem resultIdx?_none (d : ScatterDims s si u) (j : u.Idx) (idx : IVec si w)
    (h : d.resultIdx? j idx = none) :
    ¬ ∀ a, 0 ≤ d.start j idx a + (d.window j a : ℤ) ∧ d.start j idx a + (d.window j a : ℤ) < s.size a := by
  unfold ScatterDims.resultIdx? at h
  split at h
  · cases h
  · assumption

/-- On a scatter axis the start is the index word the update reads for it, signed. -/
theorem start_of_mem (d : ScatterDims s si u) (j : u.Idx) (idx : IVec si w) (a : Fin s.rank)
    (ha : a ∈ d.scatterDimsToOperandDims) :
    d.start j idx a = (idx (d.siIdx j ⟨d.scatterDimsToOperandDims.idxOf a, List.idxOf_lt_length_iff.2 ha⟩)).toInt := by
  unfold ScatterDims.start; rw [dif_pos ha]

/-- On an axis that is no scatter axis the start is `0`. -/
theorem start_of_not_mem (d : ScatterDims s si u) (j : u.Idx) (idx : IVec si w) (a : Fin s.rank)
    (ha : a ∉ d.scatterDimsToOperandDims) : d.start j idx a = 0 := by
  unfold ScatterDims.start; rw [dif_neg ha]

/-- The operand's axes the update windows go to are the ones that are not inserted. -/
theorem mem_sKept (d : ScatterDims s si u) (a : Fin s.rank) : a ∈ d.sKept ↔ a ∉ d.insertedWindowDims := by
  simp [ScatterDims.sKept, Shape.kept, List.mem_filter, List.mem_finRange]

/-- On an inserted axis the window coordinate is `0`. -/
theorem window_of_inserted (d : ScatterDims s si u) (j : u.Idx) (a : Fin s.rank) (ha : a ∈ d.insertedWindowDims) :
    d.window j a = 0 := by
  unfold ScatterDims.window; rw [dif_neg (fun h => ((mem_sKept d a).mp h) ha)]

/-- On an axis that is not inserted the window coordinate is the update's coordinate on the window axis in its place. -/
theorem window_of_kept (d : ScatterDims s si u) (j : u.Idx) (a : Fin s.rank) (ha : a ∈ d.sKept) :
    d.window j a
      = (j (d.updateWindowDims[d.sKept.idxOf a]'(by rw [d.window_length]; exact List.idxOf_lt_length_iff.2 ha))).val := by
  unfold ScatterDims.window; rw [dif_pos ha]

/-- One step of the scatter's fold that returns the update, at an operand of ONE scatter axis `0` whose remaining
    coordinates are fixed by `emb` (the operand's index of entry `i` is `emb i`, and every index is one): if the update
    `j`'s start on axis `0` is `t`, read signed, its window coordinate there `0`, and on every other axis start and
    window coordinate are `0`, the step is `set1` at `t`. -/
theorem scatter_step {N : ℕ} (d : ScatterDims s si u) (j : u.Idx) (idx : IVec si w) (a : α)
    (emb : Fin N → s.Idx) (h0 : 0 < s.rank) (hN : s.size ⟨0, h0⟩ = N)
    (hemb0 : ∀ i : Fin N, ((emb i) ⟨0, h0⟩).val = i.val)
    (hemb : ∀ i' : s.Idx, ∃ i : Fin N, i' = emb i)
    (t : ℤ) (hstart : d.start j idx ⟨0, h0⟩ + (d.window j ⟨0, h0⟩ : ℤ) = t)
    (hother : ∀ b : Fin s.rank, b ≠ ⟨0, h0⟩ → d.start j idx b + (d.window j b : ℤ) = 0 ∧ 0 < s.size b)
    (r : s.Idx → α) (r' : Fin N → α) (hr : ∀ i, r (emb i) = r' i) (i : Fin N) :
    (match d.resultIdx? j idx with
      | some i₀ => fun i' => if i' = i₀ then (fun _ b => b) (r i₀) a else r i'
      | none => r) (emb i) = set1 r' t a i := by
  unfold set1
  cases hres : d.resultIdx? j idx with
  | none =>
    have hno := resultIdx?_none d j idx hres
    show r (emb i) = _
    rw [if_neg, hr i]
    intro hit
    apply hno
    intro b
    by_cases hb : b = ⟨0, h0⟩
    · subst hb
      rw [hstart, hN, ← hit]
      exact ⟨Int.natCast_nonneg _, Int.ofNat_lt.mpr i.isLt⟩
    · obtain ⟨hz, hpos⟩ := hother b hb
      rw [hz]
      exact ⟨le_refl _, Int.ofNat_lt.mpr hpos⟩
  | some i₀ =>
    have hi₀ := resultIdx?_some d j idx i₀ hres
    show (if emb i = i₀ then a else r (emb i)) = _
    have hiff : emb i = i₀ ↔ (i.val : ℤ) = t := by
      constructor
      · intro he
        rw [← hstart, ← hi₀ ⟨0, h0⟩, ← he, hemb0 i]
      · intro hit
        obtain ⟨i₁, hi₁⟩ := hemb i₀
        have h1 : ((i₁.val : ℕ) : ℤ) = t := by
          rw [← hstart, ← hi₀ ⟨0, h0⟩, hi₁, hemb0 i₁]
        have : i = i₁ := Fin.ext (Int.ofNat_inj.mp (hit.trans h1.symm))
        rw [hi₁, this]
    by_cases hc : (i.val : ℤ) = t
    · rw [if_pos (hiff.mpr hc), if_pos hc]
    · rw [if_neg (fun hh => hc (hiff.mp hh)), if_neg hc, hr i]

/-- The row-major position of a rank-one index is its coordinate: position `p` of `[B]` is `ix1 p`. -/
theorem rowMajor_symm_flat {B : ℕ} (hn : (⟨1, ![B]⟩ : Shape).numel = B) (p : Fin B) :
    (⟨1, ![B]⟩ : Shape).rowMajor.symm (Fin.cast hn.symm p) = ix1 p := by
  rw [Equiv.symm_apply_eq]
  apply Fin.ext
  rw [Shape.rowMajor_val_one]
  rfl

/-- Position `p` of `[B, 1]` in row-major order is `ix2 p 0`. -/
theorem rowMajor_symm_col {B : ℕ} (hn : (⟨2, ![B, 1]⟩ : Shape).numel = B) (p : Fin B) :
    (⟨2, ![B, 1]⟩ : Shape).rowMajor.symm (Fin.cast hn.symm p) = ix2 p (0 : Fin 1) := by
  rw [Equiv.symm_apply_eq]
  apply Fin.ext
  rw [Shape.rowMajor_val_two]
  show p.val = p.val * 1 + 0
  omega

/-- `x.at[idx].set(upd)` of a flat table: operand `[N]`, scatter indices `[B, 1]`, updates `[B]` (inserted window axis
    `0`, scatter axis to operand axis `0`, index vector axis `1`, no update window axis): entry `j` of the result is
    the table updated one pair at a time, pair `p` being the index word `idx[p, 0]` read SIGNED and the update `upd[p]`. -/
theorem scatter_set_flat {N B w : ℕ} (d : ScatterDims ⟨1, ![N]⟩ ⟨2, ![B, 1]⟩ ⟨1, ![B]⟩)
    (hu : d.updateWindowDims = []) (hi : d.insertedWindowDims = [0]) (hs : d.scatterDimsToOperandDims = [0])
    (hv : d.indexVectorDim = 1)
    (x : (⟨1, ![N]⟩ : Shape).Idx → α) (idx : IVec ⟨2, ![B, 1]⟩ w) (upd : (⟨1, ![B]⟩ : Shape).Idx → α)
    (j : (⟨1, ![N]⟩ : Shape).Idx) :
    Host.scatter d (fun _ b => b) x idx upd j
      = seqSet (fun i : Fin N => x (ix1 i)) (fun p : Fin B => (idx (ix2 p (0 : Fin 1))).toInt) (fun p : Fin B => upd (ix1 p)) (j 0) := by
  obtain ⟨uw, iw, sd, iv, wf⟩ := d
  simp only at hu hi hs hv
  subst hu hi hs hv
  have hn : (⟨1, ![B]⟩ : Shape).numel = B := by simp [Shape.numel]
  obtain ⟨j0, rfl⟩ : ∃ j0 : Fin N, j = ix1 j0 := ⟨j 0, eq_ix1 j⟩
  unfold Host.scatter seqSet
  rw [foldl_finRange_cast hn]
  refine foldl_rel (fun (r : (⟨1, ![N]⟩ : Shape).Idx → α) (r' : Fin N → α) => ∀ i : Fin N, r (ix1 i) = r' i) _ _
    (List.finRange B) x _ (fun _ => rfl) (fun p r r' hr i => ?_) j0
  rw [rowMajor_symm_flat hn p]
  refine scatter_step _ (ix1 p) idx (upd (ix1 p)) (fun i : Fin N => ix1 i) Nat.one_pos rfl (fun _ => rfl)
    (fun i' => ⟨i' 0, eq_ix1 i'⟩) _ ?_ (fun b hb => absurd (Subsingleton.elim _ _) hb) r r' hr i
  -- start on axis 0 is the index word, the window coordinate there is 0
  rw [window_of_inserted _ _ _ (List.mem_singleton.mpr rfl), start_of_mem _ _ _ _ (List.mem_singleton.mpr rfl)]
  simp only [Nat.cast_zero, add_zero]
  congr 2
  funext b
  refine Fin.ext ?_
  match b with
  | ⟨0, _⟩ => rfl
  | ⟨1, _⟩ => rfl

/-- The same of a one-column table: operand `[N, 1]`, scatter indices `[B, 1]`, updates `[B, 1]` (update window axis
    `1`, inserted window axis `0`, scatter axis to operand axis `0`, index vector axis `1`). -/
theorem scatter_set_col {N B w : ℕ} (d : ScatterDims ⟨2, ![N, 1]⟩ ⟨2, ![B, 1]⟩ ⟨2, ![B, 1]⟩)
    (hu : d.updateWindowDims = [1]) (hi : d.insertedWindowDims = [0]) (hs : d.scatterDimsToOperandDims = [0])
    (hv : d.indexVectorDim = 1)
    (x : (⟨2, ![N, 1]⟩ : Shape).Idx → α) (idx : IVec ⟨2, ![B, 1]⟩ w) (upd : (⟨2, ![B, 1]⟩ : Shape).Idx → α)
    (j : (⟨2, ![N, 1]⟩ : Shape).Idx) :
    Host.scatter d (fun _ b => b) x idx upd j
      = seqSet (fun i : Fin N => x (ix2 i (0 : Fin 1))) (fun p : Fin B => (idx (ix2 p (0 : Fin 1))).toInt)
          (fun p : Fin B => upd (ix2 p (0 : Fin 1))) (j 0) := by
  obtain ⟨uw, iw, sd, iv, wf⟩ := d
  simp only at hu hi hs hv
  subst hu hi hs hv
  have hn : (⟨2, ![B, 1]⟩ : Shape).numel = B := by simp [Shape.numel, Fin.prod_univ_succ]
  have hcol : ∀ i' : (⟨2, ![N, 1]⟩ : Shape).Idx, i' = ix2 (i' 0) (0 : Fin 1) := fun i' => by
    funext a
    match a with
    | ⟨0, _⟩ => rfl
    | ⟨1, _⟩ => exact Fin.ext (by have := idx2_lt1 i'; show (i' 1).val = 0; omega)
  obtain ⟨j0, rfl⟩ : ∃ j0 : Fin N, j = ix2 j0 (0 : Fin 1) := ⟨j 0, hcol j⟩
  unfold Host.scatter seqSet
  rw [foldl_finRange_cast hn]
  refine foldl_rel (fun (r : (⟨2, ![N, 1]⟩ : Shape).Idx → α) (r' : Fin N → α) => ∀ i : Fin N, r (ix2 i (0 : Fin 1)) = r' i) _ _
    (List.finRange B) x _ (fun _ => rfl) (fun p r r' hr i => ?_) j0
  rw [rowMajor_symm_col hn p]
  refine scatter_step _ (ix2 p (0 : Fin 1)) idx (upd (ix2 p (0 : Fin 1))) (fun i : Fin N => ix2 i (0 : Fin 1)) Nat.zero_lt_two rfl
    (fun _ => rfl) (fun i' => ⟨i' 0, hcol i'⟩) _ ?_ ?_ r r' hr i
  · -- axis 0: start is the index word, the window coordinate is 0
    rw [window_of_inserted _ _ _ (List.mem_singleton.mpr rfl), start_of_mem _ _ _ _ (List.mem_singleton.mpr rfl)]
    simp only [Nat.cast_zero, add_zero]
    congr 2
    funext b
    refine Fin.ext ?_
    match b with
    | ⟨0, _⟩ => rfl
    | ⟨1, _⟩ => rfl
  · -- axis 1: not a scatter axis, and the update's window coordinate there is its own coordinate 0
    intro b hb
    have hb1 : b = ⟨1, Nat.one_lt_two⟩ := by
      match b, hb with
      | ⟨0, _⟩, hb => exact absurd rfl hb
      | ⟨1, _⟩, _ => rfl
    subst hb1
    refine ⟨?_, Nat.one_pos⟩
    have hne : (⟨1, Nat.one_lt_two⟩ : Fin (⟨2, ![N, 1]⟩ : Shape).rank) ∉ [(0 : Fin (⟨2, ![N, 1]⟩ : Shape).rank)] :=
      fun h => absurd (congrArg Fin.val (List.mem_singleton.mp h)) Nat.one_ne_zero
    rw [start_of_not_mem _ _ _ _ hne, window_of_kept _ _ _ ((mem_sKept _ _).mpr hne)]
    rfl

end Scatter

end Cert.Lib.SeqScatter
-- ==== Proof.RefLayer.lean ====
/-
  The reference program computes the attention layer of Proof/AttnLayer.lean.

  Read one operation at a time, at an index. The three linear layers are the sums over the input feature of
  x · W plus the bias; the reshape [2, 2048, 128] → [2, 2048, 8, 16] and the transpose to [2, 8, 2048, 16] put
  feature 16·h + d at (β, h, n, d). The score is the dot product over d, divided by √16 = 4, which is the product
  with ¼; the spatial encoding has its diagonal overwritten by zero, one (i, i) pair at a time; where the adjacency
  word is zero the score is the constant −10¹⁰. The row maximum is the fold of max from −∞ over the key row, the
  weights are exp (score − maximum) divided by their sum over the key row, the context is the weights times the
  values, and the last transpose and reshape put head h, coordinate d at feature 8·d + h.
-/
import proofs.«411331_j31172872634849_3_alg».proof.Proof.RefStages
import proofs.«411331_j31172872634849_3_alg».proof.Proof.AttnLayer
import proofs.«411331_j31172872634849_3_alg».proof.Proof.LibSeqScatter
import Idealize.ShloMosaic.Lib.IdealHost

noncomputable section

namespace Cert.ReferenceIdeal.Layer

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx
open scoped BigOperators

/-! ## The constants -/

/-- The word 0x41800000 is the real 16. -/
theorem ofBits_sixteen : Ideal.ofBits .f32 0x41800000#32 = ((16 : ℝ) : EReal) := by
  simp [Ideal.ofBits, Ideal.ieee, -EReal.coe_mul]; norm_num

/-- The word 0x3E800000 is the real ¼. -/
theorem quarter_eq : AttnLayer.quarter = (((1 : ℝ) / 4 : ℝ) : EReal) := by
  simp [AttnLayer.quarter, Ideal.ofBits, Ideal.ieee, -EReal.coe_mul]; norm_num

/-- The square root of the word of 16 is 4. -/
theorem sqrt_sixteen : Ideal.sqrt (Ideal.ofBits .f32 0x41800000#32) = ((4 : ℝ) : EReal) := by
  rw [ofBits_sixteen, Ideal.sqrt_coe, if_neg (show ¬ ((16 : ℝ) < 0) by norm_num)]
  congr 1
  rw [show (16 : ℝ) = 4 ^ 2 by norm_num]
  exact Real.sqrt_sq (by norm_num)

/-- Dividing by the square root of the word of 16 is multiplying by the word of ¼. -/
theorem div_sqrt_sixteen (a : EReal) :
    Ideal.div a (Ideal.sqrt (Ideal.ofBits .f32 0x41800000#32)) = a * AttnLayer.quarter := by
  rw [sqrt_sixteen, Ideal.div_coe (by norm_num : (4 : ℝ) ≠ 0), quarter_eq]

/-- A select on the bit of an equality test is the `if` on the equality. -/
theorem select_cmpi_eq {α : Type} {w : Nat} (a b : BitVec w) (A B : α) :
    Scalar.select (IntOp.cmpi .eq a b) A B = if a = b then A else B := by
  by_cases h : a = b
  · have hc : IntOp.cmpi .eq a b = 1#1 := by
      show BitVec.ofBool (a == b) = 1#1
      rw [beq_iff_eq.mpr h]; rfl
    rw [hc, select_one, if_pos h]
  · have hc : IntOp.cmpi .eq a b = 0#1 := by
      show BitVec.ofBool (a == b) = 0#1
      rw [beq_eq_false_iff_ne.mpr h]; rfl
    rw [hc, select_zero, if_neg h]

/-! ## Indices by their coordinates -/

theorem idx1_ext {n0 : Nat} {i j : (⟨1, ![n0]⟩ : Shape).Idx} (h0 : (i 0).val = (j 0).val) : i = j := by
  funext a; match a with | ⟨0, _⟩ => exact Fin.ext h0
theorem idx2_ext {n0 n1 : Nat} {i j : (⟨2, ![n0, n1]⟩ : Shape).Idx} (h0 : (i 0).val = (j 0).val)
    (h1 : (i 1).val = (j 1).val) : i = j := by
  funext a; match a with | ⟨0, _⟩ => exact Fin.ext h0 | ⟨1, _⟩ => exact Fin.ext h1
theorem idx3_ext {n0 n1 n2 : Nat} {i j : (⟨3, ![n0, n1, n2]⟩ : Shape).Idx} (h0 : (i 0).val = (j 0).val)
    (h1 : (i 1).val = (j 1).val) (h2 : (i 2).val = (j 2).val) : i = j := by
  funext a; match a with | ⟨0, _⟩ => exact Fin.ext h0 | ⟨1, _⟩ => exact Fin.ext h1 | ⟨2, _⟩ => exact Fin.ext h2
theorem idx4_ext {n0 n1 n2 n3 : Nat} {i j : (⟨4, ![n0, n1, n2, n3]⟩ : Shape).Idx} (h0 : (i 0).val = (j 0).val)
    (h1 : (i 1).val = (j 1).val) (h2 : (i 2).val = (j 2).val) (h3 : (i 3).val = (j 3).val) : i = j := by
  funext a
  match a with
  | ⟨0, _⟩ => exact Fin.ext h0 | ⟨1, _⟩ => exact Fin.ext h1 | ⟨2, _⟩ => exact Fin.ext h2 | ⟨3, _⟩ => exact Fin.ext h3

/-- The reshape to heads and the transpose, read back: (β, h, n, d) comes from feature 16·h + d of row (β, n). -/
theorem head_index (β : Fin 2) (h : Fin 8) (n : Fin 2048) (d : Fin 16) :
    idx_main_v5 (idx_main_v6 (ix4 β h n d)) = ix3 β n (AttnLayer.feat h d) := by
  have hβ := β.isLt; have hh := h.isLt; have hn := n.isLt; have hd := d.isLt
  refine idx3_ext ?_ ?_ ?_
  · show (((β.val * 2048 + n.val) * 8 + h.val) * 16 + d.val) / 262144 = β.val; omega
  · show (((β.val * 2048 + n.val) * 8 + h.val) * 16 + d.val) / 128 % 2048 = n.val; omega
  · show (((β.val * 2048 + n.val) * 8 + h.val) * 16 + d.val) % 128 = h.val * 16 + d.val; omega

/-- The last transpose and reshape, read back: feature f of row (β, n) comes from head f mod 8, coordinate f / 8. -/
theorem out_index (β : Fin 2) (n : Fin 2048) (f : Fin 128) :
    idx_main_v57 (idx_main_v58 (ix3 β n f))
      = ix4 β (⟨f.val % 8, Nat.mod_lt _ (by decide)⟩ : Fin 8) n (⟨f.val / 8, by have := f.isLt; omega⟩ : Fin 16) := by
  have hβ := β.isLt; have hn := n.isLt; have hf := f.isLt
  refine idx4_ext ?_ ?_ ?_ ?_
  · show ((β.val * 2048 + n.val) * 128 + f.val) / 262144 = β.val; omega
  · show ((β.val * 2048 + n.val) * 128 + f.val) % 8 = f.val % 8; omega
  · show ((β.val * 2048 + n.val) * 128 + f.val) / 128 % 2048 = n.val; omega
  · show ((β.val * 2048 + n.val) * 128 + f.val) / 8 % 16 = f.val / 8; omega

/-! ## The index normalisation and the scatter onto the diagonal -/

/-- A number below 2048 written as a 32-bit word reads back, signed, as itself. -/
theorem toInt_ofNat_small (p : ℕ) (hp : p < 2048) : (BitVec.ofNat 32 p).toInt = (p : ℤ) := by
  have hn : (BitVec.ofNat 32 p).toNat = p := by
    rw [BitVec.toNat_ofNat]; exact Nat.mod_eq_of_lt (by omega)
  have e := BitVec.toInt_eq_toNat_cond (BitVec.ofNat 32 p)
  rw [hn] at e
  rw [e, if_pos (show 2 * p < 2 ^ 32 by omega)]

/-- `select (i < 0) (i + 2048) i` at a row number i below 2048 is i: its word is not negative. -/
theorem select_norm (p : ℕ) (hp : p < 2048) (A : BitVec 32) :
    Scalar.select (IntOp.cmpi .slt (BitVec.ofNat 32 p) 0#32) A (BitVec.ofNat 32 p) = BitVec.ofNat 32 p := by
  have hs : (BitVec.ofNat 32 p).slt 0#32 = false := by
    rw [BitVec.slt_eq_decide, toInt_ofNat_small p hp, BitVec.toInt_zero]
    exact decide_eq_false (by omega)
  have hc : IntOp.cmpi .slt (BitVec.ofNat 32 p) 0#32 = 0#1 := by
    show BitVec.ofBool ((BitVec.ofNat 32 p).slt 0#32) = 0#1
    rw [hs]; rfl
  rw [hc]; exact select_zero _ _

/-- %27: the normalised row numbers are the row numbers. -/
theorem v27_apply (p : Fin 2048) : val_main_v27 (F := Ideal) (ix1 p) = BitVec.ofNat 32 p.val := by
  rw [val_main_v27_apply, val_main_v24_apply, val_main_v22_apply, val_main_v23_apply, val_main_c_apply]
  exact select_norm p.val p.isLt _

/-- %32: the same, computed a second time. -/
theorem v32_apply (p : Fin 2048) : val_main_v32 (F := Ideal) (ix1 p) = BitVec.ofNat 32 p.val := by
  rw [val_main_v32_apply, val_main_v29_apply, val_main_v22_apply, val_main_v28_apply, val_main_c_1_apply]
  exact select_norm p.val p.isLt _

/-- %35, column 0: pair p's row index is p. -/
theorem v35_col0 (p : Fin 2048) : val_main_v35 (F := Ideal) (ix2 p (0 : Fin 2)) = BitVec.ofNat 32 p.val := by
  unfold val_main_v35
  refine (concatenate_pair_apply_left (1 : Fin S2048x2.rank) _ _ concatenates_S2048x1_S2048x1_S2048x2_d1
    (ix2 p (0 : Fin 2)) rfl (ix2 p (0 : Fin 1)) ?_).trans ?_
  · intro b
    match b with
    | ⟨0, _⟩ => rfl
    | ⟨1, _⟩ => rfl
  · rw [val_main_v33_apply, show idx_main_v33 (ix2 p (0 : Fin 1)) = ix1 p from idx1_ext rfl]
    exact v27_apply p

/-- %35, column 1: pair p's column index is p. -/
theorem v35_col1 (p : Fin 2048) : val_main_v35 (F := Ideal) (ix2 p (1 : Fin 2)) = BitVec.ofNat 32 p.val := by
  unfold val_main_v35
  refine (concatenate_pair_apply_right (1 : Fin S2048x2.rank) _ _ concatenates_S2048x1_S2048x1_S2048x2_d1
    (ix2 p (1 : Fin 2)) rfl rfl (ix2 p (0 : Fin 1)) ?_ ?_).trans ?_
  · intro b hb
    match b, hb with
    | ⟨0, _⟩, _ => rfl
    | ⟨1, _⟩, hb => exact absurd rfl hb
  · rfl
  · rw [val_main_v34_apply, show idx_main_v34 (ix2 p (0 : Fin 1)) = ix1 p from idx1_ext rfl]
    exact v32_apply p

section Scatter
open Cert.Lib.SeqScatter

variable {α : Type}

/-- Two rank-2 indices are equal exactly when their coordinates are. -/
theorem ix2_eq_iff {n0 n1 : Nat} (a a' : Fin n0) (b b' : Fin n1) : ix2 a b = ix2 a' b' ↔ a = a' ∧ b = b' := by
  constructor
  · intro h; exact ⟨congrFun h 0, congrFun h 1⟩
  · rintro ⟨rfl, rfl⟩; rfl

/-- A square table updated at the diagonal positions (0, 0), (1, 1), … in turn: if step t replaces entry (t, t) by
    `upd t` and keeps every other entry, the table after all N steps has `upd n` at (n, n) and is unchanged elsewhere. -/
theorem fold_diag {N : ℕ} (F : ((⟨2, ![N, N]⟩ : Shape).Idx → α) → Fin N → ((⟨2, ![N, N]⟩ : Shape).Idx → α))
    (x : (⟨2, ![N, N]⟩ : Shape).Idx → α) (upd : Fin N → α)
    (hF : ∀ (r : (⟨2, ![N, N]⟩ : Shape).Idx → α) (t n m : Fin N),
      F r t (ix2 n m) = if n = t ∧ m = t then upd t else r (ix2 n m)) (n m : Fin N) :
    (List.finRange N).foldl F x (ix2 n m) = if n = m then upd n else x (ix2 n m) := by
  have key := foldl_finRange_ind F x
    (fun t r => ∀ n m : Fin N, r (ix2 n m) = if n = m ∧ n.val < t then upd n else x (ix2 n m))
    (fun n m => (if_neg (show ¬ (n = m ∧ n.val < 0) from fun h => Nat.not_lt_zero _ h.2)).symm)
    (fun t r hr n m => by
      show F r t (ix2 n m) = if n = m ∧ n.val < t.val + 1 then upd n else x (ix2 n m)
      rw [hF r t n m]
      by_cases h : n = t ∧ m = t
      · rw [if_pos h, h.1, h.2, if_pos (show t = t ∧ t.val < t.val + 1 from ⟨rfl, Nat.lt_succ_self _⟩)]
      · rw [if_neg h, hr n m]
        by_cases h2 : n = m ∧ n.val < t.val
        · rw [if_pos h2, if_pos (show n = m ∧ n.val < t.val + 1 from ⟨h2.1, Nat.lt_succ_of_lt h2.2⟩)]
        · have h3 : ¬ (n = m ∧ n.val < t.val + 1) := by
            rintro ⟨hnm, hlt⟩
            rcases Nat.lt_succ_iff_lt_or_eq.mp hlt with hl | he
            · exact h2 ⟨hnm, hl⟩
            · exact h ⟨Fin.ext he, hnm.symm.trans (Fin.ext he)⟩
          rw [if_neg h2, if_neg h3])
  rw [key n m]
  by_cases h : n = m
  · rw [if_pos (show n = m ∧ n.val < N from ⟨h, n.isLt⟩), if_pos h]
  · rw [if_neg (show ¬ (n = m ∧ n.val < N) from fun hh => h hh.1), if_neg h]

/-- One step of the scatter's fold whose body returns the update, into an operand whose indices are the pairs
    `emb p q` of numbers below N (every axis of size N): if the update's start plus window coordinate is t on every
    axis, and the only index whose every coordinate is t is `emb t t`, the step replaces entry (t, t) and keeps the rest. -/
theorem scatter_step2 {N w : ℕ} {s si u : Shape} (d : ScatterDims s si u) (j : u.Idx) (idx : IVec si w) (a : α)
    (emb : Fin N → Fin N → s.Idx) (hsize : ∀ b : Fin s.rank, s.size b = N)
    (hinj : ∀ p q p' q' : Fin N, emb p q = emb p' q' ↔ p = p' ∧ q = q')
    (t : Fin N) (hland : ∀ i₀ : s.Idx, (∀ b, ((i₀ b).val : ℤ) = (t.val : ℤ)) → i₀ = emb t t)
    (hall : ∀ b : Fin s.rank, d.start j idx b + (d.window j b : ℤ) = (t.val : ℤ))
    (r : s.Idx → α) (n m : Fin N) :
    (match d.resultIdx? j idx with
      | some i₀ => fun i' => if i' = i₀ then (fun _ b => b) (r i₀) a else r i'
      | none => r) (emb n m) = if n = t ∧ m = t then a else r (emb n m) := by
  cases hres : d.resultIdx? j idx with
  | none =>
    exfalso
    refine resultIdx?_none d j idx hres fun b => ?_
    rw [hall b, hsize b]
    exact ⟨Int.natCast_nonneg _, Int.ofNat_lt.mpr t.isLt⟩
  | some i₀ =>
    have hi := resultIdx?_some d j idx i₀ hres
    have hi₀ : i₀ = emb t t := hland i₀ fun b => (hi b).trans (hall b)
    show (if emb n m = i₀ then a else r (emb n m)) = _
    rw [hi₀]
    by_cases h : n = t ∧ m = t
    · rw [if_pos h, if_pos ((hinj n m t t).mpr h)]
    · rw [if_neg h, if_neg (fun e => h ((hinj n m t t).mp e))]

/-- `x.at[i, i].set(upd)` for every row number i of a square table: operand [N, N], scatter indices [N, 2] whose pair p
    is (p, p) read signed, updates [N] (both operand axes inserted window axes and scatter axes, index vector axis 1):
    entry (n, m) of the result is `upd n` when n = m and the operand's otherwise. -/
theorem scatter_diag {N : ℕ} (d : ScatterDims ⟨2, ![N, N]⟩ ⟨2, ![N, 2]⟩ ⟨1, ![N]⟩)
    (hu : d.updateWindowDims = []) (hi : d.insertedWindowDims = [0, 1]) (hs : d.scatterDimsToOperandDims = [0, 1])
    (hv : d.indexVectorDim = 1)
    (x : (⟨2, ![N, N]⟩ : Shape).Idx → α) (idx : IVec ⟨2, ![N, 2]⟩ 32) (upd : (⟨1, ![N]⟩ : Shape).Idx → α)
    (hidx0 : ∀ p : Fin N, (idx (ix2 p (0 : Fin 2))).toInt = (p.val : ℤ))
    (hidx1 : ∀ p : Fin N, (idx (ix2 p (1 : Fin 2))).toInt = (p.val : ℤ)) (n m : Fin N) :
    Host.scatter d (fun _ b => b) x idx upd (ix2 n m) = if n = m then upd (ix1 n) else x (ix2 n m) := by
  obtain ⟨uw, iw, sd, iv, wf⟩ := d
  simp only at hu hi hs hv
  subst hu hi hs hv
  have hn : (⟨1, ![N]⟩ : Shape).numel = N := by simp [Shape.numel]
  unfold Host.scatter
  rw [foldl_finRange_cast hn]
  refine fold_diag _ x (fun p => upd (ix1 p)) (fun r t n' m' => ?_) n m
  rw [rowMajor_symm_flat hn t]
  have hsize : ∀ b : Fin (⟨2, ![N, N]⟩ : Shape).rank, (⟨2, ![N, N]⟩ : Shape).size b = N := fun b => by
    match b with
    | ⟨0, _⟩ => rfl
    | ⟨1, _⟩ => rfl
  have hland : ∀ i₀ : (⟨2, ![N, N]⟩ : Shape).Idx, (∀ b, ((i₀ b).val : ℤ) = (t.val : ℤ)) → i₀ = ix2 t t := fun i₀ h => by
    funext b
    match b with
    | ⟨0, _⟩ => exact Fin.ext (Int.ofNat_inj.mp (h 0))
    | ⟨1, _⟩ => exact Fin.ext (Int.ofNat_inj.mp (h 1))
  refine scatter_step2 _ (ix1 t) idx (upd (ix1 t)) (fun p q : Fin N => ix2 p q) hsize
    (fun p q p' q' => ix2_eq_iff p p' q q') t hland (fun b => ?_) r n' m'
  have hm0 : (0 : Fin (⟨2, ![N, N]⟩ : Shape).rank) ∈ ([0, 1] : List (Fin (⟨2, ![N, N]⟩ : Shape).rank)) :=
    List.mem_cons.mpr (Or.inl rfl)
  have hm1 : (1 : Fin (⟨2, ![N, N]⟩ : Shape).rank) ∈ ([0, 1] : List (Fin (⟨2, ![N, N]⟩ : Shape).rank)) :=
    List.mem_cons.mpr (Or.inr (List.mem_cons.mpr (Or.inl rfl)))
  match b with
  | ⟨0, _⟩ =>
    rw [window_of_inserted _ _ _ hm0, start_of_mem _ _ _ _ hm0]
    simp only [Nat.cast_zero, add_zero]
    refine Eq.trans ?_ (hidx0 t)
    congr 2
    funext b'
    refine Fin.ext ?_
    match b' with
    | ⟨0, _⟩ => rfl
    | ⟨1, _⟩ => rfl
  | ⟨1, _⟩ =>
    rw [window_of_inserted _ _ _ hm1, start_of_mem _ _ _ _ hm1]
    simp only [Nat.cast_zero, add_zero]
    refine Eq.trans ?_ (hidx1 t)
    congr 2
    funext b'
    refine Fin.ext ?_
    match b' with
    | ⟨0, _⟩ => rfl
    | ⟨1, _⟩ => rfl

end Scatter

/-! ## The stages -/

section Stages
variable (x0 : (⟨S2x2048x128, .f32⟩ : BufTy).Contents (Elt Ideal)) (x1 : (⟨S2x2048x2048, .i32⟩ : BufTy).Contents (Elt Ideal))
  (x2 : (⟨S2048x2048, .f32⟩ : BufTy).Contents (Elt Ideal))
  (x3 : (⟨S128x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))
  (x7 : (⟨S128x128, .f32⟩ : BufTy).Contents (Elt Ideal)) (x8 : (⟨S128, .f32⟩ : BufTy).Contents (Elt Ideal))

/-- %4: the query layer at (β, n, o). -/
theorem v4_apply (β : Fin 2) (n : Fin 2048) (o : Fin 128) :
    val_main_v4 (F := Ideal) x0 x3 x4 (ix3 β n o) = AttnLayer.lin x0 x3 x4 β n o := by
  rw [val_main_v4_apply, val_main_v1_apply, val_main_v3_apply, val_main_v2_apply]
  unfold AttnLayer.lin
  rw [Ideal.addf_def]
  congr 1
  · exact Finset.sum_congr rfl fun k _ => by
      rw [show lidx_main_v1 (ix3 β n o) k = ix3 β n k from idx3_ext rfl rfl rfl,
        show ridx_main_v1 (ix3 β n o) k = ix2 o k from idx2_ext rfl rfl]
  · exact congrArg x4 (idx1_ext rfl)

/-- %6: the query layer split into heads, at (β, h, n, d): feature 16·h + d of row (β, n). -/
theorem v6_apply (β : Fin 2) (h : Fin 8) (n : Fin 2048) (d : Fin 16) :
    val_main_v6 (F := Ideal) x0 x3 x4 (ix4 β h n d) = AttnLayer.lin x0 x3 x4 β n (AttnLayer.feat h d) := by
  rw [val_main_v6_apply, val_main_v5_apply]
  exact (congrArg _ (head_index β h n d)).trans (v4_apply x0 x3 x4 β n _)

/-- %10: the key layer at (β, n, o). -/
theorem v10_apply (β : Fin 2) (n : Fin 2048) (o : Fin 128) :
    val_main_v10 (F := Ideal) x0 x5 x6 (ix3 β n o) = AttnLayer.lin x0 x5 x6 β n o := by
  rw [val_main_v10_apply, val_main_v7_apply, val_main_v9_apply, val_main_v8_apply]
  unfold AttnLayer.lin
  rw [Ideal.addf_def]
  congr 1
  · exact Finset.sum_congr rfl fun k _ => by
      rw [show lidx_main_v7 (ix3 β n o) k = ix3 β n k from idx3_ext rfl rfl rfl,
        show ridx_main_v7 (ix3 β n o) k = ix2 o k from idx2_ext rfl rfl]
  · exact congrArg x6 (idx1_ext rfl)

/-- %12: the key layer split into heads, at (β, h, n, d): feature 16·h + d of row (β, n). -/
theorem v12_apply (β : Fin 2) (h : Fin 8) (n : Fin 2048) (d : Fin 16) :
    val_main_v12 (F := Ideal) x0 x5 x6 (ix4 β h n d) = AttnLayer.lin x0 x5 x6 β n (AttnLayer.feat h d) := by
  rw [val_main_v12_apply, val_main_v11_apply]
  exact (congrArg _ (head_index β h n d)).trans (v10_apply x0 x5 x6 β n _)

/-- %16: the value layer at (β, n, o). -/
theorem v16_apply (β : Fin 2) (n : Fin 2048) (o : Fin 128) :
    val_main_v16 (F := Ideal) x0 x7 x8 (ix3 β n o) = AttnLayer.lin x0 x7 x8 β n o := by
  rw [val_main_v16_apply, val_main_v13_apply, val_main_v15_apply, val_main_v14_apply]
  unfold AttnLayer.lin
  rw [Ideal.addf_def]
  congr 1
  · exact Finset.sum_congr rfl fun k _ => by
      rw [show lidx_main_v13 (ix3 β n o) k = ix3 β n k from idx3_ext rfl rfl rfl,
        show ridx_main_v13 (ix3 β n o) k = ix2 o k from idx2_ext rfl rfl]
  · exact congrArg x8 (idx1_ext rfl)

/-- %18: the value layer split into heads, at (β, h, n, d): feature 16·h + d of row (β, n). -/
theorem v18_apply (β : Fin 2) (h : Fin 8) (n : Fin 2048) (d : Fin 16) :
    val_main_v18 (F := Ideal) x0 x7 x8 (ix4 β h n d) = AttnLayer.lin x0 x7 x8 β n (AttnLayer.feat h d) := by
  rw [val_main_v18_apply, val_main_v17_apply]
  exact (congrArg _ (head_index β h n d)).trans (v16_apply x0 x7 x8 β n _)

/-- %19: the dot product of query row n and key row m over the 16 coordinates of head h. -/
theorem v19_apply (β : Fin 2) (h : Fin 8) (n m : Fin 2048) :
    val_main_v19 (F := Ideal) x0 x3 x4 x5 x6 (ix4 β h n m)
      = ∑ d : Fin 16, AttnLayer.lin x0 x3 x4 β n (AttnLayer.feat h d) * AttnLayer.lin x0 x5 x6 β m (AttnLayer.feat h d) := by
  rw [val_main_v19_apply]
  exact Finset.sum_congr rfl fun k _ => by
    rw [show lidx_main_v19 (ix4 β h n m) k = ix4 β h n k from idx4_ext rfl rfl rfl rfl,
      show ridx_main_v19 (ix4 β h n m) k = ix4 β h m k from idx4_ext rfl rfl rfl rfl, v6_apply, v12_apply]

/-- %21: the dot product divided by √16, which is the product with the word of ¼. -/
theorem v21_apply (β : Fin 2) (h : Fin 8) (n m : Fin 2048) :
    val_main_v21 (F := Ideal) x0 x3 x4 x5 x6 (ix4 β h n m)
      = (∑ d : Fin 16, AttnLayer.lin x0 x3 x4 β n (AttnLayer.feat h d) * AttnLayer.lin x0 x5 x6 β m (AttnLayer.feat h d))
          * AttnLayer.quarter := by
  rw [val_main_v21_apply, val_main_v20_apply, val_main_v0_apply, val_main_cst_apply, v19_apply]
  exact div_sqrt_sixteen _

/-- %37: the encoding with its diagonal set to the zero word. -/
theorem v37_apply (n m : Fin 2048) : val_main_v37 (F := Ideal) x2 (ix2 n m) = AttnLayer.encZ x2 n m := by
  unfold val_main_v37
  refine (scatter_diag scatter_S2048x2048_S2048x2_S2048_n_01_01_1 rfl rfl rfl rfl x2 (val_main_v35 (F := Ideal))
    (val_main_v36 (F := Ideal)) (fun p => ?_) (fun p => ?_) n m).trans ?_
  · rw [v35_col0]; exact toInt_ofNat_small p.val p.isLt
  · rw [v35_col1]; exact toInt_ofNat_small p.val p.isLt
  · unfold AttnLayer.encZ
    rw [val_main_v36_apply, val_main_cst_3_apply]
    all_goals rfl

/-- %40: the scaled dot product plus the encoding with its diagonal zeroed. -/
theorem v40_apply (β : Fin 2) (h : Fin 8) (n m : Fin 2048) :
    val_main_v40 (F := Ideal) x0 x2 x3 x4 x5 x6 (ix4 β h n m)
      = (∑ d : Fin 16, AttnLayer.lin x0 x3 x4 β n (AttnLayer.feat h d) * AttnLayer.lin x0 x5 x6 β m (AttnLayer.feat h d))
          * AttnLayer.quarter + AttnLayer.encZ x2 n m := by
  rw [val_main_v40_apply, v21_apply, val_main_v39_apply, val_main_v38_apply,
    show idx_main_v38 (idx_main_v39 (ix4 β h n m)) = ix2 n m from idx2_ext rfl rfl, v37_apply]
  all_goals rfl

/-- %44: the score of the specification: the constant where the adjacency word is zero, %40 elsewhere. -/
theorem v44_apply (β : Fin 2) (h : Fin 8) (n m : Fin 2048) :
    val_main_v44 (F := Ideal) x0 x1 x2 x3 x4 x5 x6 (ix4 β h n m) = AttnLayer.scoreR (AttnLayer.lin x0 x3 x4 β n) (AttnLayer.lin x0 x5 x6 β) (fun m' => x1 (ix3 β n m')) (AttnLayer.encZ x2 n) h m := by
  rw [val_main_v44_apply, val_main_call0_v0_apply, val_main_v43_apply, val_main_v41_apply, val_main_v42_apply,
    val_main_c_4_apply, val_main_call0_v1_apply, val_main_cst_5_apply, v40_apply,
    show idx_main_v41 (idx_main_call0_v0 (ix4 β h n m)) = ix3 β n m from idx3_ext rfl rfl rfl, select_cmpi_eq]
  all_goals rfl

/-- A maximum over the last axis from an initial scalar, at (β, h, n): the fold of max over the key row. -/
theorem rowMax_apply (f : S2x8x2048x2048.Idx → EReal) (init : S_.Idx → EReal) (β : Fin 2) (h : Fin 8) (n : Fin 2048) :
    Host.reduce (FloatOps.maximumf (F := Ideal) (φ := .f32)) f init reducesTo_S2x8x2048x2048_S2x8x2048_d3 h_S_ (ix3 β h n)
      = (Finset.univ : Finset (Fin 2048)).fold max (init (Shape.Idx.first h_S_)) (fun m => f (ix4 β h n m)) := by
  have hred : S2x8x2048x2048.Reduces [3] S2x8x2048 := by decide
  refine (Host.reduce_eq_fold_single _ f init reducesTo_S2x8x2048x2048_S2x8x2048_d3 hred h_S_ (ix3 β h n)).trans ?_
  refine Finset.fold_congr fun k _ => ?_
  exact congrArg f (idx4_ext rfl rfl rfl rfl)

/-- %45: the row maximum of the specification. -/
theorem v45_apply (β : Fin 2) (h : Fin 8) (n : Fin 2048) :
    val_main_v45 (F := Ideal) x0 x1 x2 x3 x4 x5 x6 (ix3 β h n) = AttnLayer.maxR (AttnLayer.lin x0 x3 x4 β n) (AttnLayer.lin x0 x5 x6 β) (fun m' => x1 (ix3 β n m')) (AttnLayer.encZ x2 n) h := by
  unfold val_main_v45
  refine (rowMax_apply _ _ β h n).trans ?_
  unfold AttnLayer.maxR
  rw [val_main_cst_6_apply]
  exact Finset.fold_congr fun m _ => v44_apply x0 x1 x2 x3 x4 x5 x6 β h n m

/-- %47: the maximum of −∞ and the row maximum is the row maximum (the fold starts from −∞). -/
theorem v47_apply (β : Fin 2) (h : Fin 8) (n : Fin 2048) :
    val_main_v47 (F := Ideal) x0 x1 x2 x3 x4 x5 x6 (ix3 β h n) = AttnLayer.maxR (AttnLayer.lin x0 x3 x4 β n) (AttnLayer.lin x0 x5 x6 β) (fun m' => x1 (ix3 β n m')) (AttnLayer.encZ x2 n) h := by
  rw [val_main_v47_apply, val_main_v46_apply, val_main_cst_7_apply, v45_apply]
  show max AttnLayer.negInf (AttnLayer.maxR (AttnLayer.lin x0 x3 x4 β n) (AttnLayer.lin x0 x5 x6 β) (fun m' => x1 (ix3 β n m')) (AttnLayer.encZ x2 n) h) = _
  refine max_eq_right ?_
  unfold AttnLayer.maxR
  exact (Finset.le_fold_max _).2 (Or.inl le_rfl)

/-- %51: exp (score − row maximum). -/
theorem v51_apply (β : Fin 2) (h : Fin 8) (n m : Fin 2048) :
    val_main_v51 (F := Ideal) x0 x1 x2 x3 x4 x5 x6 (ix4 β h n m) = AttnLayer.expoR (AttnLayer.lin x0 x3 x4 β n) (AttnLayer.lin x0 x5 x6 β) (fun m' => x1 (ix3 β n m')) (AttnLayer.encZ x2 n) h m := by
  rw [val_main_v51_apply, val_main_v50_apply, v44_apply, val_main_v49_apply, val_main_v48_apply,
    show idx_main_v48 (idx_main_v49 (ix4 β h n m)) = ix3 β h n from idx3_ext rfl rfl rfl, v47_apply]
  all_goals rfl

/-- %52: the row's sum of those, from the zero word. -/
theorem v52_apply (β : Fin 2) (h : Fin 8) (n : Fin 2048) :
    val_main_v52 (F := Ideal) x0 x1 x2 x3 x4 x5 x6 (ix3 β h n) = AttnLayer.sumR (AttnLayer.lin x0 x3 x4 β n) (AttnLayer.lin x0 x5 x6 β) (fun m' => x1 (ix3 β n m')) (AttnLayer.encZ x2 n) h := by
  rw [val_main_v52_apply, val_main_cst_8_apply, Ideal.ofBits_def, Ideal.ofBits_zero_f32, zero_add]
  unfold AttnLayer.sumR
  exact Finset.sum_congr rfl fun k _ => by
    rw [show idx_main_v52 (ix3 β h n) k = ix4 β h n k from idx4_ext rfl rfl rfl rfl]
    exact v51_apply x0 x1 x2 x3 x4 x5 x6 β h n k

/-- %55: the attention weights. -/
theorem v55_apply (β : Fin 2) (h : Fin 8) (n m : Fin 2048) :
    val_main_v55 (F := Ideal) x0 x1 x2 x3 x4 x5 x6 (ix4 β h n m) = AttnLayer.prob x0 x1 x2 x3 x4 x5 x6 β h n m := by
  rw [val_main_v55_apply, v51_apply, val_main_v54_apply, val_main_v53_apply,
    show idx_main_v53 (idx_main_v54 (ix4 β h n m)) = ix3 β h n from idx3_ext rfl rfl rfl, v52_apply]
  all_goals rfl

/-- %56: the weights times the values. -/
theorem v56_apply (β : Fin 2) (h : Fin 8) (n : Fin 2048) (d : Fin 16) :
    val_main_v56 (F := Ideal) x0 x1 x2 x3 x4 x5 x6 x7 x8 (ix4 β h n d) = AttnLayer.ctx x0 x1 x2 x3 x4 x5 x6 x7 x8 β h n d := by
  rw [val_main_v56_apply]
  unfold AttnLayer.ctx AttnLayer.ctxR
  exact Finset.sum_congr rfl fun k _ => by
    rw [show lidx_main_v56 (ix4 β h n d) k = ix4 β h n k from idx4_ext rfl rfl rfl rfl,
      show ridx_main_v56 (ix4 β h n d) k = ix4 β h k d from idx4_ext rfl rfl rfl rfl, v55_apply, v18_apply]
    all_goals rfl

/-- %58: feature f of row (β, n) of the first result is head f mod 8, coordinate f / 8 of the context. -/
theorem v58_apply (β : Fin 2) (n : Fin 2048) (f : Fin 128) :
    val_main_v58 (F := Ideal) x0 x1 x2 x3 x4 x5 x6 x7 x8 (ix3 β n f)
      = AttnLayer.ctx x0 x1 x2 x3 x4 x5 x6 x7 x8 β (⟨f.val % 8, Nat.mod_lt _ (by decide)⟩ : Fin 8) n
          (⟨f.val / 8, by have := f.isLt; omega⟩ : Fin 16) := by
  rw [val_main_v58_apply, val_main_v57_apply]
  exact (congrArg _ (out_index β n f)).trans (v56_apply x0 x1 x2 x3 x4 x5 x6 x7 x8 β _ n _)

end Stages

/-! ## The two results -/

/-- The first result of the reference is the specification's output array. -/
theorem out_eq (m : (ℓ : Loc nD τ sig) → Buf (Elt Ideal) ℓ) (c : Dev nD) :
    (Cert.ReferenceIdeal.Value.res_main_v58 (F := Ideal) m c : S2x2048x128.Idx → EReal)
      = AttnLayer.outArr (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  rw [val_main_v58_eq]
  funext j
  obtain ⟨β, n, f, rfl⟩ : ∃ (β : Fin 2) (n : Fin 2048) (f : Fin 128), j = ix3 β n f := ⟨j 0, j 1, j 2, eq_ix3 j⟩
  exact v58_apply _ _ _ _ _ _ _ _ _ β n f

/-- The second result of the reference is the specification's array of attention weights. -/
theorem prob_eq (m : (ℓ : Loc nD τ sig) → Buf (Elt Ideal) ℓ) (c : Dev nD) :
    (Cert.ReferenceIdeal.Value.res_main_v55 (F := Ideal) m c : S2x8x2048x2048.Idx → EReal)
      = AttnLayer.probArr (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  rw [val_main_v55_eq]
  funext j
  obtain ⟨β, h, n, k, rfl⟩ : ∃ (β : Fin 2) (h : Fin 8) (n k : Fin 2048), j = ix4 β h n k :=
    ⟨j 0, j 1, j 2, j 3, eq_ix4 j⟩
  exact v55_apply _ _ _ _ _ _ _ β h n k

end Cert.ReferenceIdeal.Layer

end
-- ==== Proof.lean ====
/-
  A graph-attention layer with an additive spatial bias, computed two ways, gives the same two arrays over the
  extended reals.

  The layer: from x [2, 2048, 128] three linear layers Q, K, V (weights [128, 128], biases [128]) are cut into 8 heads
  of 16 features; the scores Σ_d Q(β, n, 16h+d) · K(β, m, 16h+d) are scaled, the spatial encoding with its diagonal zeroed
  is added, entries where the adjacency word is 0 are replaced by −10¹⁰, a softmax is taken along the key axis, and the
  weights multiply V; the output has feature 8d + h from head h, coordinate d. Results: the output [2, 2048, 128] and the
  attention weights [2, 8, 2048, 2048] (proof/Proof/AttnLayer.lean states all of this index by index).

  One program does it in two calls over blocks: one matrix product of the flattened rows with the three weight
  matrices stacked (plus the stacked biases), then, per batch and tile of 128 query rows, all eight heads against all
  keys and values, scaling by the word ¼. The other does it with whole-array operations and divides by √16. They agree
  because ¼ is 1/√16 exactly and division by a nonzero real is multiplication by its reciprocal on every extended
  real; everything else is the same sums, maxima and quotients, only tiled differently — no law is used that would need
  the inputs finite, so the precondition is never opened.

  The three frame claims: each of the two block programs runs to its end from any memory, nothing faulting, leaving every
  argument as launched (proof/Proof/WordRun.lean at the word level, proof/Proof/IdealRun.lean over the extended reals,
  the same argument at two instances); the whole-array program's run is read off its operations one by one.
-/
import proofs.«411331_j31172872634849_3_alg».proof.Defs
import proofs.«411331_j31172872634849_3_alg».proof.Proof.Gen.Kernel
import proofs.«411331_j31172872634849_3_alg».proof.Proof.Gen.KernelIdeal
import proofs.«411331_j31172872634849_3_alg».proof.Proof.Gen.ReferenceIdeal
import proofs.«411331_j31172872634849_3_alg».proof.Proof.Gen.Pre_finite_inputs
import proofs.«411331_j31172872634849_3_alg».proof.Proof.WordRun
import proofs.«411331_j31172872634849_3_alg».proof.Proof.IdealRun
import proofs.«411331_j31172872634849_3_alg».proof.Proof.LayerResult
import proofs.«411331_j31172872634849_3_alg».proof.Proof.RefLayer
import Idealize.ShloMosaic.Adequacy
import Idealize.ShloMosaic.Init

set_option maxRecDepth 16384

noncomputable section

namespace Cert.Proof

open Idealize.ShloMosaic Idealize.SL.Sem

/-- The word-level block program leaves its arguments as launched. -/
theorem frame_word : Cert.frame_Kernel := fun m ρ _ => Cert.Kernel.Run.frame (F := Bits) m ρ

/-- The block program over the extended reals leaves its arguments as launched. -/
theorem frame_ideal : Cert.frame_KernelIdeal := fun m ρ _ => Cert.KernelIdeal.Run.frame (F := Ideal) m ρ

/-- The whole-array program leaves its arguments as launched: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories agreeing on the nine inputs both programs end with the output array and the attention-weights array
    of the specification. -/
theorem algebraic : Cert.algebraic_KernelIdeal_ReferenceIdeal := by
  intro m ρ m' ρ' _ hagree
  refine ⟨fun c => AttnLayer.outArr (Cert.KernelIdeal.Result.xIn m c) (Cert.KernelIdeal.Result.adjIn m c) (Cert.KernelIdeal.Result.encIn m c)
      (Cert.KernelIdeal.Result.WqIn m c) (Cert.KernelIdeal.Result.bqIn m c) (Cert.KernelIdeal.Result.WkIn m c) (Cert.KernelIdeal.Result.bkIn m c)
      (Cert.KernelIdeal.Result.WvIn m c) (Cert.KernelIdeal.Result.bvIn m c),
    fun c => AttnLayer.probArr (Cert.KernelIdeal.Result.xIn m c) (Cert.KernelIdeal.Result.adjIn m c) (Cert.KernelIdeal.Result.encIn m c)
      (Cert.KernelIdeal.Result.WqIn m c) (Cert.KernelIdeal.Result.bqIn m c) (Cert.KernelIdeal.Result.WkIn m c) (Cert.KernelIdeal.Result.bkIn m c), ?_, ?_⟩
  · refine (θ_run Cert.KernelIdeal.defs _ _).mono (fun r h c => ?_) (Cert.KernelIdeal.Run.run_all (F := Ideal) m ρ)
    exact ⟨(h c _ (Cert.KernelIdeal.Run.mem_uc Cert.KernelIdeal.main_v15_0 (by decide))).trans (Cert.KernelIdeal.Result.out_result m ρ c),
      (h c _ (Cert.KernelIdeal.Run.mem_uc Cert.KernelIdeal.main_v15_1 (by decide))).trans (Cert.KernelIdeal.Result.prob_result m ρ c),
      (h c _ (Cert.KernelIdeal.Run.mem_uc Cert.KernelIdeal.main_arg0 (by decide))).trans (Cert.KernelIdeal.Run.W4_main_arg0 m ρ c),
      (h c _ (Cert.KernelIdeal.Run.mem_uc Cert.KernelIdeal.main_arg1 (by decide))).trans (Cert.KernelIdeal.Run.W4_main_arg1 m ρ c),
      (h c _ (Cert.KernelIdeal.Run.mem_uc Cert.KernelIdeal.main_arg2 (by decide))).trans (Cert.KernelIdeal.Run.W4_main_arg2 m ρ c),
      (h c _ (Cert.KernelIdeal.Run.mem_uc Cert.KernelIdeal.main_arg3 (by decide))).trans (Cert.KernelIdeal.Run.W4_main_arg3 m ρ c),
      (h c _ (Cert.KernelIdeal.Run.mem_uc Cert.KernelIdeal.main_arg4 (by decide))).trans (Cert.KernelIdeal.Run.W4_main_arg4 m ρ c),
      (h c _ (Cert.KernelIdeal.Run.mem_uc Cert.KernelIdeal.main_arg5 (by decide))).trans (Cert.KernelIdeal.Run.W4_main_arg5 m ρ c),
      (h c _ (Cert.KernelIdeal.Run.mem_uc Cert.KernelIdeal.main_arg6 (by decide))).trans (Cert.KernelIdeal.Run.W4_main_arg6 m ρ c),
      (h c _ (Cert.KernelIdeal.Run.mem_uc Cert.KernelIdeal.main_arg7 (by decide))).trans (Cert.KernelIdeal.Run.W4_main_arg7 m ρ c),
      (h c _ (Cert.KernelIdeal.Run.mem_uc Cert.KernelIdeal.main_arg8 (by decide))).trans (Cert.KernelIdeal.Run.W4_main_arg8 m ρ c)⟩
  · refine (θ_run Cert.ReferenceIdeal.defs _ _).mono (fun r h c => ?_) (Cert.ReferenceIdeal.Value.run (F := Ideal) m' ρ')
    obtain ⟨e0, e1, e2, e3, e4, e5, e6, e7, e8⟩ := hagree c
    refine ⟨(h c).1.trans ?_, (h c).2.1.trans ?_, (h c).2.2⟩
    · rw [Cert.ReferenceIdeal.Layer.out_eq m' c, e0, e1, e2, e3, e4, e5, e6, e7, e8]
    · rw [Cert.ReferenceIdeal.Layer.prob_eq m' c, e0, e1, e2, e3, e4, e5, e6]

theorem claim : Cert.Claim := ⟨Cert.Kernel.Gen.facts, Cert.KernelIdeal.Gen.facts, Cert.ReferenceIdeal.Gen.facts, Cert.Pre_finite_inputs.Gen.facts,
  frame_word, frame_ideal, frame_reference, preserves, algebraic⟩

end Cert.Proof

end
